-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x128 .f32) (main_arg1 : FVec F S8192x16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== Kernel.lean ====
abbrev S8192x128 : Shape := ⟨2, ![8192, 128]⟩
abbrev S8192x16 : Shape := ⟨2, ![8192, 16]⟩
abbrev S8192 : Shape := ⟨1, ![8192]⟩
abbrev S512x128 : Shape := ⟨2, ![512, 128]⟩
abbrev S512x16 : Shape := ⟨2, ![512, 16]⟩
abbrev S512 : Shape := ⟨1, ![512]⟩
abbrev S512x512 : Shape := ⟨2, ![512, 512]⟩
abbrev S512x1 : Shape := ⟨2, ![512, 1]⟩
abbrev S1x512 : Shape := ⟨2, ![1, 512]⟩
abbrev S_ : Shape := ⟨0, ![]⟩

abbrev nBuf : Space → Nat
  | .hbm => 26
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S512_S512_0 : ∀ a, (![0] : Fin 1 → Nat) a + S512.size a ≤ S512.size a
  h_S512 : 0 < S512.numel
  inb_S512x128_S512x128_0_0 : ∀ a, (![0, 0] : Fin 2 → Nat) a + S512x128.size a ≤ S512x128.size a
  h_S512x128 : 0 < S512x128.numel
  inb_S512x16_S512x16_0_0 : ∀ a, (![0, 0] : Fin 2 → Nat) a + S512x16.size a ≤ S512x16.size a
  h_S512x16 : 0 < S512x16.numel
  reduces_S512x128_S512 : S512x128.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x16_S512 : S512x16.Reduces [1] S512
  shapeCasts_S512_S512 : S512.ShapeCasts S512
  reduces_S512x512_S512 : S512x512.Reduces [1] S512
  reducesTo_S8192_S_d0 : S8192.ReducesTo [0] S_
  h_S_ : 0 < S_.numel
  bcast_S_S8192 : S_.BroadcastsInDim S8192 (![] : Fin 0 → Fin S8192.rank)
  dot_S512x128_S512x128_S512x512_1_1_0_0_n_n_wf : DotDims.WF S512x128 S512x128 S512x512 [1] [1] [0] [0] [] []
  dot_S512x16_S512x16_S512x512_1_1_0_0_n_n_wf : DotDims.WF S512x16 S512x16 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S8192x16.size a
  hwx0_2 : ∀ i : grid0.Coords, EltTy.bits .f32 = 32 ∨ (Rect.block (s := S8192x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S8192x16.size a
  hwx0_3 : ∀ i : grid0.Coords, EltTy.bits .f32 = 32 ∨ (Rect.block (s := S8192x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .f32 = 32 ∨ (Rect.block (s := S8192) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S8192.size a
  hwx0_5 : ∀ i : grid0.Coords, EltTy.bits .f32 = 32 ∨ (Rect.block (s := S8192) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S8192.size a
  hwx0_6 : ∀ i : grid0.Coords, EltTy.bits .f32 = 32 ∨ (Rect.block (s := S8192) S512.size (cc0_transform_6 i) (hinb0_6 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x16_S512x16_S512x512_1_1_0_0_n_n : DotDims S512x16 S512x16 S512x512 where
  lhsContracting := [1]
  rhsContracting := [1]
  lhsNonContracting := [0]
  rhsNonContracting := [0]
  lhsBatch := []
  rhsBatch := []
  wf := dot_S512x16_S512x16_S512x512_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩
abbrev S16x8192 : Shape := ⟨2, ![16, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S128x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x16, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S16x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S1x8192, .f32⟩
  | .hbm, ⟨43, _⟩ => ⟨S_, .f32⟩
  | .hbm, ⟨44, _⟩ => ⟨S1x8192, .f32⟩
  | .hbm, ⟨45, _⟩ => ⟨S1x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_cst_12 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x128_S128x8192_1_0 : S8192x128.Transposes [1, 0] S128x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  transposes_S8192x1_S1x8192_1_0 : S8192x1.Transposes [1, 0] S1x8192
  bcast_S1x8192_S8192x8192_0_1 : S1x8192.BroadcastsInDim S8192x8192 (![0, 1] : Fin 2 → Fin S8192x8192.rank)
  reducesTo_S8192x16_S8192_d1 : S8192x16.ReducesTo [1] S8192
  transposes_S8192x16_S16x8192_1_0 : S8192x16.Transposes [1, 0] S16x8192
  reducesTo_S8192x8192_S8192_d0 : S8192x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  reducesTo_S8192x8192_S8192_d1 : S8192x8192.ReducesTo [1] S8192
  bcast_S_S8192x1 : S_.BroadcastsInDim S8192x1 (![] : Fin 0 → Fin S8192x1.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []
  dot_S8192x16_S16x8192_S8192x8192_1_0_0_1_n_n_wf : DotDims.WF S8192x16 S16x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.KBody.lean ====
import proofs.«141356_j76493367542784_1_alg».proof.Proof.Gen.Kernel.Launch
import proofs.«141356_j76493367542784_1_alg».proof.Proof.Gen.Kernel.Skeleton
import proofs.«141356_j76493367542784_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## One point's step on each running row sum -/

/-- The first running sum after one tile: the sum so far plus the row sums of the tile's first Gaussian kernel. -/
def stepK (xi xj : Vec F S512x128 .f32) (p : Vec F S512 .f32) : Vec F S512 .f32 := k0_pay2 (k0_pay8 xi xj) p

/-- The second running sum after one tile: the sum so far plus the row sums of the tile's second Gaussian kernel. -/
def stepL (yi yj : Vec F S512x16 .f32) (p : Vec F S512 .f32) : Vec F S512 .f32 := k0_pay3 (k0_pay9 yi yj) (k0_pay10 yj) p

/-- The third running sum after one tile: the sum so far plus the row sums of the product of the two kernels. -/
def stepLK (xi xj : Vec F S512x128 .f32) (yi yj : Vec F S512x16 .f32) (p : Vec F S512 .f32) : Vec F S512 .f32 :=
  k0_pay4 (k0_pay8 xi xj) (k0_pay9 yi yj) (k0_pay10 yj) p

/-- The zero vector every running sum is reset to at the first tile of a row of tiles. -/
def zeroV : Vec F S512 .f32 := k0_pay5 (F := F)

theorem k0_pay6_eq_zeroV : (k0_pay6 (F := F) : Vec F S512 .f32) = zeroV := rfl
theorem k0_pay7_eq_zeroV : (k0_pay7 (F := F) : Vec F S512 .f32) = zeroV := rfl

/-! ## What the outputs hold after each point -/

/-- The three running row sums after the body at position `n`: at the first tile of a row of tiles (`n ≡ 0 mod 16`)
    one step from zero, elsewhere one step from what the point before left. -/
def outsAt (c : Dev nD) : (n : ℕ) → n < cfg0.N → Vec F S512 .f32 × Vec F S512 .f32 × Vec F S512 .f32
  | 0, hn =>
    (stepK (iblk V c 0 ⟨0, hn⟩) (iblk V c 1 ⟨0, hn⟩) zeroV,
     stepL (iblk V c 2 ⟨0, hn⟩) (iblk V c 3 ⟨0, hn⟩) zeroV,
     stepLK (iblk V c 0 ⟨0, hn⟩) (iblk V c 1 ⟨0, hn⟩) (iblk V c 2 ⟨0, hn⟩) (iblk V c 3 ⟨0, hn⟩) zeroV)
  | n + 1, hn =>
    if h0 : (n + 1) % 16 = 0 then
      (stepK (iblk V c 0 ⟨n + 1, hn⟩) (iblk V c 1 ⟨n + 1, hn⟩) zeroV,
       stepL (iblk V c 2 ⟨n + 1, hn⟩) (iblk V c 3 ⟨n + 1, hn⟩) zeroV,
       stepLK (iblk V c 0 ⟨n + 1, hn⟩) (iblk V c 1 ⟨n + 1, hn⟩) (iblk V c 2 ⟨n + 1, hn⟩) (iblk V c 3 ⟨n + 1, hn⟩) zeroV)
    else
      (stepK (iblk V c 0 ⟨n + 1, hn⟩) (iblk V c 1 ⟨n + 1, hn⟩) (outsAt c n (Nat.lt_of_succ_lt hn)).1,
       stepL (iblk V c 2 ⟨n + 1, hn⟩) (iblk V c 3 ⟨n + 1, hn⟩) (outsAt c n (Nat.lt_of_succ_lt hn)).2.1,
       stepLK (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2)

/-- At the first tile of a row of tiles: one step from zero. -/
theorem outsAt_A (c : Dev nD) (t : Fin cfg0.N) (h0 : t.val % 16 = 0) :
    outsAt V c t.val t.isLt =
      (stepK (iblk V c 0 t) (iblk V c 1 t) zeroV,
       stepL (iblk V c 2 t) (iblk V c 3 t) zeroV,
       stepLK (iblk V c 0 t) (iblk V c 1 t) (iblk V c 2 t) (iblk V c 3 t) zeroV) := by
  obtain ⟨n, hn⟩ := t
  cases n with
  | zero => exact rfl
  | succ n => exact (dif_pos h0).trans rfl

/-- Elsewhere: one step from what the point before left. -/
theorem outsAt_B (c : Dev nD) (t : Fin cfg0.N) (h0 : ¬ t.val % 16 = 0) :
    outsAt V c t.val t.isLt =
      (let p := outsAt V c (t.val - 1) (Nat.lt_of_le_of_lt (Nat.sub_le _ _) t.isLt)
       (stepK (iblk V c 0 t) (iblk V c 1 t) p.1,
        stepL (iblk V c 2 t) (iblk V c 3 t) p.2.1,
        stepLK (iblk V c 0 t) (iblk V c 1 t) (iblk V c 2 t) (iblk V c 3 t) p.2.2)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the three outputs' at the running sums; the invariant the scoped rest;
    nothing owed; of each input array, read through two windows, one half to each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2
  Φ _ := Pipeline.ΦA spec0 c
  q w := match w with
    | ⟨0, _⟩ => (fullShare : PosShare TreeShare).left
    | ⟨1, _⟩ => (fullShare : PosShare TreeShare).right
    | ⟨2, _⟩ => (fullShare : PosShare TreeShare).left
    | ⟨3, _⟩ => (fullShare : PosShare TreeShare).right
    | ⟨4, _⟩ => fullShare
    | ⟨5, _⟩ => fullShare
    | ⟨6, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt V c t.val t.isLt).1 := by dsimp only [dat0]
theorem after0_5 (c : Dev nD) (t : Fin cfg0.N) : (dat0 V c).after 5 t = (outsAt V c t.val t.isLt).2.1 := by dsimp only [dat0]
theorem after0_6 (c : Dev nD) (t : Fin cfg0.N) : (dat0 V c).after 6 t = (outsAt V c t.val t.isLt).2.2 := by dsimp only [dat0]

/-! ## The body's branch condition -/

/-- The condition of the body's reset: the second grid coordinate is zero. -/
abbrev cond0_0 (i : grid0.Coords) : Prop := (Scalar.cmpi .ne (Scalar.extui (Scalar.cmpi .eq (BitVec.ofNat 32 (i 1).val) 0#32)) 0#32) = 1#1
/-- It holds at the first tile of every row of tiles — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- Each window's current staging memref at point `t`, as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512 .f32 := win0_6.stage (cfg0.slots t 6)
abbrev hs0_6 (t : Fin cfg0.N) : (ms0_6 t).IsWhole := hstage0_6 ((cfg0.slots t 6).cast nbuf0_6)

/-! ## The kernel body on any staging memrefs, case by case -/

set_option maxHeartbeats 4000000 in
/-- What the body's stores leave in each output's staging memref, as pieces (last first), at a point where the reset
    is taken, with the proof that on whole staging memrefs — the inputs' at their contents, the outputs' at anything —
    the body runs to the continuation holding the inputs' as they were and each output's buffer with its pieces written. -/
noncomputable def kernelRun_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i)
    (x0 x1 : Vec F S512x128 .f32) (x2 x3 : Vec F S512x16 .f32) :
    Σ' (L4 : List (View.Piece (Elt F) S512 .f32)) (L5 : List (View.Piece (Elt F) S512 .f32)), { L6 : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__hsic_tile_kernel i arg2 harg2 arg3 harg3 arg4 harg4 arg5 harg5 arg6 harg6 arg7 harg7 arg8 harg8) K } := by
  refine ⟨?_, ?_, ?_, fun E K => ?run⟩
  case run =>
    simp only [cc0__hsic_tile_kernel_eq_skeleton]; unfold cc0__hsic_tile_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

set_option maxHeartbeats 4000000 in
/-- The same at a point where the reset is not taken: the outputs' memrefs at the running sums `xo·` the point
    before left. -/
noncomputable def kernelRun_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i)
    (x0 x1 : Vec F S512x128 .f32) (x2 x3 : Vec F S512x16 .f32) (xo4 xo5 xo6 : Vec F S512 .f32) :
    Σ' (L4 : List (View.Piece (Elt F) S512 .f32)) (L5 : List (View.Piece (Elt F) S512 .f32)), { L6 : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__hsic_tile_kernel i arg2 harg2 arg3 harg3 arg4 harg4 arg5 harg5 arg6 harg6 arg7 harg7 arg8 harg8) K } := by
  refine ⟨?_, ?_, ?_, fun E K => ?run⟩
  case run =>
    simp only [cc0__hsic_tile_kernel_eq_skeleton]; unfold cc0__hsic_tile_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

/-! ## The found pieces read back -/

theorem hz1 : (![0] : Fin 1 → Nat) = fun _ => 0 := funext fun a => by fin_cases a <;> rfl
theorem hz2 : (![0, 0] : Fin 2 → Nat) = fun _ => 0 := funext fun a => by fin_cases a <;> rfl

/-- Where the reset is taken, output 0's pieces cover its block, -/
theorem coverA_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) (y : S512.Idx) :
    ∃ pc ∈ (kernelRun_A c i arg2 harg2 arg3 harg3 arg4 harg4 arg5 harg5 arg6 harg6 arg7 harg7 arg8 harg8 hc0 x0 x1 x2 x3).1, y ∈ pc.1.set :=
  View.cover_of_tiledL (kernelRun_A c i arg2 harg2 arg3 harg3 arg4 harg4 arg5 harg5 arg6 harg6 arg7 harg7 arg8 harg8 hc0 x0 x1 x2 x3).1 S512.size (by sl_kernel_rfl) y

/-- and leave one step from zero: the zeros stored are read back and the tile's row sums added. -/
theorem pieceA_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) :
    View.canon (kernelRun_A c i arg2 harg2 arg3 harg3 arg4 harg4 arg5 harg5 arg6 harg6 arg7 harg7 arg8 harg8 hc0 x0 x1 x2 x3).1 = stepK x0 x1 zeroV := by
  unfold kernelRun_A
  dsimp only
  sl_unfold_words
  rw [View.canon_cons_unit_zero (S := S512) hz1, View.readCov_unit_zero (S := S512) _ hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is taken, output 1's pieces cover its block, -/
theorem coverA_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) (y : S512.Idx) :
    ∃ pc ∈ (kernelRun_A c i arg2 harg2 arg3 harg3 arg4 harg4 arg5 harg5 arg6 harg6 arg7 harg7 arg8 harg8 hc0 x0 x1 x2 x3).2.1, y ∈ pc.1.set :=
  View.cover_of_tiledL (kernelRun_A c i arg2 harg2 arg3 harg3 arg4 harg4 arg5 harg5 arg6 harg6 arg7 harg7 arg8 harg8 hc0 x0 x1 x2 x3).2.1 S512.size (by sl_kernel_rfl) y

/-- and leave one step from zero: the zeros stored are read back and the tile's row sums added. -/
theorem pieceA_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) :
    View.canon (kernelRun_A c i arg2 harg2 arg3 harg3 arg4 harg4 arg5 harg5 arg6 harg6 arg7 harg7 arg8 harg8 hc0 x0 x1 x2 x3).2.1 = stepL x2 x3 zeroV := by
  unfold kernelRun_A
  dsimp only
  sl_unfold_words
  rw [View.canon_cons_unit_zero (S := S512) hz1, View.readCov_unit_zero (S := S512) _ hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is taken, output 2's pieces cover its block, -/
theorem coverA_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) (y : S512.Idx) :
    ∃ pc ∈ (kernelRun_A c i arg2 harg2 arg3 harg3 arg4 harg4 arg5 harg5 arg6 harg6 arg7 harg7 arg8 harg8 hc0 x0 x1 x2 x3).2.2.1, y ∈ pc.1.set :=
  View.cover_of_tiledL (kernelRun_A c i arg2 harg2 arg3 harg3 arg4 harg4 arg5 harg5 arg6 harg6 arg7 harg7 arg8 harg8 hc0 x0 x1 x2 x3).2.2.1 S512.size (by sl_kernel_rfl) y

/-- and leave one step from zero: the zeros stored are read back and the tile's row sums added. -/
theorem pieceA_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) :
    View.canon (kernelRun_A c i arg2 harg2 arg3 harg3 arg4 harg4 arg5 harg5 arg6 harg6 arg7 harg7 arg8 harg8 hc0 x0 x1 x2 x3).2.2.1 = stepLK x0 x1 x2 x3 zeroV := by
  unfold kernelRun_A
  dsimp only
  sl_unfold_words
  rw [View.canon_cons_unit_zero (S := S512) hz1, View.readCov_unit_zero (S := S512) _ hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is not taken, output 0's one piece covers its block, -/
theorem coverB_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) (y : S512.Idx) :
    ∃ pc ∈ (kernelRun_B c i arg2 harg2 arg3 harg3 arg4 harg4 arg5 harg5 arg6 harg6 arg7 harg7 arg8 harg8 hc0 x0 x1 x2 x3 xo4 xo5 xo6).1, y ∈ pc.1.set :=
  View.cover_of_tiledL (kernelRun_B c i arg2 harg2 arg3 harg3 arg4 harg4 arg5 harg5 arg6 harg6 arg7 harg7 arg8 harg8 hc0 x0 x1 x2 x3 xo4 xo5 xo6).1 S512.size (by sl_kernel_rfl) y

/-- and leaves one step from the running sum found. -/
theorem pieceB_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) :
    View.canon (kernelRun_B c i arg2 harg2 arg3 harg3 arg4 harg4 arg5 harg5 arg6 harg6 arg7 harg7 arg8 harg8 hc0 x0 x1 x2 x3 xo4 xo5 xo6).1 = stepK x0 x1 xo4 := by
  unfold kernelRun_B
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is not taken, output 1's one piece covers its block, -/
theorem coverB_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) (y : S512.Idx) :
    ∃ pc ∈ (kernelRun_B c i arg2 harg2 arg3 harg3 arg4 harg4 arg5 harg5 arg6 harg6 arg7 harg7 arg8 harg8 hc0 x0 x1 x2 x3 xo4 xo5 xo6).2.1, y ∈ pc.1.set :=
  View.cover_of_tiledL (kernelRun_B c i arg2 harg2 arg3 harg3 arg4 harg4 arg5 harg5 arg6 harg6 arg7 harg7 arg8 harg8 hc0 x0 x1 x2 x3 xo4 xo5 xo6).2.1 S512.size (by sl_kernel_rfl) y

/-- and leaves one step from the running sum found. -/
theorem pieceB_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) :
    View.canon (kernelRun_B c i arg2 harg2 arg3 harg3 arg4 harg4 arg5 harg5 arg6 harg6 arg7 harg7 arg8 harg8 hc0 x0 x1 x2 x3 xo4 xo5 xo6).2.1 = stepL x2 x3 xo5 := by
  unfold kernelRun_B
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is not taken, output 2's one piece covers its block, -/
theorem coverB_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) (y : S512.Idx) :
    ∃ pc ∈ (kernelRun_B c i arg2 harg2 arg3 harg3 arg4 harg4 arg5 harg5 arg6 harg6 arg7 harg7 arg8 harg8 hc0 x0 x1 x2 x3 xo4 xo5 xo6).2.2.1, y ∈ pc.1.set :=
  View.cover_of_tiledL (kernelRun_B c i arg2 harg2 arg3 harg3 arg4 harg4 arg5 harg5 arg6 harg6 arg7 harg7 arg8 harg8 hc0 x0 x1 x2 x3 xo4 xo5 xo6).2.2.1 S512.size (by sl_kernel_rfl) y

/-- and leaves one step from the running sum found. -/
theorem pieceB_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) :
    View.canon (kernelRun_B c i arg2 harg2 arg3 harg3 arg4 harg4 arg5 harg5 arg6 harg6 arg7 harg7 arg8 harg8 hc0 x0 x1 x2 x3 xo4 xo5 xo6).2.2.1 = stepLK x0 x1 x2 x3 xo6 := by
  unfold kernelRun_B
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-! ## The running sums, component by component -/

theorem outsAt_A_1 (c : Dev nD) (t : Fin cfg0.N) (h0 : t.val % 16 = 0) :
    (outsAt V c t.val t.isLt).1 = stepK (iblk V c 0 t) (iblk V c 1 t) zeroV := by rw [outsAt_A V c t h0]
theorem outsAt_A_2 (c : Dev nD) (t : Fin cfg0.N) (h0 : t.val % 16 = 0) :
    (outsAt V c t.val t.isLt).2.1 = stepL (iblk V c 2 t) (iblk V c 3 t) zeroV := by rw [outsAt_A V c t h0]
theorem outsAt_A_3 (c : Dev nD) (t : Fin cfg0.N) (h0 : t.val % 16 = 0) :
    (outsAt V c t.val t.isLt).2.2 = stepLK (iblk V c 0 t) (iblk V c 1 t) (iblk V c 2 t) (iblk V c 3 t) zeroV := by rw [outsAt_A V c t h0]
theorem outsAt_B_1 (c : Dev nD) (t : Fin cfg0.N) (h0 : ¬t.val % 16 = 0) :
    (outsAt V c t.val t.isLt).1 = stepK (iblk V c 0 t) (iblk V c 1 t) (outsAt V c (t.val - 1) (Nat.lt_of_le_of_lt (Nat.sub_le _ _) t.isLt)).1 := by rw [outsAt_B V c t h0]
theorem outsAt_B_2 (c : Dev nD) (t : Fin cfg0.N) (h0 : ¬t.val % 16 = 0) :
    (outsAt V c t.val t.isLt).2.1 = stepL (iblk V c 2 t) (iblk V c 3 t) (outsAt V c (t.val - 1) (Nat.lt_of_le_of_lt (Nat.sub_le _ _) t.isLt)).2.1 := by rw [outsAt_B V c t h0]
theorem outsAt_B_3 (c : Dev nD) (t : Fin cfg0.N) (h0 : ¬t.val % 16 = 0) :
    (outsAt V c t.val t.isLt).2.2 = stepLK (iblk V c 0 t) (iblk V c 1 t) (iblk V c 2 t) (iblk V c 3 t) (outsAt V c (t.val - 1) (Nat.lt_of_le_of_lt (Nat.sub_le _ _) t.isLt)).2.2 := by rw [outsAt_B V c t h0]

/-! ## What the body finds in each staging buffer -/

/-- Input window 0's current staging buffer holds its block at every point, fetched there or not: unfetched, the
    block index has not moved. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)

/-- Input window 1's current staging buffer holds its block at every point, fetched there or not: unfetched, the
    block index has not moved. -/
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq0]; try rfl) t d).trans
    (by unfold Dat.fetched Dat.blockOf iblk; rw [A_eq0]; try rfl)

/-- Input window 2's current staging buffer holds its block at every point, fetched there or not: unfetched, the
    block index has not moved. -/
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A_eq0]; try rfl) t d).trans
    (by unfold Dat.fetched Dat.blockOf iblk; rw [A_eq0]; try rfl)

/-- Input window 3's current staging buffer holds its block at every point, fetched there or not: unfetched, the
    block index has not moved. -/
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A_eq0]; try rfl) t d).trans
    (by unfold Dat.fetched Dat.blockOf iblk; rw [A_eq0]; try rfl)

/-- Off the first tile of a row of tiles output 0's current staging buffer holds what the body left at the point
    before: the point is not the first and the buffer was not written back between. -/
theorem before0_4_B (c : Dev nD) (t : Fin cfg0.N) (h0 : ¬t.val % 16 = 0) (d) :
    (dat0 V c).before 4 t d = (outsAt V c (t.val - 1) (Nat.lt_of_le_of_lt (Nat.sub_le _ _) t.isLt)).1 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dat0]

/-- Off the first tile of a row of tiles output 1's current staging buffer holds what the body left at the point
    before: the point is not the first and the buffer was not written back between. -/
theorem before0_5_B (c : Dev nD) (t : Fin cfg0.N) (h0 : ¬t.val % 16 = 0) (d) :
    (dat0 V c).before 5 t d = (outsAt V c (t.val - 1) (Nat.lt_of_le_of_lt (Nat.sub_le _ _) t.isLt)).2.1 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dat0]

/-- Off the first tile of a row of tiles output 2's current staging buffer holds what the body left at the point
    before: the point is not the first and the buffer was not written back between. -/
theorem before0_6_B (c : Dev nD) (t : Fin cfg0.N) (h0 : ¬t.val % 16 = 0) (d) :
    (dat0 V c).before 6 t d = (outsAt V c (t.val - 1) (Nat.lt_of_le_of_lt (Nat.sub_le _ _) t.isLt)).2.2 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any point: the inputs' memrefs hold their blocks; the closed form says whether the point resets; off
    a reset each output holds what the point before left; so the case's run applies, and its pieces read back to the
    running sums. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 16 = 0
  · rw [outsAt_A_1 V c t h0, outsAt_A_2 V c t h0, outsAt_A_3 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t) _ _ _ _ _ _ _ _ _ _ _ _ _ _ ((hcond0_0 t).mpr h0) (iblk V c 0 t) (iblk V c 1 t) (iblk V c 2 t) (iblk V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverA_4 c _ _ _ _ _ _ _ _ _ _ _ _ _ _ _ _ _ _ _ _)).trans (pieceA_4 c _ _ _ _ _ _ _ _ _ _ _ _ _ _ _ _ _ _ _ _)
    isplitl [H5]
    · unfold owns; iexists _; isplitr
      swap; · iexact H5
      ipureintro; exact (View.read_writes_eq_canon _ _ _ (coverA_5 c _ _ _ _ _ _ _ _ _ _ _ _ _ _ _ _ _ _ _ _)).trans (pieceA_5 c _ _ _ _ _ _ _ _ _ _ _ _ _ _ _ _ _ _ _ _)
    unfold owns; iexists _; isplitr
    swap; · iexact H6
    ipureintro; exact (View.read_writes_eq_canon _ _ _ (coverA_6 c _ _ _ _ _ _ _ _ _ _ _ _ _ _ _ _ _ _ _ _)).trans (pieceA_6 c _ _ _ _ _ _ _ _ _ _ _ _ _ _ _ _ _ _ _ _)
  · rw [outsAt_B_1 V c t h0, outsAt_B_2 V c t h0, outsAt_B_3 V c t h0]
    simp only [before0_4_B V c t h0, before0_5_B V c t h0, before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ (fun h => h0 ((hcond0_0 t).mp h)) (iblk V c 0 t) (iblk V c 1 t) (iblk V c 2 t) (iblk V c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverB_4 c _ _ _ _ _ _ _ _ _ _ _ _ _ _ _ _ _ _ _ _ _ _ _)).trans (pieceB_4 c _ _ _ _ _ _ _ _ _ _ _ _ _ _ _ _ _ _ _ _ _ _ _)
    isplitl [H5]
    · unfold owns; iexists _; isplitr
      swap; · iexact H5
      ipureintro; exact (View.read_writes_eq_canon _ _ _ (coverB_5 c _ _ _ _ _ _ _ _ _ _ _ _ _ _ _ _ _ _ _ _ _ _ _)).trans (pieceB_5 c _ _ _ _ _ _ _ _ _ _ _ _ _ _ _ _ _ _ _ _ _ _ _)
    unfold owns; iexists _; isplitr
    swap; · iexact H6
    ipureintro; exact (View.read_writes_eq_canon _ _ _ (coverB_6 c _ _ _ _ _ _ _ _ _ _ _ _ _ _ _ _ _ _ _ _ _ _ _)).trans (pieceB_6 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.Kernel.Hand

end
-- ==== Proof.KRun.lean ====
import proofs.«141356_j76493367542784_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main: one kernel region, then the host operations

The kernel's seven windows name five arrays: windows 0 and 1 both read `main_arg0`, windows 2 and 3 both read
`main_arg1`, and windows 4, 5, 6 write three arrays of their own. A shared input array is held by its two windows
at the two halves of the full share, which add up to the whole; at the region's exit the halves, holding the same
contents, join back. Everything is stated for proof data `dat` given as a parameter, of which only the entry
contents, the invariant, the shares of the four input windows, the tallies owed and the body obligation are used. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dat : (c : Dev nD) → Dat τ (Elt F) Unit ℕ (UR sig nD τ) ℕ cfg0 c)

/-! ## The buffer contents at the segment boundaries -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At the region's exit: the three output arrays at what the write-backs leave, every other buffer as launched. -/
def W2 (c : Dev nD) : Valuation τ sig (Elt F) := fun b =>
  if h : Proc.devRef .tc main_v0_0 = b then
    cast (congrArg (fun b' : DevRef τ sig => b'.ty.Contents (Elt F)) h) ((dat c).arrAt 4 cfg0.N)
  else if h : Proc.devRef .tc main_v0_1 = b then
    cast (congrArg (fun b' : DevRef τ sig => b'.ty.Contents (Elt F)) h) ((dat c).arrAt 5 cfg0.N)
  else if h : Proc.devRef .tc main_v0_2 = b then
    cast (congrArg (fun b' : DevRef τ sig => b'.ty.Contents (Elt F)) h) ((dat c).arrAt 6 cfg0.N)
  else W0 m ρ c b

theorem W2_out4 (c : Dev nD) : W2 m ρ dat c (Proc.devRef .tc main_v0_0) = (dat c).arrAt 4 cfg0.N := by
  unfold W2; rw [dif_pos rfl]; rfl
theorem W2_out5 (c : Dev nD) : W2 m ρ dat c (Proc.devRef .tc main_v0_1) = (dat c).arrAt 5 cfg0.N := by
  unfold W2; rw [dif_neg (by decide), dif_pos rfl]; rfl
theorem W2_out6 (c : Dev nD) : W2 m ρ dat c (Proc.devRef .tc main_v0_2) = (dat c).arrAt 6 cfg0.N := by
  unfold W2; rw [dif_neg (by decide), dif_neg (by decide), dif_pos rfl]; rfl
theorem W2_of_ne (c : Dev nD) (b : Ref sig .tc) (h0 : b ≠ main_v0_0) (h1 : b ≠ main_v0_1) (h2 : b ≠ main_v0_2) :
    W2 m ρ dat c (Proc.devRef .tc b) = W0 m ρ c (Proc.devRef .tc b) := by
  unfold W2
  rw [dif_neg (fun e => h0 (Proc.devRef_injective _ e).symm), dif_neg (fun e => h1 (Proc.devRef_injective _ e).symm),
    dif_neg (fun e => h2 (Proc.devRef_injective _ e).symm)]
/-- The same read at the TensorCore's references. -/
abbrev V2 : (c : Dev nD) → (b : Ref sig .tc) → Buf (Elt F) ((c : Thread nD τ).loc b) := fun c b => W2 m ρ dat c b

/-- After the host operations. -/
abbrev W3 (c : Dev nD) : Valuation τ sig (Elt F) := StableHlo.after hostOps1 (W2 m ρ dat c)

/-! ## A shared input array: its two windows hold the two halves of the full share -/

section Shared

variable (c : Dev nD)

/-- A window's array is a whole buffer: holding the array's elements is holding the buffer's. -/
theorem win_pt (w : Fin 7) (q : PosShare TreeShare) (f : Buf (Elt F) ((cfg0.win w).arr.view.loc (c : Thread nD τ))) :
    ((cfg0.win w).arr.view.loc (c : Thread nD τ) ↦[(cfg0.win w).arr.view.set]{q} f : sProp 𝕄)
      = ((c : Thread nD τ).loc (Pipeline.arrRef spec0 w) ↦{q} f) := by
  rw [(arr_whole0 w).set_eq_univ]

/-- The seven windows' holdings one by one, each at its window's share. -/
theorem arrays_chain (G : (w : Fin cfg0.W) → Buf (Elt F) ((cfg0.win w).arr.view.loc (c : Thread nD τ))) :
    ((dat c).arrays G : sProp 𝕄) = iprop(
      (((c : Thread nD τ).loc main_arg0) ↦{(dat c).share 0} G 0) ∗ (((c : Thread nD τ).loc main_arg0) ↦{(dat c).share 1} G 1)
      ∗ (((c : Thread nD τ).loc main_arg1) ↦{(dat c).share 2} G 2) ∗ (((c : Thread nD τ).loc main_arg1) ↦{(dat c).share 3} G 3)
      ∗ (((c : Thread nD τ).loc main_v0_0) ↦{(dat c).share 4} G 4) ∗ (((c : Thread nD τ).loc main_v0_1) ↦{(dat c).share 5} G 5)
      ∗ (((c : Thread nD τ).loc main_v0_2) ↦{(dat c).share 6} G 6)) := by
  unfold Pipeline.Dat.arrays
  rw [bigSep_W0, win_pt c 0, win_pt c 1, win_pt c 2, win_pt c 3, win_pt c 4, win_pt c 5, win_pt c 6]

/-- The five distinct arrays one by one, each whole. -/
theorem arrBufs_chain (V : (b : Ref sig .tc) → Buf (Elt F) ((c : Thread nD τ).loc b)) :
    (Pipeline.arrBufs spec0 c V : sProp 𝕄) = iprop(
      (((c : Thread nD τ).loc main_arg0) ↦{fullShare} V main_arg0) ∗ (((c : Thread nD τ).loc main_arg1) ↦{fullShare} V main_arg1)
      ∗ (((c : Thread nD τ).loc main_v0_0) ↦{fullShare} V main_v0_0) ∗ (((c : Thread nD τ).loc main_v0_1) ↦{fullShare} V main_v0_1)
      ∗ (((c : Thread nD τ).loc main_v0_2) ↦{fullShare} V main_v0_2)) := by
  unfold Pipeline.arrBufs
  rw [bigSep_eq_bigSepL_of_eq [main_arg0, main_arg1, main_v0_0, main_v0_1, main_v0_2] (by decide) (by decide)]
  rfl

theorem share_out4 : (dat c).share 4 = fullShare := rfl
theorem share_out5 : (dat c).share 5 = fullShare := rfl
theorem share_out6 : (dat c).share 6 = fullShare := rfl
theorem share_in0 : (dat c).share 0 = (dat c).q 0 := rfl
theorem share_in1 : (dat c).share 1 = (dat c).q 1 := rfl
theorem share_in2 : (dat c).share 2 = (dat c).q 2 := rfl
theorem share_in3 : (dat c).share 3 = (dat c).q 3 := rfl

/-- ENTRY: the five arrays whole at the launch contents are the seven windows' holdings at the entry contents, each
    shared input array's full share split in its two halves. -/
theorem arrays_of_arrBufs
    (hA : ∀ w, (dat c).A w = m ((c : Thread nD τ).loc (Pipeline.arrRef spec0 w)))
    (hq0 : (dat c).q 0 = (fullShare : PosShare TreeShare).left) (hq1 : (dat c).q 1 = (fullShare : PosShare TreeShare).right)
    (hq2 : (dat c).q 2 = (fullShare : PosShare TreeShare).left) (hq3 : (dat c).q 3 = (fullShare : PosShare TreeShare).right) :
    (Pipeline.arrBufs spec0 c (V0 m ρ c) : sProp 𝕄) ⊢ (dat c).arrays ((dat c).arrAt · 0) := by
  rw [arrays_chain, arrBufs_chain, share_in0, share_in1, share_in2, share_in3, share_out4, share_out5, share_out6,
    hq0, hq1, hq2, hq3]
  rw [show (dat c).arrAt 0 0 = (dat c).A 0 from rfl, show (dat c).arrAt 1 0 = (dat c).A 1 from rfl,
    show (dat c).arrAt 2 0 = (dat c).A 2 from rfl, show (dat c).arrAt 3 0 = (dat c).A 3 from rfl,
    show (dat c).arrAt 4 0 = (dat c).A 4 from rfl, show (dat c).arrAt 5 0 = (dat c).A 5 from rfl,
    show (dat c).arrAt 6 0 = (dat c).A 6 from rfl, hA 0, hA 1, hA 2, hA 3, hA 4, hA 5, hA 6]
  iintro ⟨H0, H1, H4, H5, H6⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitl [H0l]; · iexact H0l
  isplitl [H0r]; · iexact H0r
  isplitl [H1l]; · iexact H1l
  isplitl [H1r]; · iexact H1r
  isplitl [H4]; · iexact H4
  isplitl [H5]; · iexact H5
  iexact H6

/-- The exit valuation at the two argument arrays and at the three output arrays. -/
theorem V2_arg0 : V2 m ρ dat c main_arg0 = m ((c : Thread nD τ).loc main_arg0) :=
  W2_of_ne m ρ dat c main_arg0 (by decide) (by decide) (by decide)
theorem V2_arg1 : V2 m ρ dat c main_arg1 = m ((c : Thread nD τ).loc main_arg1) :=
  W2_of_ne m ρ dat c main_arg1 (by decide) (by decide) (by decide)
theorem V2_out4 : V2 m ρ dat c main_v0_0 = (dat c).arrAt 4 cfg0.N := W2_out4 m ρ dat c
theorem V2_out5 : V2 m ρ dat c main_v0_1 = (dat c).arrAt 5 cfg0.N := W2_out5 m ρ dat c
theorem V2_out6 : V2 m ρ dat c main_v0_2 = (dat c).arrAt 6 cfg0.N := W2_out6 m ρ dat c

/-- The buffers that are no window's array are at the exit what they were at launch. -/
theorem unscopedRest_exit :
    (Pipeline.unscopedRest spec0 c (V0 m ρ c) : sProp 𝕄) = Pipeline.unscopedRest spec0 c (V2 m ρ dat c) := by
  unfold Pipeline.unscopedRest
  refine bigSep_congr fun b hb => ?_
  have hn := (Finset.mem_sdiff.mp hb).2
  rw [show V2 m ρ dat c b = V0 m ρ c b from W2_of_ne m ρ dat c b
    (fun e => hn (e ▸ Finset.mem_image.mpr ⟨4, Finset.mem_univ _, rfl⟩))
    (fun e => hn (e ▸ Finset.mem_image.mpr ⟨5, Finset.mem_univ _, rfl⟩))
    (fun e => hn (e ▸ Finset.mem_image.mpr ⟨6, Finset.mem_univ _, rfl⟩))]

/-- EXIT: the seven windows' holdings at the final contents — each shared input array's two halves, at the one entry
    contents, joined back — and the rest are every unscoped buffer at the exit valuation. -/
theorem unscopedBufs_of_arrays
    (hA : ∀ w, (dat c).A w = m ((c : Thread nD τ).loc (Pipeline.arrRef spec0 w)))
    (hq0 : (dat c).q 0 = (fullShare : PosShare TreeShare).left) (hq1 : (dat c).q 1 = (fullShare : PosShare TreeShare).right)
    (hq2 : (dat c).q 2 = (fullShare : PosShare TreeShare).left) (hq3 : (dat c).q 3 = (fullShare : PosShare TreeShare).right) :
    iprop((dat c).arrays ((dat c).arrAt · cfg0.N) ∗ Pipeline.unscopedRest spec0 c (V0 m ρ c))
      ⊢ (unscopedBufs c (V2 m ρ dat c) : sProp 𝕄) := by
  rw [Pipeline.unscopedBufs_split₀ cfgs 0 winFacts₀0.arr_unscoped c (V2 m ρ dat c), unscopedRest_exit m ρ dat c,
    arrays_chain, arrBufs_chain, share_in0, share_in1, share_in2, share_in3, share_out4, share_out5, share_out6,
    hq0, hq1, hq2, hq3, V2_arg0, V2_arg1, V2_out4, V2_out5, V2_out6,
    (dat c).arrAt_in 0 rfl, (dat c).arrAt_in 1 rfl, (dat c).arrAt_in 2 rfl, (dat c).arrAt_in 3 rfl, hA 0, hA 1, hA 2, hA 3]
  iintro ⟨⟨H0l, H0r, H1l, H1r, H4, H5, H6⟩, Hrest⟩
  isplitr [Hrest]
  · isplitl [H0l H0r]
    · iapply (pointsTo_share (PosShare.mem_left_op_right fullShare)).2
      isplitl [H0l] <;> iassumption
    isplitl [H1l H1r]
    · iapply (pointsTo_share (PosShare.mem_left_op_right fullShare)).2
      isplitl [H1l] <;> iassumption
    isplitl [H4]; · iexact H4
    isplitl [H5]; · iexact H5
    iexact H6
  iexact Hrest

end Shared

/-! ## The arguments end as launched

No host operation writes an argument array and the region only reads them, so the last valuation at an argument's
buffer walks back to the launch memory. -/

theorem W3_main_arg0 (c : Dev nD) : W3 m ρ dat c (Proc.devRef .tc main_arg0) = m ((c : Thread nD τ).loc main_arg0) :=
  calc W3 m ρ dat c (Proc.devRef .tc main_arg0)
    _ = W2 m ρ dat c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := W2_of_ne m ρ dat c main_arg0 (by decide) (by decide) (by decide)
    _ = m ((c : Thread nD τ).loc main_arg0) := rfl

theorem W3_main_arg1 (c : Dev nD) : W3 m ρ dat c (Proc.devRef .tc main_arg1) = m ((c : Thread nD τ).loc main_arg1) :=
  calc W3 m ρ dat c (Proc.devRef .tc main_arg1)
    _ = W2 m ρ dat c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := W2_of_ne m ρ dat c main_arg1 (by decide) (by decide) (by decide)
    _ = m ((c : Thread nD τ).loc main_arg1) := rfl

/-! ## The proof data family and the thread state -/

/-- The prefetched tables' admissible contents: the pipeline has no table. -/
abbrev adm : (p : Fin 1) → (pcfgs (F := F) p).Adm := fun p => (cfgs p).toPCfg_adm
/-- The one pipeline's proof data: the parameter. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at
    some state. -/
abbrev Tₙ (c : Dev nD) : sProp 𝕄 := iprop(StableHlo.held (c : Thread nD τ) (Pipeline.ucRefs τ sig) (W3 m ρ dat c) ∗ ∃ r, prngReg c r)

/-! ## The region as a segment -/

set_option backward.isDefEq.respectTransparency.types false in
/-- The kernel region over the thread state: entered from every unscoped buffer at the launch contents, left at the exit
    contents. Its arrays split out of the unscoped buffers, a shared array's share halved between its two windows, and
    put back at the exit; the generator register into the invariant and out; nothing owed; no semaphore of the kernel's
    own. -/
def reg0 (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) :
    Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W0 m ρ c) ∗ R c)
  post c := iprop(StableHlo.held (c : Thread nD τ) (Pipeline.ucRefs τ sig) (W2 m ρ dat c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs c (V0 m ρ c) : sProp 𝕄)
        ⊢ iprop((dat c).arrays ((dat c).arrAt · 0) ∗ Pipeline.unscopedRest spec0 c (V0 m ρ c)) := by
      rw [Pipeline.unscopedBufs_split₀ cfgs 0 winFacts₀0.arr_unscoped c (V0 m ρ c)]
      exact sep_mono (arrays_of_arrBufs m ρ dat c (hA c) (hq0 c) (hq1 c) (hq2 c) (hq3 c)) .rfl
    rw [Pipeline.unscopedBufs_held] at hsplit
    have hO : (iprop(∃ W, owes (c : Thread nD τ) (0 : CellTallies nD τ sig Unit) W) : sProp 𝕄) ⊢ (pdats dat 0 c).owesAt () 0 := by
      unfold Pipeline.Dat.owesAt Pipeline.owesWithin
      rw [show (pdats dat 0 c).owed 0 = 0 from howed c 0]
      iintro ⟨%W, HO⟩; iexists W; isplitr
      · ipureintro; exact fun x _ => Or.inl (by rw [show (pdats dat 0 c).recorded 0 = Set.univ from hrec c]; exact Set.mem_univ x)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    rw [show (pdats dat 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats dat 0 c).Φ (Fin.last _) = Pipeline.ΦA spec0 c from hΦ c _]; unfold Pipeline.ΦA
    iintro ⟨Hr, Hp⟩
    isplitl [Hp]; · iexact Hp
    isplitr; · iempintro
    iexact Hr
  hexit c := by
    have hjoin := unscopedBufs_of_arrays m ρ dat c (hA c) (hq0 c) (hq1 c) (hq2 c) (hq3 c)
    rw [Pipeline.unscopedBufs_held] at hjoin
    have hO : (pdats dat 0 c).owesAt () (Fin.last _) ⊢ (iprop(∃ W, owes (c : Thread nD τ) (0 : CellTallies nD τ sig Unit) W) : sProp 𝕄) := by
      unfold Pipeline.Dat.owesAt Pipeline.owesWithin
      rw [show (pdats dat 0 c).owed (Fin.last _) = 0 from howed c _]
      iintro ⟨%W, -, HO⟩; iexists W; iexact HO
    iintro ⟨Ha, HO, HY, Hrest⟩
    imodintro
    isplitl [Ha Hrest]
    · iapply hjoin; isplitl [Ha]; · iexact Ha
      iexact Hrest
    isplitl [HY]; · iexact HY
    iapply hO; iexact HO

/-! ## @main as segments, and the launch -/

/-- @main's two segments: the kernel region, then the host operations from the region's exit contents. -/
abbrev segs (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) :
    List (Pipeline.Seg (pcfgs (F := F)) adm (pdats dat) () defs₀ 𝒱₀ L lv) :=
  [ .region (reg0 m ρ dat hA hΦ howed hrec hq0 hq1 hq2 hq3 hbody),
    .host (hseg hostOps1 hostOps1_sub hostOps1_fresh (W2 m ρ dat)) ]

/-- @main is the run of the segments. -/
theorem main_run (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) (c : Dev nD) :
    main (F := F) c = Pipeline.Seg.run (segs m ρ dat hA hΦ howed hrec hq0 hq1 hq2 hq3 hbody) :=
  main_segs adm (pdats dat) () 𝒱₀ L lv (hseg hostOps1 hostOps1_sub hostOps1_fresh (W2 m ρ dat)) (reg0 m ρ dat hA hΦ howed hrec hq0 hq1 hq2 hq3 hbody) rfl c

set_option backward.isDefEq.respectTransparency.types false in
/-- THE RUN: at the compiled mesh, from any memory with zero counters, every weakly fair execution of @main on the
    TensorCores terminates, nothing faulting, and every final state has the two argument arrays as launched and the
    result buffer at the last contents of the fold. -/
theorem run_main_of (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) :
    θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v13) = W3 m ρ dat c (Proc.devRef .tc main_v13)) :=
  Pipeline.θ_run_regions_kit (pcfgs (F := F)) adm (pdats dat) () cellOf_inj emb₁ defs₀ 𝒱₀ L lv m ρ main (segs m ρ dat hA hΦ howed hrec hq0 hq1 hq2 hq3 hbody)
    (fun c Q => by rw [main_run m ρ dat hA hΦ howed hrec hq0 hq1 hq2 hq3 hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat)
    (hch := ⟨fun _ => .rfl, fun _ => .rfl, fun c => show iprop(StableHlo.held (c : Thread nD τ) (Pipeline.ucRefs τ sig) (W3 m ρ dat c) ∗ R c)
        ⊢ iprop(Tₙ m ρ dat c ∗ ∃ W, owes (c : Thread nD τ) (0 : CellTallies nD τ sig Unit) W) from by
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ dat c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat c) s')
      isplitl [Hh] <;> iassumption)
    (hQ := fun s h c =>
      ⟨(h c _ (mem_uc main_arg0 (by decide))).trans (W3_main_arg0 m ρ dat c),
       (h c _ (mem_uc main_arg1 (by decide))).trans (W3_main_arg1 m ρ dat c),
       h c _ (mem_uc main_v13 (by decide))⟩)

/-- info: 'Cert.Kernel.Hand.run_main_of' depends on axioms: [propext, Classical.choice, Quot.sound] -/
#guard_msgs in #print axioms run_main_of

end Cert.Kernel.Hand

end
-- ==== Proof.KIBody.lean ====
import proofs.«141356_j76493367542784_1_alg».proof.Proof.Gen.KernelIdeal.Launch
import proofs.«141356_j76493367542784_1_alg».proof.Proof.Gen.KernelIdeal.Skeleton
import proofs.«141356_j76493367542784_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## One point's step on each running row sum -/

/-- The first running sum after one tile: the sum so far plus the row sums of the tile's first Gaussian kernel. -/
def stepK (xi xj : Vec F S512x128 .f32) (p : Vec F S512 .f32) : Vec F S512 .f32 := k0_pay2 (k0_pay8 xi xj) p

/-- The second running sum after one tile: the sum so far plus the row sums of the tile's second Gaussian kernel. -/
def stepL (yi yj : Vec F S512x16 .f32) (p : Vec F S512 .f32) : Vec F S512 .f32 := k0_pay3 (k0_pay9 yi yj) (k0_pay10 yj) p

/-- The third running sum after one tile: the sum so far plus the row sums of the product of the two kernels. -/
def stepLK (xi xj : Vec F S512x128 .f32) (yi yj : Vec F S512x16 .f32) (p : Vec F S512 .f32) : Vec F S512 .f32 :=
  k0_pay4 (k0_pay8 xi xj) (k0_pay9 yi yj) (k0_pay10 yj) p

/-- The zero vector every running sum is reset to at the first tile of a row of tiles. -/
def zeroV : Vec F S512 .f32 := k0_pay5 (F := F)

theorem k0_pay6_eq_zeroV : (k0_pay6 (F := F) : Vec F S512 .f32) = zeroV := rfl
theorem k0_pay7_eq_zeroV : (k0_pay7 (F := F) : Vec F S512 .f32) = zeroV := rfl

/-! ## What the outputs hold after each point -/

/-- The three running row sums after the body at position `n`: at the first tile of a row of tiles (`n ≡ 0 mod 16`)
    one step from zero, elsewhere one step from what the point before left. -/
def outsAt (c : Dev nD) : (n : ℕ) → n < cfg0.N → Vec F S512 .f32 × Vec F S512 .f32 × Vec F S512 .f32
  | 0, hn =>
    (stepK (iblk V c 0 ⟨0, hn⟩) (iblk V c 1 ⟨0, hn⟩) zeroV,
     stepL (iblk V c 2 ⟨0, hn⟩) (iblk V c 3 ⟨0, hn⟩) zeroV,
     stepLK (iblk V c 0 ⟨0, hn⟩) (iblk V c 1 ⟨0, hn⟩) (iblk V c 2 ⟨0, hn⟩) (iblk V c 3 ⟨0, hn⟩) zeroV)
  | n + 1, hn =>
    if h0 : (n + 1) % 16 = 0 then
      (stepK (iblk V c 0 ⟨n + 1, hn⟩) (iblk V c 1 ⟨n + 1, hn⟩) zeroV,
       stepL (iblk V c 2 ⟨n + 1, hn⟩) (iblk V c 3 ⟨n + 1, hn⟩) zeroV,
       stepLK (iblk V c 0 ⟨n + 1, hn⟩) (iblk V c 1 ⟨n + 1, hn⟩) (iblk V c 2 ⟨n + 1, hn⟩) (iblk V c 3 ⟨n + 1, hn⟩) zeroV)
    else
      (stepK (iblk V c 0 ⟨n + 1, hn⟩) (iblk V c 1 ⟨n + 1, hn⟩) (outsAt c n (Nat.lt_of_succ_lt hn)).1,
       stepL (iblk V c 2 ⟨n + 1, hn⟩) (iblk V c 3 ⟨n + 1, hn⟩) (outsAt c n (Nat.lt_of_succ_lt hn)).2.1,
       stepLK (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2)

/-- At the first tile of a row of tiles: one step from zero. -/
theorem outsAt_A (c : Dev nD) (t : Fin cfg0.N) (h0 : t.val % 16 = 0) :
    outsAt V c t.val t.isLt =
      (stepK (iblk V c 0 t) (iblk V c 1 t) zeroV,
       stepL (iblk V c 2 t) (iblk V c 3 t) zeroV,
       stepLK (iblk V c 0 t) (iblk V c 1 t) (iblk V c 2 t) (iblk V c 3 t) zeroV) := by
  obtain ⟨n, hn⟩ := t
  cases n with
  | zero => exact rfl
  | succ n => exact (dif_pos h0).trans rfl

/-- Elsewhere: one step from what the point before left. -/
theorem outsAt_B (c : Dev nD) (t : Fin cfg0.N) (h0 : ¬ t.val % 16 = 0) :
    outsAt V c t.val t.isLt =
      (let p := outsAt V c (t.val - 1) (Nat.lt_of_le_of_lt (Nat.sub_le _ _) t.isLt)
       (stepK (iblk V c 0 t) (iblk V c 1 t) p.1,
        stepL (iblk V c 2 t) (iblk V c 3 t) p.2.1,
        stepLK (iblk V c 0 t) (iblk V c 1 t) (iblk V c 2 t) (iblk V c 3 t) p.2.2)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the three outputs' at the running sums; the invariant the scoped rest;
    nothing owed; of each input array, read through two windows, one half to each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2
  Φ _ := Pipeline.ΦA spec0 c
  q w := match w with
    | ⟨0, _⟩ => (fullShare : PosShare TreeShare).left
    | ⟨1, _⟩ => (fullShare : PosShare TreeShare).right
    | ⟨2, _⟩ => (fullShare : PosShare TreeShare).left
    | ⟨3, _⟩ => (fullShare : PosShare TreeShare).right
    | ⟨4, _⟩ => fullShare
    | ⟨5, _⟩ => fullShare
    | ⟨6, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt V c t.val t.isLt).1 := by dsimp only [dat0]
theorem after0_5 (c : Dev nD) (t : Fin cfg0.N) : (dat0 V c).after 5 t = (outsAt V c t.val t.isLt).2.1 := by dsimp only [dat0]
theorem after0_6 (c : Dev nD) (t : Fin cfg0.N) : (dat0 V c).after 6 t = (outsAt V c t.val t.isLt).2.2 := by dsimp only [dat0]

/-! ## The body's branch condition -/

/-- The condition of the body's reset: the second grid coordinate is zero. -/
abbrev cond0_0 (i : grid0.Coords) : Prop := (Scalar.cmpi .ne (Scalar.extui (Scalar.cmpi .eq (BitVec.ofNat 32 (i 1).val) 0#32)) 0#32) = 1#1
/-- It holds at the first tile of every row of tiles — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- Each window's current staging memref at point `t`, as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512 .f32 := win0_6.stage (cfg0.slots t 6)
abbrev hs0_6 (t : Fin cfg0.N) : (ms0_6 t).IsWhole := hstage0_6 ((cfg0.slots t 6).cast nbuf0_6)

/-! ## The kernel body on any staging memrefs, case by case -/

set_option maxHeartbeats 4000000 in
/-- What the body's stores leave in each output's staging memref, as pieces (last first), at a point where the reset
    is taken, with the proof that on whole staging memrefs — the inputs' at their contents, the outputs' at anything —
    the body runs to the continuation holding the inputs' as they were and each output's buffer with its pieces written. -/
noncomputable def kernelRun_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i)
    (x0 x1 : Vec F S512x128 .f32) (x2 x3 : Vec F S512x16 .f32) :
    Σ' (L4 : List (View.Piece (Elt F) S512 .f32)) (L5 : List (View.Piece (Elt F) S512 .f32)), { L6 : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__hsic_tile_kernel i arg2 harg2 arg3 harg3 arg4 harg4 arg5 harg5 arg6 harg6 arg7 harg7 arg8 harg8) K } := by
  refine ⟨?_, ?_, ?_, fun E K => ?run⟩
  case run =>
    simp only [cc0__hsic_tile_kernel_eq_skeleton]; unfold cc0__hsic_tile_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

set_option maxHeartbeats 4000000 in
/-- The same at a point where the reset is not taken: the outputs' memrefs at the running sums `xo·` the point
    before left. -/
noncomputable def kernelRun_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i)
    (x0 x1 : Vec F S512x128 .f32) (x2 x3 : Vec F S512x16 .f32) (xo4 xo5 xo6 : Vec F S512 .f32) :
    Σ' (L4 : List (View.Piece (Elt F) S512 .f32)) (L5 : List (View.Piece (Elt F) S512 .f32)), { L6 : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__hsic_tile_kernel i arg2 harg2 arg3 harg3 arg4 harg4 arg5 harg5 arg6 harg6 arg7 harg7 arg8 harg8) K } := by
  refine ⟨?_, ?_, ?_, fun E K => ?run⟩
  case run =>
    simp only [cc0__hsic_tile_kernel_eq_skeleton]; unfold cc0__hsic_tile_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

/-! ## The found pieces read back -/

theorem hz1 : (![0] : Fin 1 → Nat) = fun _ => 0 := funext fun a => by fin_cases a <;> rfl
theorem hz2 : (![0, 0] : Fin 2 → Nat) = fun _ => 0 := funext fun a => by fin_cases a <;> rfl

/-- Where the reset is taken, output 0's pieces cover its block, -/
theorem coverA_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) (y : S512.Idx) :
    ∃ pc ∈ (kernelRun_A c i arg2 harg2 arg3 harg3 arg4 harg4 arg5 harg5 arg6 harg6 arg7 harg7 arg8 harg8 hc0 x0 x1 x2 x3).1, y ∈ pc.1.set :=
  View.cover_of_tiledL (kernelRun_A c i arg2 harg2 arg3 harg3 arg4 harg4 arg5 harg5 arg6 harg6 arg7 harg7 arg8 harg8 hc0 x0 x1 x2 x3).1 S512.size (by sl_kernel_rfl) y

/-- and leave one step from zero: the zeros stored are read back and the tile's row sums added. -/
theorem pieceA_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) :
    View.canon (kernelRun_A c i arg2 harg2 arg3 harg3 arg4 harg4 arg5 harg5 arg6 harg6 arg7 harg7 arg8 harg8 hc0 x0 x1 x2 x3).1 = stepK x0 x1 zeroV := by
  unfold kernelRun_A
  dsimp only
  sl_unfold_words
  rw [View.canon_cons_unit_zero (S := S512) hz1, View.readCov_unit_zero (S := S512) _ hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is taken, output 1's pieces cover its block, -/
theorem coverA_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) (y : S512.Idx) :
    ∃ pc ∈ (kernelRun_A c i arg2 harg2 arg3 harg3 arg4 harg4 arg5 harg5 arg6 harg6 arg7 harg7 arg8 harg8 hc0 x0 x1 x2 x3).2.1, y ∈ pc.1.set :=
  View.cover_of_tiledL (kernelRun_A c i arg2 harg2 arg3 harg3 arg4 harg4 arg5 harg5 arg6 harg6 arg7 harg7 arg8 harg8 hc0 x0 x1 x2 x3).2.1 S512.size (by sl_kernel_rfl) y

/-- and leave one step from zero: the zeros stored are read back and the tile's row sums added. -/
theorem pieceA_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) :
    View.canon (kernelRun_A c i arg2 harg2 arg3 harg3 arg4 harg4 arg5 harg5 arg6 harg6 arg7 harg7 arg8 harg8 hc0 x0 x1 x2 x3).2.1 = stepL x2 x3 zeroV := by
  unfold kernelRun_A
  dsimp only
  sl_unfold_words
  rw [View.canon_cons_unit_zero (S := S512) hz1, View.readCov_unit_zero (S := S512) _ hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is taken, output 2's pieces cover its block, -/
theorem coverA_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) (y : S512.Idx) :
    ∃ pc ∈ (kernelRun_A c i arg2 harg2 arg3 harg3 arg4 harg4 arg5 harg5 arg6 harg6 arg7 harg7 arg8 harg8 hc0 x0 x1 x2 x3).2.2.1, y ∈ pc.1.set :=
  View.cover_of_tiledL (kernelRun_A c i arg2 harg2 arg3 harg3 arg4 harg4 arg5 harg5 arg6 harg6 arg7 harg7 arg8 harg8 hc0 x0 x1 x2 x3).2.2.1 S512.size (by sl_kernel_rfl) y

/-- and leave one step from zero: the zeros stored are read back and the tile's row sums added. -/
theorem pieceA_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : cond0_0 i) (x0 x1 : Vec F S512x128 .f32) (x2 x3 : Vec F S512x16 .f32) :
    View.canon (kernelRun_A c i arg2 harg2 arg3 harg3 arg4 harg4 arg5 harg5 arg6 harg6 arg7 harg7 arg8 harg8 hc0 x0 x1 x2 x3).2.2.1 = stepLK x0 x1 x2 x3 zeroV := by
  unfold kernelRun_A
  dsimp only
  sl_unfold_words
  rw [View.canon_cons_unit_zero (S := S512) hz1, View.readCov_unit_zero (S := S512) _ hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is not taken, output 0's one piece covers its block, -/
theorem coverB_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) (y : S512.Idx) :
    ∃ pc ∈ (kernelRun_B c i arg2 harg2 arg3 harg3 arg4 harg4 arg5 harg5 arg6 harg6 arg7 harg7 arg8 harg8 hc0 x0 x1 x2 x3 xo4 xo5 xo6).1, y ∈ pc.1.set :=
  View.cover_of_tiledL (kernelRun_B c i arg2 harg2 arg3 harg3 arg4 harg4 arg5 harg5 arg6 harg6 arg7 harg7 arg8 harg8 hc0 x0 x1 x2 x3 xo4 xo5 xo6).1 S512.size (by sl_kernel_rfl) y

/-- and leaves one step from the running sum found. -/
theorem pieceB_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) :
    View.canon (kernelRun_B c i arg2 harg2 arg3 harg3 arg4 harg4 arg5 harg5 arg6 harg6 arg7 harg7 arg8 harg8 hc0 x0 x1 x2 x3 xo4 xo5 xo6).1 = stepK x0 x1 xo4 := by
  unfold kernelRun_B
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is not taken, output 1's one piece covers its block, -/
theorem coverB_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) (y : S512.Idx) :
    ∃ pc ∈ (kernelRun_B c i arg2 harg2 arg3 harg3 arg4 harg4 arg5 harg5 arg6 harg6 arg7 harg7 arg8 harg8 hc0 x0 x1 x2 x3 xo4 xo5 xo6).2.1, y ∈ pc.1.set :=
  View.cover_of_tiledL (kernelRun_B c i arg2 harg2 arg3 harg3 arg4 harg4 arg5 harg5 arg6 harg6 arg7 harg7 arg8 harg8 hc0 x0 x1 x2 x3 xo4 xo5 xo6).2.1 S512.size (by sl_kernel_rfl) y

/-- and leaves one step from the running sum found. -/
theorem pieceB_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) :
    View.canon (kernelRun_B c i arg2 harg2 arg3 harg3 arg4 harg4 arg5 harg5 arg6 harg6 arg7 harg7 arg8 harg8 hc0 x0 x1 x2 x3 xo4 xo5 xo6).2.1 = stepL x2 x3 xo5 := by
  unfold kernelRun_B
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-- Where the reset is not taken, output 2's one piece covers its block, -/
theorem coverB_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) (y : S512.Idx) :
    ∃ pc ∈ (kernelRun_B c i arg2 harg2 arg3 harg3 arg4 harg4 arg5 harg5 arg6 harg6 arg7 harg7 arg8 harg8 hc0 x0 x1 x2 x3 xo4 xo5 xo6).2.2.1, y ∈ pc.1.set :=
  View.cover_of_tiledL (kernelRun_B c i arg2 harg2 arg3 harg3 arg4 harg4 arg5 harg5 arg6 harg6 arg7 harg7 arg8 harg8 hc0 x0 x1 x2 x3 xo4 xo5 xo6).2.2.1 S512.size (by sl_kernel_rfl) y

/-- and leaves one step from the running sum found. -/
theorem pieceB_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x16 .f32) (harg4 : arg4.IsWhole) (arg5 : Memref sig .tc .vmem S512x16 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (hc0 : ¬cond0_0 i) (x0 x1 : Vec F S512x128 .f32) (x2 x3 : Vec F S512x16 .f32) (xo4 xo5 xo6 : Vec F S512 .f32) :
    View.canon (kernelRun_B c i arg2 harg2 arg3 harg3 arg4 harg4 arg5 harg5 arg6 harg6 arg7 harg7 arg8 harg8 hc0 x0 x1 x2 x3 xo4 xo5 xo6).2.2.1 = stepLK x0 x1 x2 x3 xo6 := by
  unfold kernelRun_B
  dsimp only
  sl_unfold_words
  rw [View.canon_unit_zero hz1]
  simp only [View.readAt_eq_ld, harg2.read_unread, harg3.read_unread, harg4.read_unread, harg5.read_unread, harg6.read_unread, harg7.read_unread, harg8.read_unread, View.ld_unit_zero (S := S512x128) hz2, View.ld_unit_zero (S := S512x16) hz2, View.ld_unit_zero (S := S512) hz1]
  rfl

/-! ## The running sums, component by component -/

theorem outsAt_A_1 (c : Dev nD) (t : Fin cfg0.N) (h0 : t.val % 16 = 0) :
    (outsAt V c t.val t.isLt).1 = stepK (iblk V c 0 t) (iblk V c 1 t) zeroV := by rw [outsAt_A V c t h0]
theorem outsAt_A_2 (c : Dev nD) (t : Fin cfg0.N) (h0 : t.val % 16 = 0) :
    (outsAt V c t.val t.isLt).2.1 = stepL (iblk V c 2 t) (iblk V c 3 t) zeroV := by rw [outsAt_A V c t h0]
theorem outsAt_A_3 (c : Dev nD) (t : Fin cfg0.N) (h0 : t.val % 16 = 0) :
    (outsAt V c t.val t.isLt).2.2 = stepLK (iblk V c 0 t) (iblk V c 1 t) (iblk V c 2 t) (iblk V c 3 t) zeroV := by rw [outsAt_A V c t h0]
theorem outsAt_B_1 (c : Dev nD) (t : Fin cfg0.N) (h0 : ¬t.val % 16 = 0) :
    (outsAt V c t.val t.isLt).1 = stepK (iblk V c 0 t) (iblk V c 1 t) (outsAt V c (t.val - 1) (Nat.lt_of_le_of_lt (Nat.sub_le _ _) t.isLt)).1 := by rw [outsAt_B V c t h0]
theorem outsAt_B_2 (c : Dev nD) (t : Fin cfg0.N) (h0 : ¬t.val % 16 = 0) :
    (outsAt V c t.val t.isLt).2.1 = stepL (iblk V c 2 t) (iblk V c 3 t) (outsAt V c (t.val - 1) (Nat.lt_of_le_of_lt (Nat.sub_le _ _) t.isLt)).2.1 := by rw [outsAt_B V c t h0]
theorem outsAt_B_3 (c : Dev nD) (t : Fin cfg0.N) (h0 : ¬t.val % 16 = 0) :
    (outsAt V c t.val t.isLt).2.2 = stepLK (iblk V c 0 t) (iblk V c 1 t) (iblk V c 2 t) (iblk V c 3 t) (outsAt V c (t.val - 1) (Nat.lt_of_le_of_lt (Nat.sub_le _ _) t.isLt)).2.2 := by rw [outsAt_B V c t h0]

/-! ## What the body finds in each staging buffer -/

/-- Input window 0's current staging buffer holds its block at every point, fetched there or not: unfetched, the
    block index has not moved. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)

/-- Input window 1's current staging buffer holds its block at every point, fetched there or not: unfetched, the
    block index has not moved. -/
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq0]; try rfl) t d).trans
    (by unfold Dat.fetched Dat.blockOf iblk; rw [A_eq0]; try rfl)

/-- Input window 2's current staging buffer holds its block at every point, fetched there or not: unfetched, the
    block index has not moved. -/
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A_eq0]; try rfl) t d).trans
    (by unfold Dat.fetched Dat.blockOf iblk; rw [A_eq0]; try rfl)

/-- Input window 3's current staging buffer holds its block at every point, fetched there or not: unfetched, the
    block index has not moved. -/
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A_eq0]; try rfl) t d).trans
    (by unfold Dat.fetched Dat.blockOf iblk; rw [A_eq0]; try rfl)

/-- Off the first tile of a row of tiles output 0's current staging buffer holds what the body left at the point
    before: the point is not the first and the buffer was not written back between. -/
theorem before0_4_B (c : Dev nD) (t : Fin cfg0.N) (h0 : ¬t.val % 16 = 0) (d) :
    (dat0 V c).before 4 t d = (outsAt V c (t.val - 1) (Nat.lt_of_le_of_lt (Nat.sub_le _ _) t.isLt)).1 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dat0]

/-- Off the first tile of a row of tiles output 1's current staging buffer holds what the body left at the point
    before: the point is not the first and the buffer was not written back between. -/
theorem before0_5_B (c : Dev nD) (t : Fin cfg0.N) (h0 : ¬t.val % 16 = 0) (d) :
    (dat0 V c).before 5 t d = (outsAt V c (t.val - 1) (Nat.lt_of_le_of_lt (Nat.sub_le _ _) t.isLt)).2.1 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dat0]

/-- Off the first tile of a row of tiles output 2's current staging buffer holds what the body left at the point
    before: the point is not the first and the buffer was not written back between. -/
theorem before0_6_B (c : Dev nD) (t : Fin cfg0.N) (h0 : ¬t.val % 16 = 0) (d) :
    (dat0 V c).before 6 t d = (outsAt V c (t.val - 1) (Nat.lt_of_le_of_lt (Nat.sub_le _ _) t.isLt)).2.2 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any point: the inputs' memrefs hold their blocks; the closed form says whether the point resets; off
    a reset each output holds what the point before left; so the case's run applies, and its pieces read back to the
    running sums. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 16 = 0
  · rw [outsAt_A_1 V c t h0, outsAt_A_2 V c t h0, outsAt_A_3 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t) _ _ _ _ _ _ _ _ _ _ _ _ _ _ ((hcond0_0 t).mpr h0) (iblk V c 0 t) (iblk V c 1 t) (iblk V c 2 t) (iblk V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverA_4 c _ _ _ _ _ _ _ _ _ _ _ _ _ _ _ _ _ _ _ _)).trans (pieceA_4 c _ _ _ _ _ _ _ _ _ _ _ _ _ _ _ _ _ _ _ _)
    isplitl [H5]
    · unfold owns; iexists _; isplitr
      swap; · iexact H5
      ipureintro; exact (View.read_writes_eq_canon _ _ _ (coverA_5 c _ _ _ _ _ _ _ _ _ _ _ _ _ _ _ _ _ _ _ _)).trans (pieceA_5 c _ _ _ _ _ _ _ _ _ _ _ _ _ _ _ _ _ _ _ _)
    unfold owns; iexists _; isplitr
    swap; · iexact H6
    ipureintro; exact (View.read_writes_eq_canon _ _ _ (coverA_6 c _ _ _ _ _ _ _ _ _ _ _ _ _ _ _ _ _ _ _ _)).trans (pieceA_6 c _ _ _ _ _ _ _ _ _ _ _ _ _ _ _ _ _ _ _ _)
  · rw [outsAt_B_1 V c t h0, outsAt_B_2 V c t h0, outsAt_B_3 V c t h0]
    simp only [before0_4_B V c t h0, before0_5_B V c t h0, before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ (fun h => h0 ((hcond0_0 t).mp h)) (iblk V c 0 t) (iblk V c 1 t) (iblk V c 2 t) (iblk V c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverB_4 c _ _ _ _ _ _ _ _ _ _ _ _ _ _ _ _ _ _ _ _ _ _ _)).trans (pieceB_4 c _ _ _ _ _ _ _ _ _ _ _ _ _ _ _ _ _ _ _ _ _ _ _)
    isplitl [H5]
    · unfold owns; iexists _; isplitr
      swap; · iexact H5
      ipureintro; exact (View.read_writes_eq_canon _ _ _ (coverB_5 c _ _ _ _ _ _ _ _ _ _ _ _ _ _ _ _ _ _ _ _ _ _ _)).trans (pieceB_5 c _ _ _ _ _ _ _ _ _ _ _ _ _ _ _ _ _ _ _ _ _ _ _)
    unfold owns; iexists _; isplitr
    swap; · iexact H6
    ipureintro; exact (View.read_writes_eq_canon _ _ _ (coverB_6 c _ _ _ _ _ _ _ _ _ _ _ _ _ _ _ _ _ _ _ _ _ _ _)).trans (pieceB_6 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.KernelIdeal.Hand

end
-- ==== Proof.KIRun.lean ====
import proofs.«141356_j76493367542784_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main: one kernel region, then the host operations

The kernel's seven windows name five arrays: windows 0 and 1 both read `main_arg0`, windows 2 and 3 both read
`main_arg1`, and windows 4, 5, 6 write three arrays of their own. A shared input array is held by its two windows
at the two halves of the full share, which add up to the whole; at the region's exit the halves, holding the same
contents, join back. Everything is stated for proof data `dat` given as a parameter, of which only the entry
contents, the invariant, the shares of the four input windows, the tallies owed and the body obligation are used. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dat : (c : Dev nD) → Dat τ (Elt F) Unit ℕ (UR sig nD τ) ℕ cfg0 c)

/-! ## The buffer contents at the segment boundaries -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At the region's exit: the three output arrays at what the write-backs leave, every other buffer as launched. -/
def W2 (c : Dev nD) : Valuation τ sig (Elt F) := fun b =>
  if h : Proc.devRef .tc main_v0_0 = b then
    cast (congrArg (fun b' : DevRef τ sig => b'.ty.Contents (Elt F)) h) ((dat c).arrAt 4 cfg0.N)
  else if h : Proc.devRef .tc main_v0_1 = b then
    cast (congrArg (fun b' : DevRef τ sig => b'.ty.Contents (Elt F)) h) ((dat c).arrAt 5 cfg0.N)
  else if h : Proc.devRef .tc main_v0_2 = b then
    cast (congrArg (fun b' : DevRef τ sig => b'.ty.Contents (Elt F)) h) ((dat c).arrAt 6 cfg0.N)
  else W0 m ρ c b

theorem W2_out4 (c : Dev nD) : W2 m ρ dat c (Proc.devRef .tc main_v0_0) = (dat c).arrAt 4 cfg0.N := by
  unfold W2; rw [dif_pos rfl]; rfl
theorem W2_out5 (c : Dev nD) : W2 m ρ dat c (Proc.devRef .tc main_v0_1) = (dat c).arrAt 5 cfg0.N := by
  unfold W2; rw [dif_neg (by decide), dif_pos rfl]; rfl
theorem W2_out6 (c : Dev nD) : W2 m ρ dat c (Proc.devRef .tc main_v0_2) = (dat c).arrAt 6 cfg0.N := by
  unfold W2; rw [dif_neg (by decide), dif_neg (by decide), dif_pos rfl]; rfl
theorem W2_of_ne (c : Dev nD) (b : Ref sig .tc) (h0 : b ≠ main_v0_0) (h1 : b ≠ main_v0_1) (h2 : b ≠ main_v0_2) :
    W2 m ρ dat c (Proc.devRef .tc b) = W0 m ρ c (Proc.devRef .tc b) := by
  unfold W2
  rw [dif_neg (fun e => h0 (Proc.devRef_injective _ e).symm), dif_neg (fun e => h1 (Proc.devRef_injective _ e).symm),
    dif_neg (fun e => h2 (Proc.devRef_injective _ e).symm)]
/-- The same read at the TensorCore's references. -/
abbrev V2 : (c : Dev nD) → (b : Ref sig .tc) → Buf (Elt F) ((c : Thread nD τ).loc b) := fun c b => W2 m ρ dat c b

/-- After the host operations. -/
abbrev W3 (c : Dev nD) : Valuation τ sig (Elt F) := StableHlo.after hostOps1 (W2 m ρ dat c)

/-! ## A shared input array: its two windows hold the two halves of the full share -/

section Shared

variable (c : Dev nD)

/-- A window's array is a whole buffer: holding the array's elements is holding the buffer's. -/
theorem win_pt (w : Fin 7) (q : PosShare TreeShare) (f : Buf (Elt F) ((cfg0.win w).arr.view.loc (c : Thread nD τ))) :
    ((cfg0.win w).arr.view.loc (c : Thread nD τ) ↦[(cfg0.win w).arr.view.set]{q} f : sProp 𝕄)
      = ((c : Thread nD τ).loc (Pipeline.arrRef spec0 w) ↦{q} f) := by
  rw [(arr_whole0 w).set_eq_univ]

/-- The seven windows' holdings one by one, each at its window's share. -/
theorem arrays_chain (G : (w : Fin cfg0.W) → Buf (Elt F) ((cfg0.win w).arr.view.loc (c : Thread nD τ))) :
    ((dat c).arrays G : sProp 𝕄) = iprop(
      (((c : Thread nD τ).loc main_arg0) ↦{(dat c).share 0} G 0) ∗ (((c : Thread nD τ).loc main_arg0) ↦{(dat c).share 1} G 1)
      ∗ (((c : Thread nD τ).loc main_arg1) ↦{(dat c).share 2} G 2) ∗ (((c : Thread nD τ).loc main_arg1) ↦{(dat c).share 3} G 3)
      ∗ (((c : Thread nD τ).loc main_v0_0) ↦{(dat c).share 4} G 4) ∗ (((c : Thread nD τ).loc main_v0_1) ↦{(dat c).share 5} G 5)
      ∗ (((c : Thread nD τ).loc main_v0_2) ↦{(dat c).share 6} G 6)) := by
  unfold Pipeline.Dat.arrays
  rw [bigSep_W0, win_pt c 0, win_pt c 1, win_pt c 2, win_pt c 3, win_pt c 4, win_pt c 5, win_pt c 6]

/-- The five distinct arrays one by one, each whole. -/
theorem arrBufs_chain (V : (b : Ref sig .tc) → Buf (Elt F) ((c : Thread nD τ).loc b)) :
    (Pipeline.arrBufs spec0 c V : sProp 𝕄) = iprop(
      (((c : Thread nD τ).loc main_arg0) ↦{fullShare} V main_arg0) ∗ (((c : Thread nD τ).loc main_arg1) ↦{fullShare} V main_arg1)
      ∗ (((c : Thread nD τ).loc main_v0_0) ↦{fullShare} V main_v0_0) ∗ (((c : Thread nD τ).loc main_v0_1) ↦{fullShare} V main_v0_1)
      ∗ (((c : Thread nD τ).loc main_v0_2) ↦{fullShare} V main_v0_2)) := by
  unfold Pipeline.arrBufs
  rw [bigSep_eq_bigSepL_of_eq [main_arg0, main_arg1, main_v0_0, main_v0_1, main_v0_2] (by decide) (by decide)]
  rfl

theorem share_out4 : (dat c).share 4 = fullShare := rfl
theorem share_out5 : (dat c).share 5 = fullShare := rfl
theorem share_out6 : (dat c).share 6 = fullShare := rfl
theorem share_in0 : (dat c).share 0 = (dat c).q 0 := rfl
theorem share_in1 : (dat c).share 1 = (dat c).q 1 := rfl
theorem share_in2 : (dat c).share 2 = (dat c).q 2 := rfl
theorem share_in3 : (dat c).share 3 = (dat c).q 3 := rfl

/-- ENTRY: the five arrays whole at the launch contents are the seven windows' holdings at the entry contents, each
    shared input array's full share split in its two halves. -/
theorem arrays_of_arrBufs
    (hA : ∀ w, (dat c).A w = m ((c : Thread nD τ).loc (Pipeline.arrRef spec0 w)))
    (hq0 : (dat c).q 0 = (fullShare : PosShare TreeShare).left) (hq1 : (dat c).q 1 = (fullShare : PosShare TreeShare).right)
    (hq2 : (dat c).q 2 = (fullShare : PosShare TreeShare).left) (hq3 : (dat c).q 3 = (fullShare : PosShare TreeShare).right) :
    (Pipeline.arrBufs spec0 c (V0 m ρ c) : sProp 𝕄) ⊢ (dat c).arrays ((dat c).arrAt · 0) := by
  rw [arrays_chain, arrBufs_chain, share_in0, share_in1, share_in2, share_in3, share_out4, share_out5, share_out6,
    hq0, hq1, hq2, hq3]
  rw [show (dat c).arrAt 0 0 = (dat c).A 0 from rfl, show (dat c).arrAt 1 0 = (dat c).A 1 from rfl,
    show (dat c).arrAt 2 0 = (dat c).A 2 from rfl, show (dat c).arrAt 3 0 = (dat c).A 3 from rfl,
    show (dat c).arrAt 4 0 = (dat c).A 4 from rfl, show (dat c).arrAt 5 0 = (dat c).A 5 from rfl,
    show (dat c).arrAt 6 0 = (dat c).A 6 from rfl, hA 0, hA 1, hA 2, hA 3, hA 4, hA 5, hA 6]
  iintro ⟨H0, H1, H4, H5, H6⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitl [H0l]; · iexact H0l
  isplitl [H0r]; · iexact H0r
  isplitl [H1l]; · iexact H1l
  isplitl [H1r]; · iexact H1r
  isplitl [H4]; · iexact H4
  isplitl [H5]; · iexact H5
  iexact H6

/-- The exit valuation at the two argument arrays and at the three output arrays. -/
theorem V2_arg0 : V2 m ρ dat c main_arg0 = m ((c : Thread nD τ).loc main_arg0) :=
  W2_of_ne m ρ dat c main_arg0 (by decide) (by decide) (by decide)
theorem V2_arg1 : V2 m ρ dat c main_arg1 = m ((c : Thread nD τ).loc main_arg1) :=
  W2_of_ne m ρ dat c main_arg1 (by decide) (by decide) (by decide)
theorem V2_out4 : V2 m ρ dat c main_v0_0 = (dat c).arrAt 4 cfg0.N := W2_out4 m ρ dat c
theorem V2_out5 : V2 m ρ dat c main_v0_1 = (dat c).arrAt 5 cfg0.N := W2_out5 m ρ dat c
theorem V2_out6 : V2 m ρ dat c main_v0_2 = (dat c).arrAt 6 cfg0.N := W2_out6 m ρ dat c

/-- The buffers that are no window's array are at the exit what they were at launch. -/
theorem unscopedRest_exit :
    (Pipeline.unscopedRest spec0 c (V0 m ρ c) : sProp 𝕄) = Pipeline.unscopedRest spec0 c (V2 m ρ dat c) := by
  unfold Pipeline.unscopedRest
  refine bigSep_congr fun b hb => ?_
  have hn := (Finset.mem_sdiff.mp hb).2
  rw [show V2 m ρ dat c b = V0 m ρ c b from W2_of_ne m ρ dat c b
    (fun e => hn (e ▸ Finset.mem_image.mpr ⟨4, Finset.mem_univ _, rfl⟩))
    (fun e => hn (e ▸ Finset.mem_image.mpr ⟨5, Finset.mem_univ _, rfl⟩))
    (fun e => hn (e ▸ Finset.mem_image.mpr ⟨6, Finset.mem_univ _, rfl⟩))]

/-- EXIT: the seven windows' holdings at the final contents — each shared input array's two halves, at the one entry
    contents, joined back — and the rest are every unscoped buffer at the exit valuation. -/
theorem unscopedBufs_of_arrays
    (hA : ∀ w, (dat c).A w = m ((c : Thread nD τ).loc (Pipeline.arrRef spec0 w)))
    (hq0 : (dat c).q 0 = (fullShare : PosShare TreeShare).left) (hq1 : (dat c).q 1 = (fullShare : PosShare TreeShare).right)
    (hq2 : (dat c).q 2 = (fullShare : PosShare TreeShare).left) (hq3 : (dat c).q 3 = (fullShare : PosShare TreeShare).right) :
    iprop((dat c).arrays ((dat c).arrAt · cfg0.N) ∗ Pipeline.unscopedRest spec0 c (V0 m ρ c))
      ⊢ (unscopedBufs c (V2 m ρ dat c) : sProp 𝕄) := by
  rw [Pipeline.unscopedBufs_split₀ cfgs 0 winFacts₀0.arr_unscoped c (V2 m ρ dat c), unscopedRest_exit m ρ dat c,
    arrays_chain, arrBufs_chain, share_in0, share_in1, share_in2, share_in3, share_out4, share_out5, share_out6,
    hq0, hq1, hq2, hq3, V2_arg0, V2_arg1, V2_out4, V2_out5, V2_out6,
    (dat c).arrAt_in 0 rfl, (dat c).arrAt_in 1 rfl, (dat c).arrAt_in 2 rfl, (dat c).arrAt_in 3 rfl, hA 0, hA 1, hA 2, hA 3]
  iintro ⟨⟨H0l, H0r, H1l, H1r, H4, H5, H6⟩, Hrest⟩
  isplitr [Hrest]
  · isplitl [H0l H0r]
    · iapply (pointsTo_share (PosShare.mem_left_op_right fullShare)).2
      isplitl [H0l] <;> iassumption
    isplitl [H1l H1r]
    · iapply (pointsTo_share (PosShare.mem_left_op_right fullShare)).2
      isplitl [H1l] <;> iassumption
    isplitl [H4]; · iexact H4
    isplitl [H5]; · iexact H5
    iexact H6
  iexact Hrest

end Shared

/-! ## The arguments end as launched

No host operation writes an argument array and the region only reads them, so the last valuation at an argument's
buffer walks back to the launch memory. -/

theorem W3_main_arg0 (c : Dev nD) : W3 m ρ dat c (Proc.devRef .tc main_arg0) = m ((c : Thread nD τ).loc main_arg0) :=
  calc W3 m ρ dat c (Proc.devRef .tc main_arg0)
    _ = W2 m ρ dat c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := W2_of_ne m ρ dat c main_arg0 (by decide) (by decide) (by decide)
    _ = m ((c : Thread nD τ).loc main_arg0) := rfl

theorem W3_main_arg1 (c : Dev nD) : W3 m ρ dat c (Proc.devRef .tc main_arg1) = m ((c : Thread nD τ).loc main_arg1) :=
  calc W3 m ρ dat c (Proc.devRef .tc main_arg1)
    _ = W2 m ρ dat c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := W2_of_ne m ρ dat c main_arg1 (by decide) (by decide) (by decide)
    _ = m ((c : Thread nD τ).loc main_arg1) := rfl

/-! ## The proof data family and the thread state -/

/-- The prefetched tables' admissible contents: the pipeline has no table. -/
abbrev adm : (p : Fin 1) → (pcfgs (F := F) p).Adm := fun p => (cfgs p).toPCfg_adm
/-- The one pipeline's proof data: the parameter. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at
    some state. -/
abbrev Tₙ (c : Dev nD) : sProp 𝕄 := iprop(StableHlo.held (c : Thread nD τ) (Pipeline.ucRefs τ sig) (W3 m ρ dat c) ∗ ∃ r, prngReg c r)

/-! ## The region as a segment -/

set_option backward.isDefEq.respectTransparency.types false in
/-- The kernel region over the thread state: entered from every unscoped buffer at the launch contents, left at the exit
    contents. Its arrays split out of the unscoped buffers, a shared array's share halved between its two windows, and
    put back at the exit; the generator register into the invariant and out; nothing owed; no semaphore of the kernel's
    own. -/
def reg0 (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) :
    Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W0 m ρ c) ∗ R c)
  post c := iprop(StableHlo.held (c : Thread nD τ) (Pipeline.ucRefs τ sig) (W2 m ρ dat c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs c (V0 m ρ c) : sProp 𝕄)
        ⊢ iprop((dat c).arrays ((dat c).arrAt · 0) ∗ Pipeline.unscopedRest spec0 c (V0 m ρ c)) := by
      rw [Pipeline.unscopedBufs_split₀ cfgs 0 winFacts₀0.arr_unscoped c (V0 m ρ c)]
      exact sep_mono (arrays_of_arrBufs m ρ dat c (hA c) (hq0 c) (hq1 c) (hq2 c) (hq3 c)) .rfl
    rw [Pipeline.unscopedBufs_held] at hsplit
    have hO : (iprop(∃ W, owes (c : Thread nD τ) (0 : CellTallies nD τ sig Unit) W) : sProp 𝕄) ⊢ (pdats dat 0 c).owesAt () 0 := by
      unfold Pipeline.Dat.owesAt Pipeline.owesWithin
      rw [show (pdats dat 0 c).owed 0 = 0 from howed c 0]
      iintro ⟨%W, HO⟩; iexists W; isplitr
      · ipureintro; exact fun x _ => Or.inl (by rw [show (pdats dat 0 c).recorded 0 = Set.univ from hrec c]; exact Set.mem_univ x)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    rw [show (pdats dat 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats dat 0 c).Φ (Fin.last _) = Pipeline.ΦA spec0 c from hΦ c _]; unfold Pipeline.ΦA
    iintro ⟨Hr, Hp⟩
    isplitl [Hp]; · iexact Hp
    isplitr; · iempintro
    iexact Hr
  hexit c := by
    have hjoin := unscopedBufs_of_arrays m ρ dat c (hA c) (hq0 c) (hq1 c) (hq2 c) (hq3 c)
    rw [Pipeline.unscopedBufs_held] at hjoin
    have hO : (pdats dat 0 c).owesAt () (Fin.last _) ⊢ (iprop(∃ W, owes (c : Thread nD τ) (0 : CellTallies nD τ sig Unit) W) : sProp 𝕄) := by
      unfold Pipeline.Dat.owesAt Pipeline.owesWithin
      rw [show (pdats dat 0 c).owed (Fin.last _) = 0 from howed c _]
      iintro ⟨%W, -, HO⟩; iexists W; iexact HO
    iintro ⟨Ha, HO, HY, Hrest⟩
    imodintro
    isplitl [Ha Hrest]
    · iapply hjoin; isplitl [Ha]; · iexact Ha
      iexact Hrest
    isplitl [HY]; · iexact HY
    iapply hO; iexact HO

/-! ## @main as segments, and the launch -/

/-- @main's two segments: the kernel region, then the host operations from the region's exit contents. -/
abbrev segs (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) :
    List (Pipeline.Seg (pcfgs (F := F)) adm (pdats dat) () defs₀ 𝒱₀ L lv) :=
  [ .region (reg0 m ρ dat hA hΦ howed hrec hq0 hq1 hq2 hq3 hbody),
    .host (hseg hostOps1 hostOps1_sub hostOps1_fresh (W2 m ρ dat)) ]

/-- @main is the run of the segments. -/
theorem main_run (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) (c : Dev nD) :
    main (F := F) c = Pipeline.Seg.run (segs m ρ dat hA hΦ howed hrec hq0 hq1 hq2 hq3 hbody) :=
  main_segs adm (pdats dat) () 𝒱₀ L lv (hseg hostOps1 hostOps1_sub hostOps1_fresh (W2 m ρ dat)) (reg0 m ρ dat hA hΦ howed hrec hq0 hq1 hq2 hq3 hbody) rfl c

set_option backward.isDefEq.respectTransparency.types false in
/-- THE RUN: at the compiled mesh, from any memory with zero counters, every weakly fair execution of @main on the
    TensorCores terminates, nothing faulting, and every final state has the two argument arrays as launched and the
    result buffer at the last contents of the fold. -/
theorem run_main_of (hA : ∀ c w, (dat c).A w = m ((c : Thread nD τ).loc (Pipeline.arrRef spec0 w)))
    (hΦ : ∀ c t, (dat c).Φ t = Pipeline.ΦA spec0 c) (howed : ∀ c t, (dat c).owed t = 0)
    (hrec : ∀ c, (dat c).recorded 0 = Set.univ)
    (hq0 : ∀ c, (dat c).q 0 = (fullShare : PosShare TreeShare).left) (hq1 : ∀ c, (dat c).q 1 = (fullShare : PosShare TreeShare).right)
    (hq2 : ∀ c, (dat c).q 2 = (fullShare : PosShare TreeShare).left) (hq3 : ∀ c, (dat c).q 3 = (fullShare : PosShare TreeShare).right)
    (hbody : ∀ c, BodyObligation (dat c) (defs₀ (F := F)) Variants.none () Set.univ) :
    θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v13) = W3 m ρ dat c (Proc.devRef .tc main_v13)) :=
  Pipeline.θ_run_regions_kit (pcfgs (F := F)) adm (pdats dat) () cellOf_inj emb₁ defs₀ 𝒱₀ L lv m ρ main (segs m ρ dat hA hΦ howed hrec hq0 hq1 hq2 hq3 hbody)
    (fun c Q => by rw [main_run m ρ dat hA hΦ howed hrec hq0 hq1 hq2 hq3 hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat)
    (hch := ⟨fun _ => .rfl, fun _ => .rfl, fun c => show iprop(StableHlo.held (c : Thread nD τ) (Pipeline.ucRefs τ sig) (W3 m ρ dat c) ∗ R c)
        ⊢ iprop(Tₙ m ρ dat c ∗ ∃ W, owes (c : Thread nD τ) (0 : CellTallies nD τ sig Unit) W) from by
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ dat c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat c) s')
      isplitl [Hh] <;> iassumption)
    (hQ := fun s h c =>
      ⟨(h c _ (mem_uc main_arg0 (by decide))).trans (W3_main_arg0 m ρ dat c),
       (h c _ (mem_uc main_arg1 (by decide))).trans (W3_main_arg1 m ρ dat c),
       h c _ (mem_uc main_v13 (by decide))⟩)

/-- info: 'Cert.KernelIdeal.Hand.run_main_of' depends on axioms: [propext, Classical.choice, Quot.sound] -/
#guard_msgs in #print axioms run_main_of

end Cert.KernelIdeal.Hand

end
-- ==== Proof.Spec.lean ====
/-
  The mathematics of the certificate, free of any program.

  For real matrices `x : ι → κ → ℝ` the Gaussian Gram entry both programs compute is
  `gram x a b = exp (-(((-2) * ⟨x a, x b⟩ + |x a|²) + |x b|²) / 1)`, symmetric in `a` and `b`.
  With `K`, `L` two symmetric square matrices, `R_K a = ∑ b, K a b` the row sums and `T_K` the total,
  the kernel evaluates  `((∑ K∘L - 2 * ∑ a, (R_K a / n) * R_L a) + (T_K / n₂) * T_L) / c`  (`kernelForm`)
  and the reference      `(∑ a b, L a b * (((K a b - C_K b / n) - R_K a / n) + T_K / n₂)) / c`  (`refForm`),
  `C_K b = ∑ a, K a b` the column sums.  Expanding the reference's product over the four summands and using
  `C_K = R_K`, `C_L = R_L` (symmetry) gives the kernel's expression; no property of `n`, `n₂`, `c` is used.
-/
import Mathlib.Analysis.SpecialFunctions.Exp
import Mathlib.Algebra.BigOperators.Ring.Finset
import Mathlib.Algebra.BigOperators.Field

noncomputable section

namespace Cert.Hsic

open Finset

variable {ι κ : Type} [Fintype ι] [Fintype κ]

/-- The squared norm of row `a`. -/
def sqn (x : ι → κ → ℝ) (a : ι) : ℝ := ∑ k, x a k * x a k

/-- The squared distance as both programs expand it, in their order of additions. -/
def dist (x : ι → κ → ℝ) (a b : ι) : ℝ := ((-2) * (∑ k, x a k * x b k) + sqn x a) + sqn x b

/-- The Gaussian Gram entry, as both programs compute it (bandwidth one: the division by one is the programs'). -/
def gram (x : ι → κ → ℝ) (a b : ι) : ℝ := Real.exp (-(dist x a b) / 1)

theorem dist_symm (x : ι → κ → ℝ) (a b : ι) : dist x a b = dist x b a := by
  unfold dist
  have h : (∑ k, x a k * x b k) = ∑ k, x b k * x a k := Finset.sum_congr rfl fun k _ => mul_comm _ _
  rw [h]; ring

theorem gram_symm (x : ι → κ → ℝ) (a b : ι) : gram x a b = gram x b a := by
  unfold gram; rw [dist_symm]

/-- What the kernel's program evaluates from its three row-sum vectors. -/
def kernelForm (K L : ι → ι → ℝ) (n n₂ c : ℝ) : ℝ :=
  (((∑ a, ∑ b, K a b * L a b) - 2 * (∑ a, ((∑ b, K a b) / n) * (∑ b, L a b)))
    + ((∑ a, ∑ b, K a b) / n₂) * (∑ a, ∑ b, L a b)) / c

/-- What the reference evaluates: the trace of `L` against the doubly centred `K`. -/
def refForm (K L : ι → ι → ℝ) (n n₂ c : ℝ) : ℝ :=
  (∑ a, ∑ b, L a b * (((K a b - (∑ a', K a' b) / n) - (∑ b', K a b') / n) + (∑ a', ∑ b', K a' b') / n₂)) / c

/-- The two agree for symmetric `K` and `L`. -/
theorem kernelForm_eq_refForm (K L : ι → ι → ℝ) (hK : ∀ a b, K a b = K b a) (hL : ∀ a b, L a b = L b a) (n n₂ c : ℝ) :
    kernelForm K L n n₂ c = refForm K L n n₂ c := by
  unfold kernelForm refForm
  refine congrArg (· / c) ?_
  -- by symmetry the column sums are the row sums
  have hC : ∀ b, (∑ a', K a' b) = ∑ b', K b b' := fun b => Finset.sum_congr rfl fun a _ => hK a b
  have hCL : ∀ b, (∑ a, L a b) = ∑ b', L b b' := fun b => Finset.sum_congr rfl fun a _ => hL a b
  -- the four summands of the expanded product, each summed over both indices
  have e1 : (∑ a, ∑ b, L a b * K a b) = ∑ a, ∑ b, K a b * L a b :=
    Finset.sum_congr rfl fun a _ => Finset.sum_congr rfl fun b _ => mul_comm _ _
  have e2 : (∑ a, ∑ b, L a b * ((∑ a', K a' b) / n)) = ∑ a, ((∑ b, K a b) / n) * (∑ b, L a b) := by
    rw [Finset.sum_comm]
    refine Finset.sum_congr rfl fun b _ => ?_
    rw [hC b, ← Finset.sum_mul, hCL b, mul_comm]
  have e3 : (∑ a, ∑ b, L a b * ((∑ b', K a b') / n)) = ∑ a, ((∑ b, K a b) / n) * (∑ b, L a b) := by
    refine Finset.sum_congr rfl fun a _ => ?_
    rw [← Finset.sum_mul, mul_comm]
  have e4 : (∑ a, ∑ b, L a b * ((∑ a', ∑ b', K a' b') / n₂))
      = ((∑ a, ∑ b, K a b) / n₂) * (∑ a, ∑ b, L a b) := by
    rw [Finset.mul_sum]
    refine Finset.sum_congr rfl fun a _ => ?_
    rw [Finset.mul_sum]
    exact Finset.sum_congr rfl fun b _ => mul_comm _ _
  have expand : ∀ a b, L a b * (((K a b - (∑ a', K a' b) / n) - (∑ b', K a b') / n) + (∑ a', ∑ b', K a' b') / n₂)
      = ((L a b * K a b - L a b * ((∑ a', K a' b) / n)) - L a b * ((∑ b', K a b') / n))
        + L a b * ((∑ a', ∑ b', K a' b') / n₂) := fun a b => by ring
  simp only [expand, Finset.sum_add_distrib, Finset.sum_sub_distrib, e1, e2, e3, e4]
  ring

end Cert.Hsic

end
-- ==== Proof.KIBlk.lean ====
import proofs.«141356_j76493367542784_1_alg».proof.Proof.KIBody
import Idealize.ShloMosaic.Lib.ValueIdx
import Idealize.ShloMosaic.Lib.Pipeline.Value

/-
  A window's block of its argument array, read at an entry.

  The grid is 16 × 16 and point `t` has coordinates `(t / 16, t % 16)`. Windows 0 and 2 take the block of 512 rows
  numbered by the first coordinate, windows 1 and 3 the block numbered by the second; every block spans all the
  columns. An entry `(p, k)` of a block therefore sits in the array at row `512 * (block number) + p`, column `k`.
-/

noncomputable section

namespace Cert.KernelIdeal.HandValue

open Cert.KernelIdeal Cert.KernelIdeal.Gen Cert.KernelIdeal.Hand Idealize.ShloMosaic
open Idealize.ShloMosaic.ValueIdx Idealize.ShloMosaic.TcCoe

variable {F : FTy → Type} [FloatOps F]
variable (V : (c : Dev nD) → (b : Ref sig .tc) → Buf (Elt F) ((c : Thread nD τ).loc b))

/-- The block numbers of the four input windows at every point of the grid. -/
theorem KIBlk_idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0 :=
  (by decide +kernel : ∀ t : Fin grid0.N, _)

/-- A row of the block numbered by the first grid coordinate is a row of the array. -/
theorem KIBlk_row_lt_div (t : Fin cfg0.N) (p : Fin 512) : 512 * (t.val / 16) + p.val < 8192 := by
  have ht : t.val < 256 := lt_of_lt_of_eq t.isLt N_0
  have hp := p.isLt
  omega

/-- A row of the block numbered by the second grid coordinate is a row of the array. -/
theorem KIBlk_row_lt_mod (t : Fin cfg0.N) (p : Fin 512) : 512 * (t.val % 16) + p.val < 8192 := by
  have hp := p.isLt
  omega

/-- Window 0's block at point `t`: rows `512 * (t / 16) + p` of the first argument. -/
theorem iblk0_apply (c : Dev nD) (t : Fin cfg0.N) (p : Fin 512) (k : Fin 128) :
    iblk V c 0 t (ValueIdx.ix2 p k)
      = V c main_arg0 (ValueIdx.ix2 (⟨512 * (t.val / 16) + p.val, KIBlk_row_lt_div t p⟩ : Fin 8192) k) := by
  obtain ⟨e0, e1, -⟩ := KIBlk_idx_facts t
  show V c main_arg0 (((cfg0.win 0).blk t).view.emb (ValueIdx.ix2 p k)) = _
  refine congrArg (V c main_arg0) ?_
  funext a; apply Fin.ext
  match a with
  | ⟨0, _⟩ => show win0_0.index t (0 : Fin 2) * 512 + 1 * p.val = 512 * (t.val / 16) + p.val; omega
  | ⟨1, _⟩ => show win0_0.index t (1 : Fin 2) * 128 + 1 * k.val = k.val; omega

/-- Window 1's block at point `t`: rows `512 * (t % 16) + p` of the first argument. -/
theorem iblk1_apply (c : Dev nD) (t : Fin cfg0.N) (p : Fin 512) (k : Fin 128) :
    iblk V c 1 t (ValueIdx.ix2 p k)
      = V c main_arg0 (ValueIdx.ix2 (⟨512 * (t.val % 16) + p.val, KIBlk_row_lt_mod t p⟩ : Fin 8192) k) := by
  obtain ⟨-, -, e0, e1, -⟩ := KIBlk_idx_facts t
  show V c main_arg0 (((cfg0.win 1).blk t).view.emb (ValueIdx.ix2 p k)) = _
  refine congrArg (V c main_arg0) ?_
  funext a; apply Fin.ext
  match a with
  | ⟨0, _⟩ => show win0_1.index t (0 : Fin 2) * 512 + 1 * p.val = 512 * (t.val % 16) + p.val; omega
  | ⟨1, _⟩ => show win0_1.index t (1 : Fin 2) * 128 + 1 * k.val = k.val; omega

/-- Window 2's block at point `t`: rows `512 * (t / 16) + p` of the second argument. -/
theorem iblk2_apply (c : Dev nD) (t : Fin cfg0.N) (p : Fin 512) (k : Fin 16) :
    iblk V c 2 t (ValueIdx.ix2 p k)
      = V c main_arg1 (ValueIdx.ix2 (⟨512 * (t.val / 16) + p.val, KIBlk_row_lt_div t p⟩ : Fin 8192) k) := by
  obtain ⟨-, -, -, -, e0, e1, -⟩ := KIBlk_idx_facts t
  show V c main_arg1 (((cfg0.win 2).blk t).view.emb (ValueIdx.ix2 p k)) = _
  refine congrArg (V c main_arg1) ?_
  funext a; apply Fin.ext
  match a with
  | ⟨0, _⟩ => show win0_2.index t (0 : Fin 2) * 512 + 1 * p.val = 512 * (t.val / 16) + p.val; omega
  | ⟨1, _⟩ => show win0_2.index t (1 : Fin 2) * 16 + 1 * k.val = k.val; omega

/-- Window 3's block at point `t`: rows `512 * (t % 16) + p` of the second argument. -/
theorem iblk3_apply (c : Dev nD) (t : Fin cfg0.N) (p : Fin 512) (k : Fin 16) :
    iblk V c 3 t (ValueIdx.ix2 p k)
      = V c main_arg1 (ValueIdx.ix2 (⟨512 * (t.val % 16) + p.val, KIBlk_row_lt_mod t p⟩ : Fin 8192) k) := by
  obtain ⟨-, -, -, -, -, -, e0, e1⟩ := KIBlk_idx_facts t
  show V c main_arg1 (((cfg0.win 3).blk t).view.emb (ValueIdx.ix2 p k)) = _
  refine congrArg (V c main_arg1) ?_
  funext a; apply Fin.ext
  match a with
  | ⟨0, _⟩ => show win0_3.index t (0 : Fin 2) * 512 + 1 * p.val = 512 * (t.val % 16) + p.val; omega
  | ⟨1, _⟩ => show win0_3.index t (1 : Fin 2) * 16 + 1 * k.val = k.val; omega

end Cert.KernelIdeal.HandValue

end
-- ==== Proof.KIStep.lean ====
/-
  What the kernel's three running row sums hold after each grid point, as real numbers.

  The grid is 16 x 16 tiles; at the point (i, j) the body reads rows 512 i .. 512 i + 511 and rows 512 j .. 512 j + 511
  of x (128 columns) and of y (16 columns), forms the two 512 x 512 Gaussian tiles
  exp (-(((-2) <x_a, x_b> + |x_a|^2) + |x_b|^2) / 1) and the same for y, and adds to three running vectors of length 512
  the row sums of the first tile, of the second, and of their entrywise product; at j = 0 the vectors start from zero.
  With every entry of x and y finite, each operation on extended reals is the real operation on coercions, so after the
  point (i, j) the running sums at row r are the sums over the first 512 (j + 1) columns b of gram x (512 i + r) b,
  of gram y (512 i + r) b and of their product; at j = 15 these are the full row sums.
-/
import proofs.«141356_j76493367542784_1_alg».proof.Proof.KIBody
import proofs.«141356_j76493367542784_1_alg».proof.Proof.KIBlk
import proofs.«141356_j76493367542784_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Hsic Idealize.ShloMosaic
open Idealize.ShloMosaic.ValueIdx
open Idealize.ShloMosaic.TcCoe Idealize.SL.Sem
open Idealize.ShloMosaic.Pipeline (Dat Cfg Window)

/-! ## The float words met, as reals -/

private theorem lit_zero : Ideal.ofBits .f32 0x00000000#32 = ((0 : ℝ) : EReal) := by
  rw [Ideal.ofBits_zero_f32]; rfl

private theorem lit_one : Ideal.ofBits .f32 0x3F800000#32 = ((1 : ℝ) : EReal) := by
  simp [Ideal.ofBits, Ideal.ieee, -EReal.coe_mul]; norm_num

private theorem lit_neg_two : Ideal.ofBits .f32 0xC0000000#32 = ((-2 : ℝ) : EReal) := by
  simp [Ideal.ofBits, Ideal.ieee, -EReal.coe_mul]; norm_num

/-! ## The coercion of a finite sum of reals -/

private theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The lane sum of a two-axis vector, at a row -/

private theorem lane_sum_128 (v : FVec Ideal S512x128 .f32) (r : Fin 512) :
    multiReduction (F := Ideal) .add [1] S512 v 0x00000000#32 Facts₀.reduces_S512x128_S512 (.inl rfl) rfl (ix1 r)
      = ∑ k : Fin 128, v (ix2 r k) := by
  refine (Ideal.multiReduction_add_single v _ Facts₀.reduces_S512x128_S512 (.inl rfl) rfl (ix1 r)).trans ?_
  refine Finset.sum_congr rfl fun k _ => congrArg v ?_
  funext a; apply Fin.ext
  match a with
  | ⟨0, _⟩ => rfl
  | ⟨1, _⟩ => rfl

private theorem lane_sum_16 (v : FVec Ideal S512x16 .f32) (r : Fin 512) :
    multiReduction (F := Ideal) .add [1] S512 v 0x00000000#32 Facts₀.reduces_S512x16_S512 (.inl rfl) rfl (ix1 r)
      = ∑ k : Fin 16, v (ix2 r k) := by
  refine (Ideal.multiReduction_add_single v _ Facts₀.reduces_S512x16_S512 (.inl rfl) rfl (ix1 r)).trans ?_
  refine Finset.sum_congr rfl fun k _ => congrArg v ?_
  funext a; apply Fin.ext
  match a with
  | ⟨0, _⟩ => rfl
  | ⟨1, _⟩ => rfl

private theorem lane_sum_512 (v : FVec Ideal S512x512 .f32) (r : Fin 512) :
    multiReduction (F := Ideal) .add [1] S512 v 0x00000000#32 Facts₀.reduces_S512x512_S512 (.inl rfl) rfl (ix1 r)
      = ∑ k : Fin 512, v (ix2 r k) := by
  refine (Ideal.multiReduction_add_single v _ Facts₀.reduces_S512x512_S512 (.inl rfl) rfl (ix1 r)).trans ?_
  refine Finset.sum_congr rfl fun k _ => congrArg v ?_
  funext a; apply Fin.ext
  match a with
  | ⟨0, _⟩ => rfl
  | ⟨1, _⟩ => rfl

/-! ## The column forms of a vector and their broadcasts, at an entry -/

variable {α : Type}

/-- A vector viewed as one column reads its own entry. -/
private theorem col_apply (x : S512.Idx → α) (p : Fin 512) (u : Fin 1) :
    shapeCast S512x1 x Facts₀.shapeCasts_S512_S512x1 (ix2 p u) = x (ix1 p) :=
  shapeCast_apply x _ _ _ (by
    have hu : u.val = 0 := by omega
    rw [Shape.rowMajor_val_two, Shape.rowMajor_val_one]
    show p.val = p.val * 1 + u.val
    rw [hu, Nat.mul_one, Nat.add_zero])

/-- A vector viewed as one row reads its own entry. -/
private theorem row_apply (x : S512.Idx → α) (u : Fin 1) (q : Fin 512) :
    shapeCast S1x512 x Facts₀.shapeCasts_S512_S1x512 (ix2 u q) = x (ix1 q) :=
  shapeCast_a_1a_apply x _ u q

/-- One column spread over the lanes reads the column at the row. -/
private theorem bcast_col_apply (v : S512x1.Idx → α) (p q : Fin 512) :
    broadcastTo S512x512 v Facts₀.broadcasts_S512x1_S512x512 (ix2 p q) = v (ix2 p (0 : Fin 1)) := by
  refine broadcastTo_apply v _ (ix2 p q) (ix2 p (0 : Fin 1)) fun ax => ?_
  match ax with
  | ⟨0, _⟩ =>
    show p.val = if (512 : ℕ) = 1 then 0 else p.val
    rw [if_neg (by decide)]
  | ⟨1, _⟩ => rfl

/-- One row spread over the rows reads the row at the lane. -/
private theorem bcast_row_apply (v : S1x512.Idx → α) (p q : Fin 512) :
    broadcastTo S512x512 v Facts₀.broadcasts_S1x512_S512x512 (ix2 p q) = v (ix2 (0 : Fin 1) q) :=
  broadcastTo_1b_ab_apply v _ p q

/-! ## The matrix products, at an entry: both operands contracted along their second axis -/

private theorem lhsX_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
private theorem lhsX_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
private theorem rhsX_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
private theorem rhsX_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The product of a block with the transpose of another, into a zero accumulator: at (p, q) the inner product of row p and row q. -/
private theorem matmulX_apply (v3 v4 : Vec Ideal S512x128 .f32) (p q : Fin 512) :
    matmul (F := Ideal) (φ₁ := .f32) (φ₂ := .f32) dot_S512x128_S512x128_S512x512_1_1_0_0_n_n (some .fp32) v3 v4 (constant (F := Ideal) S512x512 .f32 0x00000000#32) (ix2 p q)
      = ∑ k : Fin 128, v3 (ix2 p k) * v4 (ix2 q k) := by
  simp only [matmul]
  rw [Ideal.matmul_constant_zero_apply, ← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 p q) ((ValueIdx.contrEquiv1 dot_S512x128_S512x128_S512x512_1_1_0_0_n_n 128 rfl rfl).symm k) = ix2 p k := funext fun a => Fin.ext (by
    match a with
    | ⟨0, _⟩ => exact lhsX_0 _ _
    | ⟨1, _⟩ => exact (lhsX_1 _ _).trans hk)
  have er : dot_S512x128_S512x128_S512x512_1_1_0_0_n_n.rhsIdx (ix2 p q) ((ValueIdx.contrEquiv1 dot_S512x128_S512x128_S512x512_1_1_0_0_n_n 128 rfl rfl).symm k) = ix2 q k := funext fun a => Fin.ext (by
    match a with
    | ⟨0, _⟩ => exact rhsX_0 _ _
    | ⟨1, _⟩ => exact (rhsX_1 _ _).trans hk)
  rw [el, er]

private theorem lhsY_0 (i : S512x512.Idx) (q : dot_S512x16_S512x16_S512x512_1_1_0_0_n_n.contr.Idx) :
    (dot_S512x16_S512x16_S512x512_1_1_0_0_n_n.lhsIdx i q 0).val = (i 0).val := by
  unfold DotDims.lhsIdx
  rw [dif_neg (show ¬(0 : Fin S512x16.rank) ∈ dot_S512x16_S512x16_S512x512_1_1_0_0_n_n.lhsBatch by decide), dif_pos (show (0 : Fin S512x16.rank) ∈ dot_S512x16_S512x16_S512x512_1_1_0_0_n_n.lhsNonContracting by decide)]
  rfl
private theorem lhsY_1 (i : S512x512.Idx) (q : dot_S512x16_S512x16_S512x512_1_1_0_0_n_n.contr.Idx) :
    (dot_S512x16_S512x16_S512x512_1_1_0_0_n_n.lhsIdx i q 1).val = (q ⟨0, by decide⟩).val :=
  dot_S512x16_S512x16_S512x512_1_1_0_0_n_n.lhsIdx_val_of_single rfl i q
private theorem rhsY_0 (i : S512x512.Idx) (q : dot_S512x16_S512x16_S512x512_1_1_0_0_n_n.contr.Idx) :
    (dot_S512x16_S512x16_S512x512_1_1_0_0_n_n.rhsIdx i q 0).val = (i 1).val := by
  unfold DotDims.rhsIdx
  rw [dif_neg (show ¬(0 : Fin S512x16.rank) ∈ dot_S512x16_S512x16_S512x512_1_1_0_0_n_n.rhsBatch by decide), dif_pos (show (0 : Fin S512x16.rank) ∈ dot_S512x16_S512x16_S512x512_1_1_0_0_n_n.rhsNonContracting by decide)]
  rfl
private theorem rhsY_1 (i : S512x512.Idx) (q : dot_S512x16_S512x16_S512x512_1_1_0_0_n_n.contr.Idx) :
    (dot_S512x16_S512x16_S512x512_1_1_0_0_n_n.rhsIdx i q 1).val = (q ⟨0, by decide⟩).val :=
  dot_S512x16_S512x16_S512x512_1_1_0_0_n_n.rhsIdx_val_of_single rfl i q

private theorem matmulY_apply (v5 v6 : Vec Ideal S512x16 .f32) (p q : Fin 512) :
    matmul (F := Ideal) (φ₁ := .f32) (φ₂ := .f32) dot_S512x16_S512x16_S512x512_1_1_0_0_n_n (some .fp32) v5 v6 (constant (F := Ideal) S512x512 .f32 0x00000000#32) (ix2 p q)
      = ∑ k : Fin 16, v5 (ix2 p k) * v6 (ix2 q k) := by
  simp only [matmul]
  rw [Ideal.matmul_constant_zero_apply, ← Equiv.sum_comp (ValueIdx.contrEquiv1 dot_S512x16_S512x16_S512x512_1_1_0_0_n_n 16 rfl rfl).symm]
  refine Finset.sum_congr rfl fun k _ => ?_
  have hk := ValueIdx.contrEquiv1_symm_val dot_S512x16_S512x16_S512x512_1_1_0_0_n_n 16 rfl rfl k
  have el : dot_S512x16_S512x16_S512x512_1_1_0_0_n_n.lhsIdx (ix2 p q) ((ValueIdx.contrEquiv1 dot_S512x16_S512x16_S512x512_1_1_0_0_n_n 16 rfl rfl).symm k) = ix2 p k := funext fun a => Fin.ext (by
    match a with
    | ⟨0, _⟩ => exact lhsY_0 _ _
    | ⟨1, _⟩ => exact (lhsY_1 _ _).trans hk)
  have er : dot_S512x16_S512x16_S512x512_1_1_0_0_n_n.rhsIdx (ix2 p q) ((ValueIdx.contrEquiv1 dot_S512x16_S512x16_S512x512_1_1_0_0_n_n 16 rfl rfl).symm k) = ix2 q k := funext fun a => Fin.ext (by
    match a with
    | ⟨0, _⟩ => exact rhsY_0 _ _
    | ⟨1, _⟩ => exact (rhsY_1 _ _).trans hk)
  rw [el, er]

/-! ## The Gaussian tiles at an entry, over real blocks -/

/-- The last three operations of a tile: zero minus the distance, over one, exponentiated. -/
private theorem exp_neg_div_one (d : ℝ) :
    Ideal.exp (Ideal.div (Ideal.ofBits .f32 0x00000000#32 - ((d : ℝ) : EReal)) (Ideal.ofBits .f32 0x3F800000#32))
      = ((Real.exp (-d / 1) : ℝ) : EReal) := by
  rw [lit_zero, lit_one, ← EReal.coe_sub, Ideal.div_coe one_ne_zero, ← EReal.coe_mul, Ideal.exp_coe]
  have e : (0 - d) * (1 / 1) = -d / 1 := by ring
  rw [e]

/-- The first kernel's tile at (p, q): the Gaussian of the distance between row p of the first block and row q of the second. -/
private theorem tileX_apply (xi xj : Vec Ideal S512x128 .f32) (a b : Fin 512 → Fin 128 → ℝ)
    (ha : ∀ p k, xi (ix2 p k) = ((a p k : ℝ) : EReal)) (hb : ∀ p k, xj (ix2 p k) = ((b p k : ℝ) : EReal)) (p q : Fin 512) :
    k0_pay8 xi xj (ix2 p q)
      = ((Real.exp (-(((-2) * (∑ k, a p k * b q k) + ∑ k, a p k * a p k) + ∑ k, b q k * b q k) / 1) : ℝ) : EReal) := by
  unfold k0_pay8
  show Ideal.exp (Ideal.div (Ideal.ofBits .f32 0x00000000#32 - ((Ideal.ofBits .f32 0xC0000000#32 * matmul (F := Ideal) (φ₁ := .f32) (φ₂ := .f32) dot_S512x128_S512x128_S512x512_1_1_0_0_n_n (some .fp32) xi xj (constant (F := Ideal) S512x512 .f32 0x00000000#32) (ix2 p q)
      + broadcastTo S512x512 (shapeCast S512x1 (multiReduction (F := Ideal) .add [1] S512 (mulf xi xi) 0x00000000#32 Facts₀.reduces_S512x128_S512 (.inl rfl) rfl) Facts₀.shapeCasts_S512_S512x1) Facts₀.broadcasts_S512x1_S512x512 (ix2 p q))
      + broadcastTo S512x512 (shapeCast S1x512 (multiReduction (F := Ideal) .add [1] S512 (mulf xj xj) 0x00000000#32 Facts₀.reduces_S512x128_S512 (.inl rfl) rfl) Facts₀.shapeCasts_S512_S1x512) Facts₀.broadcasts_S1x512_S512x512 (ix2 p q))) (Ideal.ofBits .f32 0x3F800000#32)) = _
  rw [matmulX_apply, bcast_col_apply, col_apply, lane_sum_128, bcast_row_apply, row_apply, lane_sum_128]
  simp only [mulf_apply, ha, hb]
  rw [lit_neg_two]
  simp only [← EReal.coe_mul, ← coe_sum, ← EReal.coe_add]
  exact exp_neg_div_one _

/-- The second kernel's tile at (p, q), likewise. -/
private theorem tileY_apply (yi yj : Vec Ideal S512x16 .f32) (a b : Fin 512 → Fin 16 → ℝ)
    (ha : ∀ p k, yi (ix2 p k) = ((a p k : ℝ) : EReal)) (hb : ∀ p k, yj (ix2 p k) = ((b p k : ℝ) : EReal)) (p q : Fin 512) :
    k0_pay1 (k0_pay9 yi yj) (k0_pay10 yj) (ix2 p q)
      = ((Real.exp (-(((-2) * (∑ k, a p k * b q k) + ∑ k, a p k * a p k) + ∑ k, b q k * b q k) / 1) : ℝ) : EReal) := by
  unfold k0_pay1 k0_pay9 k0_pay10
  show Ideal.exp (Ideal.div (Ideal.ofBits .f32 0x00000000#32 - ((Ideal.ofBits .f32 0xC0000000#32 * matmul (F := Ideal) (φ₁ := .f32) (φ₂ := .f32) dot_S512x16_S512x16_S512x512_1_1_0_0_n_n (some .fp32) yi yj (constant (F := Ideal) S512x512 .f32 0x00000000#32) (ix2 p q)
      + broadcastTo S512x512 (shapeCast S512x1 (multiReduction (F := Ideal) .add [1] S512 (mulf yi yi) 0x00000000#32 Facts₀.reduces_S512x16_S512 (.inl rfl) rfl) Facts₀.shapeCasts_S512_S512x1) Facts₀.broadcasts_S512x1_S512x512 (ix2 p q))
      + broadcastTo S512x512 (shapeCast S1x512 (multiReduction (F := Ideal) .add [1] S512 (mulf yj yj) 0x00000000#32 Facts₀.reduces_S512x16_S512 (.inl rfl) rfl) Facts₀.shapeCasts_S512_S1x512) Facts₀.broadcasts_S1x512_S512x512 (ix2 p q))) (Ideal.ofBits .f32 0x3F800000#32)) = _
  rw [matmulY_apply, bcast_col_apply, col_apply, lane_sum_16, bcast_row_apply, row_apply, lane_sum_16]
  simp only [mulf_apply, ha, hb]
  rw [lit_neg_two]
  simp only [← EReal.coe_mul, ← coe_sum, ← EReal.coe_add]
  exact exp_neg_div_one _

/-! ## One point's step on each running sum, at a row, over real blocks -/

private theorem zeroV_apply (r : Fin 512) : (zeroV (F := Ideal)) (ix1 r) = ((0 : ℝ) : EReal) := by
  unfold zeroV k0_pay5
  show Ideal.ofBits .f32 0x00000000#32 = _
  exact lit_zero

private theorem stepK_apply (xi xj : Vec Ideal S512x128 .f32) (p0 : Vec Ideal S512 .f32) (r : Fin 512) :
    stepK xi xj p0 (ix1 r) = p0 (ix1 r) + ∑ q : Fin 512, k0_pay8 xi xj (ix2 r q) := by
  unfold stepK k0_pay2
  show shapeCast S512 p0 Facts₀.shapeCasts_S512_S512 (ix1 r)
      + multiReduction (F := Ideal) .add [1] S512 (k0_pay8 xi xj) 0x00000000#32 Facts₀.reduces_S512x512_S512 (.inl rfl) rfl (ix1 r) = _
  rw [shapeCast_self, lane_sum_512]

private theorem stepL_apply (yi yj : Vec Ideal S512x16 .f32) (p0 : Vec Ideal S512 .f32) (r : Fin 512) :
    stepL yi yj p0 (ix1 r) = p0 (ix1 r) + ∑ q : Fin 512, k0_pay1 (k0_pay9 yi yj) (k0_pay10 yj) (ix2 r q) := by
  unfold stepL k0_pay3
  show shapeCast S512 p0 Facts₀.shapeCasts_S512_S512 (ix1 r)
      + multiReduction (F := Ideal) .add [1] S512 (k0_pay1 (k0_pay9 yi yj) (k0_pay10 yj)) 0x00000000#32 Facts₀.reduces_S512x512_S512 (.inl rfl) rfl (ix1 r) = _
  rw [shapeCast_self, lane_sum_512]

private theorem stepLK_apply (xi xj : Vec Ideal S512x128 .f32) (yi yj : Vec Ideal S512x16 .f32) (p0 : Vec Ideal S512 .f32) (r : Fin 512) :
    stepLK xi xj yi yj p0 (ix1 r)
      = p0 (ix1 r) + ∑ q : Fin 512, k0_pay8 xi xj (ix2 r q) * k0_pay1 (k0_pay9 yi yj) (k0_pay10 yj) (ix2 r q) := by
  unfold stepLK k0_pay4
  show shapeCast S512 p0 Facts₀.shapeCasts_S512_S512 (ix1 r)
      + multiReduction (F := Ideal) .add [1] S512 (mulf (k0_pay8 xi xj) (k0_pay1 (k0_pay9 yi yj) (k0_pay10 yj))) 0x00000000#32 Facts₀.reduces_S512x512_S512 (.inl rfl) rfl (ix1 r) = _
  rw [shapeCast_self, lane_sum_512]
  rfl

/-- The Gaussian of two real rows, in the programs' order of operations. -/
private def gauss {K : ℕ} (u v : Fin K → ℝ) : ℝ :=
  Real.exp (-(((-2) * (∑ k, u k * v k) + ∑ k, u k * u k) + ∑ k, v k * v k) / 1)

private theorem stepK_real (xi xj : Vec Ideal S512x128 .f32) (p0 : Vec Ideal S512 .f32) (a b : Fin 512 → Fin 128 → ℝ) (s : ℝ) (r : Fin 512)
    (ha : ∀ p k, xi (ix2 p k) = ((a p k : ℝ) : EReal)) (hb : ∀ p k, xj (ix2 p k) = ((b p k : ℝ) : EReal))
    (hp : p0 (ix1 r) = ((s : ℝ) : EReal)) :
    stepK xi xj p0 (ix1 r) = ((s + ∑ q : Fin 512, gauss (a r) (b q) : ℝ) : EReal) := by
  rw [stepK_apply, hp, EReal.coe_add, coe_sum]
  exact congrArg (((s : ℝ) : EReal) + ·) (Finset.sum_congr rfl fun q _ => tileX_apply xi xj a b ha hb r q)

private theorem stepL_real (yi yj : Vec Ideal S512x16 .f32) (p0 : Vec Ideal S512 .f32) (a b : Fin 512 → Fin 16 → ℝ) (s : ℝ) (r : Fin 512)
    (ha : ∀ p k, yi (ix2 p k) = ((a p k : ℝ) : EReal)) (hb : ∀ p k, yj (ix2 p k) = ((b p k : ℝ) : EReal))
    (hp : p0 (ix1 r) = ((s : ℝ) : EReal)) :
    stepL yi yj p0 (ix1 r) = ((s + ∑ q : Fin 512, gauss (a r) (b q) : ℝ) : EReal) := by
  rw [stepL_apply, hp, EReal.coe_add, coe_sum]
  exact congrArg (((s : ℝ) : EReal) + ·) (Finset.sum_congr rfl fun q _ => tileY_apply yi yj a b ha hb r q)

private theorem stepLK_real (xi xj : Vec Ideal S512x128 .f32) (yi yj : Vec Ideal S512x16 .f32) (p0 : Vec Ideal S512 .f32)
    (a b : Fin 512 → Fin 128 → ℝ) (a' b' : Fin 512 → Fin 16 → ℝ) (s : ℝ) (r : Fin 512)
    (ha : ∀ p k, xi (ix2 p k) = ((a p k : ℝ) : EReal)) (hb : ∀ p k, xj (ix2 p k) = ((b p k : ℝ) : EReal))
    (ha' : ∀ p k, yi (ix2 p k) = ((a' p k : ℝ) : EReal)) (hb' : ∀ p k, yj (ix2 p k) = ((b' p k : ℝ) : EReal))
    (hp : p0 (ix1 r) = ((s : ℝ) : EReal)) :
    stepLK xi xj yi yj p0 (ix1 r) = ((s + ∑ q : Fin 512, gauss (a r) (b q) * gauss (a' r) (b' q) : ℝ) : EReal) := by
  rw [stepLK_apply, hp, EReal.coe_add, coe_sum]
  refine congrArg (((s : ℝ) : EReal) + ·) (Finset.sum_congr rfl fun q _ => ?_)
  rw [tileX_apply xi xj a b ha hb r q, tileY_apply yi yj a' b' ha' hb' r q, ← EReal.coe_mul]
  rfl

/-! ## Sums over the first columns: the next block of 512 joins -/

/-- Row p of the I-th block of 512 rows. -/
private def rowAt (I : ℕ) (hI : I < 16) (p : Fin 512) : Fin 8192 := ⟨512 * I + p.val, by omega⟩

private theorem sum_next_block (g : Fin 8192 → ℝ) (J : ℕ) (hJ : J < 16) :
    (∑ b ∈ Finset.univ.filter (fun b : Fin 8192 => b.val < 512 * J), g b) + ∑ q : Fin 512, g (rowAt J hJ q)
      = ∑ b ∈ Finset.univ.filter (fun b : Fin 8192 => b.val < 512 * (J + 1)), g b := by
  have hblock : (∑ q : Fin 512, g (rowAt J hJ q))
      = ∑ b ∈ Finset.univ.filter (fun b : Fin 8192 => 512 * J ≤ b.val ∧ b.val < 512 * (J + 1)), g b := by
    refine Finset.sum_nbij' (fun q : Fin 512 => rowAt J hJ q)
      (fun b : Fin 8192 => (⟨(b.val - 512 * J) % 512, Nat.mod_lt _ (by decide)⟩ : Fin 512)) ?_ ?_ ?_ ?_ ?_
    · intro q _
      refine Finset.mem_filter.mpr ⟨Finset.mem_univ _, ?_⟩
      show 512 * J ≤ 512 * J + q.val ∧ 512 * J + q.val < 512 * (J + 1)
      omega
    · intro b _; exact Finset.mem_univ _
    · intro q _
      apply Fin.ext
      show (512 * J + q.val - 512 * J) % 512 = q.val
      omega
    · intro b hb
      have h := (Finset.mem_filter.mp hb).2
      apply Fin.ext
      show 512 * J + (b.val - 512 * J) % 512 = b.val
      omega
    · intro q _; rfl
  rw [hblock, Finset.sum_filter, Finset.sum_filter, Finset.sum_filter, ← Finset.sum_add_distrib]
  refine Finset.sum_congr rfl fun b _ => ?_
  by_cases h1 : b.val < 512 * J
  · have h2 : ¬(512 * J ≤ b.val ∧ b.val < 512 * (J + 1)) := by omega
    have h3 : b.val < 512 * (J + 1) := by omega
    rw [if_pos h1, if_neg h2, if_pos h3, add_zero]
  · by_cases h3 : b.val < 512 * (J + 1)
    · have h2 : 512 * J ≤ b.val ∧ b.val < 512 * (J + 1) := ⟨by omega, h3⟩
      rw [if_neg h1, if_pos h2, if_pos h3, zero_add]
    · have h2 : ¬(512 * J ≤ b.val ∧ b.val < 512 * (J + 1)) := by omega
      rw [if_neg h1, if_neg h2, if_neg h3, add_zero]

private theorem sum_first_block (g : Fin 8192 → ℝ) (h0 : 0 < 16) :
    (0 : ℝ) + ∑ q : Fin 512, g (rowAt 0 h0 q)
      = ∑ b ∈ Finset.univ.filter (fun b : Fin 8192 => b.val < 512 * (0 + 1)), g b := by
  have h := sum_next_block g 0 h0
  rw [← h]
  refine congrArg (· + _) ?_
  symm
  refine Finset.sum_eq_zero fun b hb => ?_
  have := (Finset.mem_filter.mp hb).2
  omega

private theorem sum_all_blocks (g : Fin 8192 → ℝ) :
    (∑ b ∈ Finset.univ.filter (fun b : Fin 8192 => b.val < 512 * (15 + 1)), g b) = ∑ b : Fin 8192, g b := by
  rw [Finset.filter_true_of_mem fun b _ => by have := b.isLt; omega]

/-! ## The running sums after each point of a row of tiles -/

section Invariant

variable (V : (c : Dev nD) → (b : Ref sig .tc) → Buf (Elt Ideal) ((c : Thread nD τ).loc b)) (c : Dev nD)
  (xr : Fin 8192 → Fin 128 → ℝ) (yr : Fin 8192 → Fin 16 → ℝ)
  (hx : ∀ a k, V c main_arg0 (ValueIdx.ix2 a k) = ((xr a k : ℝ) : EReal))
  (hy : ∀ a k, V c main_arg1 (ValueIdx.ix2 a k) = ((yr a k : ℝ) : EReal))

include hx in
private theorem blkX_i (I J : ℕ) (hI : I < 16) (hJ : J < 16) (hn : 16 * I + J < cfg0.N) (p : Fin 512) (k : Fin 128) :
    iblk V c 0 ⟨16 * I + J, hn⟩ (ix2 p k) = ((xr (rowAt I hI p) k : ℝ) : EReal) := by
  rw [iblk0_apply V c ⟨16 * I + J, hn⟩ p k, hx]
  refine congrArg (fun z : Fin 8192 => ((xr z k : ℝ) : EReal)) (Fin.ext ?_)
  show 512 * ((16 * I + J) / 16) + p.val = 512 * I + p.val
  omega

include hx in
private theorem blkX_j (I J : ℕ) (hI : I < 16) (hJ : J < 16) (hn : 16 * I + J < cfg0.N) (p : Fin 512) (k : Fin 128) :
    iblk V c 1 ⟨16 * I + J, hn⟩ (ix2 p k) = ((xr (rowAt J hJ p) k : ℝ) : EReal) := by
  rw [iblk1_apply V c ⟨16 * I + J, hn⟩ p k, hx]
  refine congrArg (fun z : Fin 8192 => ((xr z k : ℝ) : EReal)) (Fin.ext ?_)
  show 512 * ((16 * I + J) % 16) + p.val = 512 * J + p.val
  omega

include hy in
private theorem blkY_i (I J : ℕ) (hI : I < 16) (hJ : J < 16) (hn : 16 * I + J < cfg0.N) (p : Fin 512) (k : Fin 16) :
    iblk V c 2 ⟨16 * I + J, hn⟩ (ix2 p k) = ((yr (rowAt I hI p) k : ℝ) : EReal) := by
  rw [iblk2_apply V c ⟨16 * I + J, hn⟩ p k, hy]
  refine congrArg (fun z : Fin 8192 => ((yr z k : ℝ) : EReal)) (Fin.ext ?_)
  show 512 * ((16 * I + J) / 16) + p.val = 512 * I + p.val
  omega

include hy in
private theorem blkY_j (I J : ℕ) (hI : I < 16) (hJ : J < 16) (hn : 16 * I + J < cfg0.N) (p : Fin 512) (k : Fin 16) :
    iblk V c 3 ⟨16 * I + J, hn⟩ (ix2 p k) = ((yr (rowAt J hJ p) k : ℝ) : EReal) := by
  rw [iblk3_apply V c ⟨16 * I + J, hn⟩ p k, hy]
  refine congrArg (fun z : Fin 8192 => ((yr z k : ℝ) : EReal)) (Fin.ext ?_)
  show 512 * ((16 * I + J) % 16) + p.val = 512 * J + p.val
  omega

include hx hy in
/-- After the point (I, J) the three running sums at row r hold the sums over the first 512 (J + 1) columns. -/
private theorem invariant (I : ℕ) (hI : I < 16) (r : Fin 512) :
    ∀ (J : ℕ) (hJ : J < 16) (hn : 16 * I + J < cfg0.N),
      (outsAt V c (16 * I + J) hn).1 (ix1 r)
          = ((∑ b ∈ Finset.univ.filter (fun b : Fin 8192 => b.val < 512 * (J + 1)), gram xr (rowAt I hI r) b : ℝ) : EReal)
      ∧ (outsAt V c (16 * I + J) hn).2.1 (ix1 r)
          = ((∑ b ∈ Finset.univ.filter (fun b : Fin 8192 => b.val < 512 * (J + 1)), gram yr (rowAt I hI r) b : ℝ) : EReal)
      ∧ (outsAt V c (16 * I + J) hn).2.2 (ix1 r)
          = ((∑ b ∈ Finset.univ.filter (fun b : Fin 8192 => b.val < 512 * (J + 1)), gram xr (rowAt I hI r) b * gram yr (rowAt I hI r) b : ℝ) : EReal) := by
  intro J
  induction J with
  | zero =>
    intro hJ hn
    have h0 : (16 * I + 0) % 16 = 0 := by omega
    have e := outsAt_A V c ⟨16 * I + 0, hn⟩ h0
    have e1 : (outsAt V c (16 * I + 0) hn).1
        = stepK (iblk V c 0 ⟨16 * I + 0, hn⟩) (iblk V c 1 ⟨16 * I + 0, hn⟩) zeroV := congrArg Prod.fst e
    have e2 : (outsAt V c (16 * I + 0) hn).2.1
        = stepL (iblk V c 2 ⟨16 * I + 0, hn⟩) (iblk V c 3 ⟨16 * I + 0, hn⟩) zeroV := congrArg (fun z => z.2.1) e
    have e3 : (outsAt V c (16 * I + 0) hn).2.2
        = stepLK (iblk V c 0 ⟨16 * I + 0, hn⟩) (iblk V c 1 ⟨16 * I + 0, hn⟩) (iblk V c 2 ⟨16 * I + 0, hn⟩) (iblk V c 3 ⟨16 * I + 0, hn⟩) zeroV :=
      congrArg (fun z => z.2.2) e
    refine ⟨?_, ?_, ?_⟩
    · rw [e1, stepK_real (iblk V c 0 ⟨16 * I + 0, hn⟩) (iblk V c 1 ⟨16 * I + 0, hn⟩) zeroV
        (fun p k => xr (rowAt I hI p) k) (fun q k => xr (rowAt 0 hJ q) k) 0 r
        (blkX_i V c xr hx I 0 hI hJ hn) (blkX_j V c xr hx I 0 hI hJ hn) (zeroV_apply r)]
      exact congrArg (fun z : ℝ => (z : EReal)) (sum_first_block (fun b => gram xr (rowAt I hI r) b) hJ)
    · rw [e2, stepL_real (iblk V c 2 ⟨16 * I + 0, hn⟩) (iblk V c 3 ⟨16 * I + 0, hn⟩) zeroV
        (fun p k => yr (rowAt I hI p) k) (fun q k => yr (rowAt 0 hJ q) k) 0 r
        (blkY_i V c yr hy I 0 hI hJ hn) (blkY_j V c yr hy I 0 hI hJ hn) (zeroV_apply r)]
      exact congrArg (fun z : ℝ => (z : EReal)) (sum_first_block (fun b => gram yr (rowAt I hI r) b) hJ)
    · rw [e3, stepLK_real (iblk V c 0 ⟨16 * I + 0, hn⟩) (iblk V c 1 ⟨16 * I + 0, hn⟩) (iblk V c 2 ⟨16 * I + 0, hn⟩) (iblk V c 3 ⟨16 * I + 0, hn⟩) zeroV
        (fun p k => xr (rowAt I hI p) k) (fun q k => xr (rowAt 0 hJ q) k)
        (fun p k => yr (rowAt I hI p) k) (fun q k => yr (rowAt 0 hJ q) k) 0 r
        (blkX_i V c xr hx I 0 hI hJ hn) (blkX_j V c xr hx I 0 hI hJ hn)
        (blkY_i V c yr hy I 0 hI hJ hn) (blkY_j V c yr hy I 0 hI hJ hn) (zeroV_apply r)]
      exact congrArg (fun z : ℝ => (z : EReal))
        (sum_first_block (fun b => gram xr (rowAt I hI r) b * gram yr (rowAt I hI r) b) hJ)
  | succ J ih =>
    intro hJ hn
    have hJ' : J < 16 := by omega
    have hn' : 16 * I + J < cfg0.N := Nat.lt_of_succ_lt hn
    obtain ⟨ih1, ih2, ih3⟩ := ih hJ' hn'
    have h0 : ¬ (16 * I + (J + 1)) % 16 = 0 := by omega
    have e := outsAt_B V c ⟨16 * I + (J + 1), hn⟩ h0
    have e1 : (outsAt V c (16 * I + (J + 1)) hn).1
        = stepK (iblk V c 0 ⟨16 * I + (J + 1), hn⟩) (iblk V c 1 ⟨16 * I + (J + 1), hn⟩) (outsAt V c (16 * I + J) hn').1 :=
      congrArg Prod.fst e
    have e2 : (outsAt V c (16 * I + (J + 1)) hn).2.1
        = stepL (iblk V c 2 ⟨16 * I + (J + 1), hn⟩) (iblk V c 3 ⟨16 * I + (J + 1), hn⟩) (outsAt V c (16 * I + J) hn').2.1 :=
      congrArg (fun z => z.2.1) e
    have e3 : (outsAt V c (16 * I + (J + 1)) hn).2.2
        = stepLK (iblk V c 0 ⟨16 * I + (J + 1), hn⟩) (iblk V c 1 ⟨16 * I + (J + 1), hn⟩) (iblk V c 2 ⟨16 * I + (J + 1), hn⟩) (iblk V c 3 ⟨16 * I + (J + 1), hn⟩) (outsAt V c (16 * I + J) hn').2.2 :=
      congrArg (fun z => z.2.2) e
    refine ⟨?_, ?_, ?_⟩
    · rw [e1, stepK_real (iblk V c 0 ⟨16 * I + (J + 1), hn⟩) (iblk V c 1 ⟨16 * I + (J + 1), hn⟩) (outsAt V c (16 * I + J) hn').1
        (fun p k => xr (rowAt I hI p) k) (fun q k => xr (rowAt (J + 1) hJ q) k) _ r
        (blkX_i V c xr hx I (J + 1) hI hJ hn) (blkX_j V c xr hx I (J + 1) hI hJ hn) ih1]
      exact congrArg (fun z : ℝ => (z : EReal)) (sum_next_block (fun b => gram xr (rowAt I hI r) b) (J + 1) hJ)
    · rw [e2, stepL_real (iblk V c 2 ⟨16 * I + (J + 1), hn⟩) (iblk V c 3 ⟨16 * I + (J + 1), hn⟩) (outsAt V c (16 * I + J) hn').2.1
        (fun p k => yr (rowAt I hI p) k) (fun q k => yr (rowAt (J + 1) hJ q) k) _ r
        (blkY_i V c yr hy I (J + 1) hI hJ hn) (blkY_j V c yr hy I (J + 1) hI hJ hn) ih2]
      exact congrArg (fun z : ℝ => (z : EReal)) (sum_next_block (fun b => gram yr (rowAt I hI r) b) (J + 1) hJ)
    · rw [e3, stepLK_real (iblk V c 0 ⟨16 * I + (J + 1), hn⟩) (iblk V c 1 ⟨16 * I + (J + 1), hn⟩) (iblk V c 2 ⟨16 * I + (J + 1), hn⟩) (iblk V c 3 ⟨16 * I + (J + 1), hn⟩) (outsAt V c (16 * I + J) hn').2.2
        (fun p k => xr (rowAt I hI p) k) (fun q k => xr (rowAt (J + 1) hJ q) k)
        (fun p k => yr (rowAt I hI p) k) (fun q k => yr (rowAt (J + 1) hJ q) k) _ r
        (blkX_i V c xr hx I (J + 1) hI hJ hn) (blkX_j V c xr hx I (J + 1) hI hJ hn)
        (blkY_i V c yr hy I (J + 1) hI hJ hn) (blkY_j V c yr hy I (J + 1) hI hJ hn) ih3]
      exact congrArg (fun z : ℝ => (z : EReal))
        (sum_next_block (fun b => gram xr (rowAt I hI r) b * gram yr (rowAt I hI r) b) (J + 1) hJ)

include hx hy in
/-- At the last tile of a row of tiles the three running sums are the full row sums of the two Gram matrices and of their product. -/
theorem outs_at_row_end (i : Fin 16) (r : Fin 512) (ht : 16 * i.val + 15 < cfg0.N) :
    (outsAt V c (16 * i.val + 15) ht).1 (ValueIdx.ix1 r) = ((∑ b : Fin 8192, gram xr ⟨512 * i.val + r.val, by omega⟩ b : ℝ) : EReal)
    ∧ (outsAt V c (16 * i.val + 15) ht).2.1 (ValueIdx.ix1 r) = ((∑ b : Fin 8192, gram yr ⟨512 * i.val + r.val, by omega⟩ b : ℝ) : EReal)
    ∧ (outsAt V c (16 * i.val + 15) ht).2.2 (ValueIdx.ix1 r) = ((∑ b : Fin 8192, gram xr ⟨512 * i.val + r.val, by omega⟩ b * gram yr ⟨512 * i.val + r.val, by omega⟩ b : ℝ) : EReal) := by
  obtain ⟨h1, h2, h3⟩ := invariant V c xr yr hx hy i.val i.isLt r 15 (by decide) ht
  rw [sum_all_blocks] at h1 h2 h3
  exact ⟨h1, h2, h3⟩

end Invariant

end Cert.KernelIdeal.HandValue

end
-- ==== Proof.KIArr.lean ====
/-
  From the running row sums to the three output arrays.

  Each output array has 8192 rows in 16 blocks of 512; block `i` is written back once, after the last tile of the
  row of tiles `i` (the point `16 i + 15`), with the running sum the body left there. Given that this running sum at
  row `r` of the block is the full row sum at row `512 i + r`, the array ends holding, at every row `a`, the full
  row sum at `a`: the blocks tile the array, row `a` lying in block `a / 512`.
-/
import proofs.«141356_j76493367542784_1_alg».proof.Proof.KIBody
import proofs.«141356_j76493367542784_1_alg».proof.Proof.Spec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Hsic Idealize.ShloMosaic
open Idealize.ShloMosaic.TcCoe Idealize.SL.Sem
open Idealize.ShloMosaic.Pipeline (Dat)

variable (V : (c : Dev nD) → (b : Ref sig .tc) → Buf (Elt Ideal) ((c : Thread nD τ).loc b)) (c : Dev nD)
variable (xr : Fin 8192 → Fin 128 → ℝ) (yr : Fin 8192 → Fin 16 → ℝ)

/-- Two positions that are the same number leave the same running sums. -/
theorem KIArr_outsAt_congr (n n' : ℕ) (h : n = n') (hn : n < cfg0.N) (hn' : n' < cfg0.N) : outsAt V c n hn = outsAt V c n' hn' := by
  subst h; rfl

/-! ## Output window 4: the first Gaussian kernel's row sums -/

/-- The block index of window 4 at point `t` is the row of tiles `t / 16`. -/
theorem KIArr_idx4 : ∀ t : Fin cfg0.N, win0_4.index t (0 : Fin 1) = t.val / 16 :=
  (by decide +kernel : ∀ t : Fin grid0.N, win0_4.index t (0 : Fin 1) = t.val / 16)

/-- The whole array the window ends holding: at row `a`, the first Gaussian kernel's row sums at `a`. -/
def KIArr_GK (j : S8192.Idx) : EReal := ((∑ b : Fin 8192, gram xr ⟨(j 0).val, (j 0).isLt⟩ b : ℝ) : EReal)

theorem GK_ix1 (a : Fin 8192) : KIArr_GK xr (ValueIdx.ix1 a) = ((∑ b : Fin 8192, gram xr a b : ℝ) : EReal) := rfl

/-- What a flushing point `t = 16 i + 15` writes back is block `i` of that array: row `r` of the block is row
    `512 i + r` of the array, and the running sum after the last tile of the row of tiles is the full row sum. -/
theorem KIArr_flushed4_eq
    (hrow : ∀ (i : Fin 16) (r : Fin 512) (ht : 16 * i.val + 15 < cfg0.N),
      (outsAt V c (16 * i.val + 15) ht).1 (ValueIdx.ix1 r) = ((∑ b : Fin 8192, gram xr ⟨512 * i.val + r.val, by omega⟩ b : ℝ) : EReal))
    (t : Fin cfg0.N) (hf : (cfg0.win 4).flush t = true) :
    (dat0 V c).flushed 4 t = ((cfg0.win 4).blk t).view.read (Elt Ideal) (KIArr_GK xr) := by
  have h15 : t.val % 16 = 15 := (flush0_4 t).mp hf
  have hN : cfg0.N = 256 := N_0
  have htN : t.val < 256 := hN ▸ t.isLt
  show (cfg0.win 4).cut (grid0.coords t) ((dat0 V c).after 4 t) = _
  rw [after0_4]
  funext j
  have hr : (j 0).val < 512 := Nat.lt_of_lt_of_le (j 0).isLt ((cfg0.win 4).xsize_le (grid0.coords t) 0)
  have e := hrow ⟨t.val / 16, by omega⟩ ⟨(j 0).val, hr⟩ (by dsimp only; omega)
  rw [KIArr_outsAt_congr V c t.val (16 * (t.val / 16) + 15) (by omega) t.isLt (by omega)]
  have hx : (cfg0.win 4).xinj (grid0.coords t) j = ValueIdx.ix1 (⟨(j 0).val, hr⟩ : Fin 512) := by
    funext a; match a with | ⟨0, _⟩ => rfl
  show (outsAt V c (16 * (t.val / 16) + 15) _).1 ((cfg0.win 4).xinj (grid0.coords t) j) = KIArr_GK xr (((cfg0.win 4).blk t).view.emb j)
  rw [hx]
  refine e.trans ?_
  have ha : (⟨512 * (t.val / 16) + (j 0).val, by omega⟩ : Fin 8192)
      = ⟨((((cfg0.win 4).blk t).view.emb j) 0).val, ((((cfg0.win 4).blk t).view.emb j) 0).isLt⟩ :=
    Fin.ext (by
      show 512 * (t.val / 16) + (j 0).val = win0_4.index t (0 : Fin 1) * 512 + 1 * (j 0).val
      rw [KIArr_idx4 t]; omega)
  show ((∑ b : Fin 8192, gram xr ⟨512 * (t.val / 16) + (j 0).val, _⟩ b : ℝ) : EReal) = _
  rw [ha]
  rfl

/-- An index of the array is in point `t`'s block iff its coordinate is in the block's range. -/
theorem KIArr_mem_blk4 (t : Fin cfg0.N) (i : S8192.Idx) :
    i ∈ ((cfg0.win 4).blk t).view.set ↔ ∀ a : Fin 1, win0_4.index t a * S512.size a ≤ (i a).val ∧ (i a).val < win0_4.index t a * S512.size a + S512.size a := by
  show i ∈ ((View.whole main_v0_0).slice (win0_4.rect t)).set ↔ _
  rw [View.set_slice_whole, Rect.mem_set_unit]
  exact Iff.rfl

/-- Row `a` lies in the block written back at the last tile of its row of tiles, the point `16 (a / 512) + 15`. -/
theorem KIArr_cover4 (i : S8192.Idx) : ∃ t : Fin cfg0.N, (cfg0.win 4).flush t = true ∧ i ∈ ((cfg0.win 4).blk t).view.set := by
  have hN : cfg0.N = 256 := N_0
  have hi : (i 0).val < 8192 := (i 0).isLt
  refine ⟨⟨16 * ((i 0).val / 512) + 15, by omega⟩, (flush0_4 _).mpr (by dsimp only; omega), ?_⟩
  rw [KIArr_mem_blk4]
  intro a
  match a with
  | ⟨0, _⟩ =>
    show win0_4.index _ (0 : Fin 1) * 512 ≤ (i 0).val ∧ (i 0).val < win0_4.index _ (0 : Fin 1) * 512 + 512
    rw [KIArr_idx4]; dsimp only; omega

/-- So the array ends holding the first Gaussian kernel's row sums. -/
theorem KIArr_arr4
    (hrow : ∀ (i : Fin 16) (r : Fin 512) (ht : 16 * i.val + 15 < cfg0.N),
      (outsAt V c (16 * i.val + 15) ht).1 (ValueIdx.ix1 r) = ((∑ b : Fin 8192, gram xr ⟨512 * i.val + r.val, by omega⟩ b : ℝ) : EReal)) :
    (dat0 V c).arrAt 4 cfg0.N = KIArr_GK xr :=
  (dat0 V c).arrAt_eq_of_cover 4 (KIArr_GK xr) (KIArr_flushed4_eq V c xr hrow) KIArr_cover4

/-! ## Output window 5: the second Gaussian kernel's row sums -/

/-- The block index of window 5 at point `t` is the row of tiles `t / 16`. -/
theorem KIArr_idx5 : ∀ t : Fin cfg0.N, win0_5.index t (0 : Fin 1) = t.val / 16 :=
  (by decide +kernel : ∀ t : Fin grid0.N, win0_5.index t (0 : Fin 1) = t.val / 16)

/-- The whole array the window ends holding: at row `a`, the second Gaussian kernel's row sums at `a`. -/
def KIArr_GL (j : S8192.Idx) : EReal := ((∑ b : Fin 8192, gram yr ⟨(j 0).val, (j 0).isLt⟩ b : ℝ) : EReal)

theorem GL_ix1 (a : Fin 8192) : KIArr_GL yr (ValueIdx.ix1 a) = ((∑ b : Fin 8192, gram yr a b : ℝ) : EReal) := rfl

/-- What a flushing point `t = 16 i + 15` writes back is block `i` of that array: row `r` of the block is row
    `512 i + r` of the array, and the running sum after the last tile of the row of tiles is the full row sum. -/
theorem KIArr_flushed5_eq
    (hrow : ∀ (i : Fin 16) (r : Fin 512) (ht : 16 * i.val + 15 < cfg0.N),
      (outsAt V c (16 * i.val + 15) ht).2.1 (ValueIdx.ix1 r) = ((∑ b : Fin 8192, gram yr ⟨512 * i.val + r.val, by omega⟩ b : ℝ) : EReal))
    (t : Fin cfg0.N) (hf : (cfg0.win 5).flush t = true) :
    (dat0 V c).flushed 5 t = ((cfg0.win 5).blk t).view.read (Elt Ideal) (KIArr_GL yr) := by
  have h15 : t.val % 16 = 15 := (flush0_5 t).mp hf
  have hN : cfg0.N = 256 := N_0
  have htN : t.val < 256 := hN ▸ t.isLt
  show (cfg0.win 5).cut (grid0.coords t) ((dat0 V c).after 5 t) = _
  rw [after0_5]
  funext j
  have hr : (j 0).val < 512 := Nat.lt_of_lt_of_le (j 0).isLt ((cfg0.win 5).xsize_le (grid0.coords t) 0)
  have e := hrow ⟨t.val / 16, by omega⟩ ⟨(j 0).val, hr⟩ (by dsimp only; omega)
  rw [KIArr_outsAt_congr V c t.val (16 * (t.val / 16) + 15) (by omega) t.isLt (by omega)]
  have hx : (cfg0.win 5).xinj (grid0.coords t) j = ValueIdx.ix1 (⟨(j 0).val, hr⟩ : Fin 512) := by
    funext a; match a with | ⟨0, _⟩ => rfl
  show (outsAt V c (16 * (t.val / 16) + 15) _).2.1 ((cfg0.win 5).xinj (grid0.coords t) j) = KIArr_GL yr (((cfg0.win 5).blk t).view.emb j)
  rw [hx]
  refine e.trans ?_
  have ha : (⟨512 * (t.val / 16) + (j 0).val, by omega⟩ : Fin 8192)
      = ⟨((((cfg0.win 5).blk t).view.emb j) 0).val, ((((cfg0.win 5).blk t).view.emb j) 0).isLt⟩ :=
    Fin.ext (by
      show 512 * (t.val / 16) + (j 0).val = win0_5.index t (0 : Fin 1) * 512 + 1 * (j 0).val
      rw [KIArr_idx5 t]; omega)
  show ((∑ b : Fin 8192, gram yr ⟨512 * (t.val / 16) + (j 0).val, _⟩ b : ℝ) : EReal) = _
  rw [ha]
  rfl

/-- An index of the array is in point `t`'s block iff its coordinate is in the block's range. -/
theorem KIArr_mem_blk5 (t : Fin cfg0.N) (i : S8192.Idx) :
    i ∈ ((cfg0.win 5).blk t).view.set ↔ ∀ a : Fin 1, win0_5.index t a * S512.size a ≤ (i a).val ∧ (i a).val < win0_5.index t a * S512.size a + S512.size a := by
  show i ∈ ((View.whole main_v0_1).slice (win0_5.rect t)).set ↔ _
  rw [View.set_slice_whole, Rect.mem_set_unit]
  exact Iff.rfl

/-- Row `a` lies in the block written back at the last tile of its row of tiles, the point `16 (a / 512) + 15`. -/
theorem KIArr_cover5 (i : S8192.Idx) : ∃ t : Fin cfg0.N, (cfg0.win 5).flush t = true ∧ i ∈ ((cfg0.win 5).blk t).view.set := by
  have hN : cfg0.N = 256 := N_0
  have hi : (i 0).val < 8192 := (i 0).isLt
  refine ⟨⟨16 * ((i 0).val / 512) + 15, by omega⟩, (flush0_5 _).mpr (by dsimp only; omega), ?_⟩
  rw [KIArr_mem_blk5]
  intro a
  match a with
  | ⟨0, _⟩ =>
    show win0_5.index _ (0 : Fin 1) * 512 ≤ (i 0).val ∧ (i 0).val < win0_5.index _ (0 : Fin 1) * 512 + 512
    rw [KIArr_idx5]; dsimp only; omega

/-- So the array ends holding the second Gaussian kernel's row sums. -/
theorem KIArr_arr5
    (hrow : ∀ (i : Fin 16) (r : Fin 512) (ht : 16 * i.val + 15 < cfg0.N),
      (outsAt V c (16 * i.val + 15) ht).2.1 (ValueIdx.ix1 r) = ((∑ b : Fin 8192, gram yr ⟨512 * i.val + r.val, by omega⟩ b : ℝ) : EReal)) :
    (dat0 V c).arrAt 5 cfg0.N = KIArr_GL yr :=
  (dat0 V c).arrAt_eq_of_cover 5 (KIArr_GL yr) (KIArr_flushed5_eq V c yr hrow) KIArr_cover5

/-! ## Output window 6: the row sums of the product of the two kernels -/

/-- The block index of window 6 at point `t` is the row of tiles `t / 16`. -/
theorem KIArr_idx6 : ∀ t : Fin cfg0.N, win0_6.index t (0 : Fin 1) = t.val / 16 :=
  (by decide +kernel : ∀ t : Fin grid0.N, win0_6.index t (0 : Fin 1) = t.val / 16)

/-- The whole array the window ends holding: at row `a`, the row sums of the product of the two kernels at `a`. -/
def KIArr_GLK (j : S8192.Idx) : EReal := ((∑ b : Fin 8192, gram xr ⟨(j 0).val, (j 0).isLt⟩ b * gram yr ⟨(j 0).val, (j 0).isLt⟩ b : ℝ) : EReal)

theorem GLK_ix1 (a : Fin 8192) : KIArr_GLK xr yr (ValueIdx.ix1 a) = ((∑ b : Fin 8192, gram xr a b * gram yr a b : ℝ) : EReal) := rfl

/-- What a flushing point `t = 16 i + 15` writes back is block `i` of that array: row `r` of the block is row
    `512 i + r` of the array, and the running sum after the last tile of the row of tiles is the full row sum. -/
theorem KIArr_flushed6_eq
    (hrow : ∀ (i : Fin 16) (r : Fin 512) (ht : 16 * i.val + 15 < cfg0.N),
      (outsAt V c (16 * i.val + 15) ht).2.2 (ValueIdx.ix1 r) = ((∑ b : Fin 8192, gram xr ⟨512 * i.val + r.val, by omega⟩ b * gram yr ⟨512 * i.val + r.val, by omega⟩ b : ℝ) : EReal))
    (t : Fin cfg0.N) (hf : (cfg0.win 6).flush t = true) :
    (dat0 V c).flushed 6 t = ((cfg0.win 6).blk t).view.read (Elt Ideal) (KIArr_GLK xr yr) := by
  have h15 : t.val % 16 = 15 := (flush0_6 t).mp hf
  have hN : cfg0.N = 256 := N_0
  have htN : t.val < 256 := hN ▸ t.isLt
  show (cfg0.win 6).cut (grid0.coords t) ((dat0 V c).after 6 t) = _
  rw [after0_6]
  funext j
  have hr : (j 0).val < 512 := Nat.lt_of_lt_of_le (j 0).isLt ((cfg0.win 6).xsize_le (grid0.coords t) 0)
  have e := hrow ⟨t.val / 16, by omega⟩ ⟨(j 0).val, hr⟩ (by dsimp only; omega)
  rw [KIArr_outsAt_congr V c t.val (16 * (t.val / 16) + 15) (by omega) t.isLt (by omega)]
  have hx : (cfg0.win 6).xinj (grid0.coords t) j = ValueIdx.ix1 (⟨(j 0).val, hr⟩ : Fin 512) := by
    funext a; match a with | ⟨0, _⟩ => rfl
  show (outsAt V c (16 * (t.val / 16) + 15) _).2.2 ((cfg0.win 6).xinj (grid0.coords t) j) = KIArr_GLK xr yr (((cfg0.win 6).blk t).view.emb j)
  rw [hx]
  refine e.trans ?_
  have ha : (⟨512 * (t.val / 16) + (j 0).val, by omega⟩ : Fin 8192)
      = ⟨((((cfg0.win 6).blk t).view.emb j) 0).val, ((((cfg0.win 6).blk t).view.emb j) 0).isLt⟩ :=
    Fin.ext (by
      show 512 * (t.val / 16) + (j 0).val = win0_6.index t (0 : Fin 1) * 512 + 1 * (j 0).val
      rw [KIArr_idx6 t]; omega)
  show ((∑ b : Fin 8192, gram xr ⟨512 * (t.val / 16) + (j 0).val, _⟩ b * gram yr ⟨512 * (t.val / 16) + (j 0).val, _⟩ b : ℝ) : EReal) = _
  rw [ha]
  rfl

/-- An index of the array is in point `t`'s block iff its coordinate is in the block's range. -/
theorem KIArr_mem_blk6 (t : Fin cfg0.N) (i : S8192.Idx) :
    i ∈ ((cfg0.win 6).blk t).view.set ↔ ∀ a : Fin 1, win0_6.index t a * S512.size a ≤ (i a).val ∧ (i a).val < win0_6.index t a * S512.size a + S512.size a := by
  show i ∈ ((View.whole main_v0_2).slice (win0_6.rect t)).set ↔ _
  rw [View.set_slice_whole, Rect.mem_set_unit]
  exact Iff.rfl

/-- Row `a` lies in the block written back at the last tile of its row of tiles, the point `16 (a / 512) + 15`. -/
theorem KIArr_cover6 (i : S8192.Idx) : ∃ t : Fin cfg0.N, (cfg0.win 6).flush t = true ∧ i ∈ ((cfg0.win 6).blk t).view.set := by
  have hN : cfg0.N = 256 := N_0
  have hi : (i 0).val < 8192 := (i 0).isLt
  refine ⟨⟨16 * ((i 0).val / 512) + 15, by omega⟩, (flush0_6 _).mpr (by dsimp only; omega), ?_⟩
  rw [KIArr_mem_blk6]
  intro a
  match a with
  | ⟨0, _⟩ =>
    show win0_6.index _ (0 : Fin 1) * 512 ≤ (i 0).val ∧ (i 0).val < win0_6.index _ (0 : Fin 1) * 512 + 512
    rw [KIArr_idx6]; dsimp only; omega

/-- So the array ends holding the row sums of the product of the two kernels. -/
theorem KIArr_arr6
    (hrow : ∀ (i : Fin 16) (r : Fin 512) (ht : 16 * i.val + 15 < cfg0.N),
      (outsAt V c (16 * i.val + 15) ht).2.2 (ValueIdx.ix1 r) = ((∑ b : Fin 8192, gram xr ⟨512 * i.val + r.val, by omega⟩ b * gram yr ⟨512 * i.val + r.val, by omega⟩ b : ℝ) : EReal)) :
    (dat0 V c).arrAt 6 cfg0.N = KIArr_GLK xr yr :=
  (dat0 V c).arrAt_eq_of_cover 6 (KIArr_GLK xr yr) (KIArr_flushed6_eq V c xr yr hrow) KIArr_cover6

/-! ## The three arrays, row by row -/

theorem arr_rows
    (hrow : ∀ (i : Fin 16) (r : Fin 512) (ht : 16 * i.val + 15 < cfg0.N),
        (outsAt V c (16 * i.val + 15) ht).1 (ValueIdx.ix1 r) = ((∑ b : Fin 8192, gram xr ⟨512 * i.val + r.val, by omega⟩ b : ℝ) : EReal)
      ∧ (outsAt V c (16 * i.val + 15) ht).2.1 (ValueIdx.ix1 r) = ((∑ b : Fin 8192, gram yr ⟨512 * i.val + r.val, by omega⟩ b : ℝ) : EReal)
      ∧ (outsAt V c (16 * i.val + 15) ht).2.2 (ValueIdx.ix1 r) = ((∑ b : Fin 8192, gram xr ⟨512 * i.val + r.val, by omega⟩ b * gram yr ⟨512 * i.val + r.val, by omega⟩ b : ℝ) : EReal))
    (a : Fin 8192) :
      (dat0 V c).arrAt 4 cfg0.N (ValueIdx.ix1 a) = ((∑ b : Fin 8192, gram xr a b : ℝ) : EReal)
    ∧ (dat0 V c).arrAt 5 cfg0.N (ValueIdx.ix1 a) = ((∑ b : Fin 8192, gram yr a b : ℝ) : EReal)
    ∧ (dat0 V c).arrAt 6 cfg0.N (ValueIdx.ix1 a) = ((∑ b : Fin 8192, gram xr a b * gram yr a b : ℝ) : EReal) :=
  ⟨(congrFun (KIArr_arr4 V c xr fun i r ht => (hrow i r ht).1) (ValueIdx.ix1 a)).trans (GK_ix1 xr a),
   (congrFun (KIArr_arr5 V c yr fun i r ht => (hrow i r ht).2.1) (ValueIdx.ix1 a)).trans (GL_ix1 yr a),
   (congrFun (KIArr_arr6 V c xr yr fun i r ht => (hrow i r ht).2.2) (ValueIdx.ix1 a)).trans (GLK_ix1 xr yr a)⟩

end Cert.KernelIdeal.HandValue

end
-- ==== Proof.KIValue.lean ====
import proofs.«141356_j76493367542784_1_alg».proof.Proof.KIBody
import proofs.«141356_j76493367542784_1_alg».proof.Proof.Spec
import proofs.«141356_j76493367542784_1_alg».proof.Proof.KIStep
import proofs.«141356_j76493367542784_1_alg».proof.Proof.KIRun
import proofs.«141356_j76493367542784_1_alg».proof.Proof.KIArr
import Idealize.ShloMosaic.Lib.ValueIdx
import Idealize.ShloMosaic.Lib.Pipeline.Value
import Idealize.ShloMosaic.Lib.StableHlo.Run
import Idealize.ShloMosaic.PureOps.Ideal.Laws

/-! # The kernel program's result as a real number

After the region the three output arrays hold, row by row, the row sums of the two Gaussian Gram matrices and of
their entrywise product. The host then combines them: with R_K, R_L, R_KL the three vectors, the result is
((∑ R_KL - 2 * ∑ a, (R_K a / 8192) * R_L a) + ((∑ R_K) / 2^26) * ∑ R_L) / 67092480.
Every entry is finite, so every operation is the real one and the result is the coercion of that real number. -/

noncomputable section

namespace Cert.KernelIdeal.HandValue

open Cert.KernelIdeal Cert.KernelIdeal.Gen Cert.KernelIdeal.Hand Cert.Hsic
open Idealize.ShloMosaic Idealize.ShloMosaic.TcCoe Idealize.SL.Sem
open Idealize.ShloMosaic.ValueIdx

/-! ## The float literals of the host operations, as reals -/

private theorem KIValue_lit_zero : Ideal.ofBits .f32 0x00000000#32 = ((0 : ℝ) : EReal) := by
  rw [Ideal.ofBits_zero_f32]; rfl
private theorem KIValue_lit_two : Ideal.ofBits .f32 0x40000000#32 = ((2 : ℝ) : EReal) := by
  simp [Ideal.ofBits, Ideal.ieee, -EReal.coe_mul]; norm_num
private theorem KIValue_lit_8192 : Ideal.ofBits .f32 0x46000000#32 = ((8192 : ℝ) : EReal) := by
  simp [Ideal.ofBits, Ideal.ieee, -EReal.coe_mul]; norm_num
private theorem KIValue_lit_2p26 : Ideal.ofBits .f32 0x4C800000#32 = ((67108864 : ℝ) : EReal) := by
  simp [Ideal.ofBits, Ideal.ieee, -EReal.coe_mul]; norm_num
private theorem KIValue_lit_c : Ideal.ofBits .f32 0x4C7FF000#32 = ((67092480 : ℝ) : EReal) := by
  simp [Ideal.ofBits, Ideal.ieee, -EReal.coe_mul]; norm_num

/-! ## Finite sums and quotients of coerced reals -/

/-- A finite sum of coerced reals is the coercion of the sum. -/
private theorem KIValue_coe_sum {ι : Type} (s : Finset ι) (f : ι → ℝ) : ∑ a ∈ s, ((f a : ℝ) : EReal) = ((∑ a ∈ s, f a : ℝ) : EReal) := by
  classical
  induction s using Finset.induction_on with
  | empty => simp
  | insert a s ha ih => rw [Finset.sum_insert ha, Finset.sum_insert ha, ih, EReal.coe_add]

/-- The quotient of two coerced reals, the divisor not zero, is the coercion of the quotient. -/
private theorem KIValue_div_coe_coe (x y : ℝ) (hy : y ≠ 0) : Ideal.div (x : EReal) (y : EReal) = ((x / y : ℝ) : EReal) := by
  rw [Ideal.div_coe hy, ← EReal.coe_mul, mul_one_div]

/-- A rank-1 index set is its one coordinate's range … -/
private def KIValue_idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem KIValue_sum_idx1 {M : Type} [AddCommMonoid M] {n : Nat} (f : (⟨1, ![n]⟩ : Shape).Idx → M) :
    ∑ i, f i = ∑ a : Fin n, f (ix1 a) := by
  rw [← Equiv.sum_comp (KIValue_idxEquiv1 (n := n)).symm f]
  rfl

/-! ## The host operations after the region, as one function of the three arrays -/

/-- A vector of 8192 floats. -/
abbrev KIValue_Arr : Type := (⟨S8192, .f32⟩ : BufTy).Contents (Elt Ideal)
/-- A rank-zero float. -/
abbrev KIValue_Sc : Type := (⟨S_, .f32⟩ : BufTy).Contents (Elt Ideal)

/-- The host's sum of a vector, from zero. -/
def KIValue_total (x : KIValue_Arr) : KIValue_Sc :=
  (Host.reduceAdd (F := Ideal) x (constant (F := Ideal) S_ .f32 0x00000000#32 : KIValue_Sc) reducesTo_S8192_S_d0 h_S_ : KIValue_Sc)

/-- The quotient of the first array by 8192, entry by entry, times the second array. -/
def KIValue_scaledProd (k l : KIValue_Arr) : KIValue_Arr :=
  mulf (F := Ideal) (s := S8192) (φ := .f32)
    (Host.divf (F := Ideal) (s := S8192) (φ := .f32) k
      (broadcastInDim S8192 ![] bcast_S_S8192 (constant (F := Ideal) S_ .f32 0x46000000#32)))
    l

/-- The 21 host operations as one function of the three output arrays of the region. -/
def tailFn (k l lk : KIValue_Arr) : KIValue_Sc :=
  Host.divf (F := Ideal) (s := S_) (φ := .f32)
    (addf (F := Ideal) (s := S_) (φ := .f32)
      (subf (F := Ideal) (s := S_) (φ := .f32) (KIValue_total lk)
        (mulf (F := Ideal) (s := S_) (φ := .f32) (constant (F := Ideal) S_ .f32 0x40000000#32)
          (KIValue_total (KIValue_scaledProd k l))))
      (mulf (F := Ideal) (s := S_) (φ := .f32)
        (Host.divf (F := Ideal) (s := S_) (φ := .f32) (KIValue_total k) (constant (F := Ideal) S_ .f32 0x4C800000#32))
        (KIValue_total l)))
    (constant (F := Ideal) S_ .f32 0x4C7FF000#32)

/-- The host's sum of a vector of coerced reals is the coercion of their sum. -/
private theorem KIValue_total_apply (x : KIValue_Arr) (R : Fin 8192 → ℝ) (hx : ∀ a, x (ix1 a) = ((R a : ℝ) : EReal)) (i : S_.Idx) :
    KIValue_total x i = ((∑ a, R a : ℝ) : EReal) := by
  unfold KIValue_total
  simp only [Host.reduceAdd, Ideal.hostReduceAdd_def]
  refine (Ideal.hostReduceAdd_total reducesTo_S8192_S_d0 (fun b => b.elim0) x _ i).trans ?_
  rw [KIValue_sum_idx1]
  show Ideal.ofBits .f32 0x00000000#32 + _ = _
  rw [KIValue_lit_zero, Finset.sum_congr rfl (fun a _ => hx a), KIValue_coe_sum, ← EReal.coe_add, zero_add]

/-- The host tail of three vectors of coerced reals. -/
theorem KIValue_tailFn_apply (k l lk : KIValue_Arr) (RK RL RLK : Fin 8192 → ℝ)
    (hk : ∀ a, k (ix1 a) = ((RK a : ℝ) : EReal)) (hl : ∀ a, l (ix1 a) = ((RL a : ℝ) : EReal))
    (hlk : ∀ a, lk (ix1 a) = ((RLK a : ℝ) : EReal)) (i : S_.Idx) :
    tailFn k l lk i
      = (((((∑ a, RLK a) - 2 * (∑ a, (RK a / 8192) * RL a)) + ((∑ a, RK a) / 67108864) * (∑ a, RL a)) / 67092480 : ℝ) : EReal) := by
  have h6 : ∀ a, KIValue_scaledProd k l (ix1 a) = (((RK a / 8192) * RL a : ℝ) : EReal) := by
    intro a
    show Ideal.div (k (ix1 a)) (Ideal.ofBits .f32 0x46000000#32) * l (ix1 a) = _
    rw [hk, hl, KIValue_lit_8192, KIValue_div_coe_coe _ _ (by norm_num), ← EReal.coe_mul]
  unfold tailFn
  show Ideal.div ((KIValue_total lk i - Ideal.ofBits .f32 0x40000000#32 * KIValue_total (KIValue_scaledProd k l) i)
      + Ideal.div (KIValue_total k i) (Ideal.ofBits .f32 0x4C800000#32) * KIValue_total l i) (Ideal.ofBits .f32 0x4C7FF000#32) = _
  rw [KIValue_total_apply lk RLK hlk, KIValue_total_apply _ _ h6, KIValue_total_apply k RK hk, KIValue_total_apply l RL hl, KIValue_lit_two, KIValue_lit_2p26, KIValue_lit_c,
    KIValue_div_coe_coe _ _ (by norm_num), ← EReal.coe_mul, ← EReal.coe_sub, ← EReal.coe_mul, ← EReal.coe_add,
    KIValue_div_coe_coe _ _ (by norm_num)]

/-- With the three vectors the row sums of two matrices and of their entrywise product, the host tail is the
    kernel's form of the statistic. -/
theorem KIValue_tailFn_gram (k l lk : KIValue_Arr) (xr : Fin 8192 → Fin 128 → ℝ) (yr : Fin 8192 → Fin 16 → ℝ)
    (hk : ∀ a, k (ix1 a) = ((∑ b : Fin 8192, gram xr a b : ℝ) : EReal))
    (hl : ∀ a, l (ix1 a) = ((∑ b : Fin 8192, gram yr a b : ℝ) : EReal))
    (hlk : ∀ a, lk (ix1 a) = ((∑ b : Fin 8192, gram xr a b * gram yr a b : ℝ) : EReal)) :
    tailFn k l lk = fun _ => ((kernelForm (gram xr) (gram yr) 8192 67108864 67092480 : ℝ) : EReal) := by
  funext i
  rw [KIValue_tailFn_apply k l lk _ _ _ hk hl hlk i]
  rfl

/-! ## The host operations run from any buffer contents -/

/-- After the 21 host operations the last result holds the host tail of the three output arrays as the operations
    found them. -/
theorem KIValue_tail_after (W : Valuation τ sig (Elt Ideal)) :
    StableHlo.after (hostOps1 (F := Ideal)) W (Proc.devRef .tc main_v13)
      = tailFn (W (Proc.devRef .tc main_v0_0)) (W (Proc.devRef .tc main_v0_1)) (W (Proc.devRef .tc main_v0_2)) := by
  after_results
  rfl

/-- So from contents whose three output arrays hold the row sums, the last result is the kernel's form. -/
theorem KIValue_after_value (W : Valuation τ sig (Elt Ideal)) (xr : Fin 8192 → Fin 128 → ℝ) (yr : Fin 8192 → Fin 16 → ℝ)
    (h4 : ∀ a : Fin 8192, W (Proc.devRef .tc main_v0_0) (ix1 a) = ((∑ b : Fin 8192, gram xr a b : ℝ) : EReal))
    (h5 : ∀ a : Fin 8192, W (Proc.devRef .tc main_v0_1) (ix1 a) = ((∑ b : Fin 8192, gram yr a b : ℝ) : EReal))
    (h6 : ∀ a : Fin 8192, W (Proc.devRef .tc main_v0_2) (ix1 a) = ((∑ b : Fin 8192, gram xr a b * gram yr a b : ℝ) : EReal)) :
    StableHlo.after (hostOps1 (F := Ideal)) W (Proc.devRef .tc main_v13)
      = fun _ => ((kernelForm (gram xr) (gram yr) 8192 67108864 67092480 : ℝ) : EReal) :=
  (KIValue_tail_after W).trans (KIValue_tailFn_gram _ _ _ xr yr h4 h5 h6)

/-! ## The kernel program's result -/

/-- With finite inputs the kernel program's last result is, on every entry, the coercion of the kernel's form of the
    statistic of the two Gaussian Gram matrices: the region leaves the three row-sum vectors in its output arrays,
    and the host operations combine them. -/
theorem kernel_value (m : (ℓ : Loc nD τ sig) → Buf (Elt Ideal) ℓ) (ρ : Dev nD → PrngReg) (c : Dev nD)
    (xr : Fin 8192 → Fin 128 → ℝ) (yr : Fin 8192 → Fin 16 → ℝ)
    (hx : ∀ a k, m ((c : Thread nD τ).loc main_arg0) (ValueIdx.ix2 a k) = ((xr a k : ℝ) : EReal))
    (hy : ∀ a k, m ((c : Thread nD τ).loc main_arg1) (ValueIdx.ix2 a k) = ((yr a k : ℝ) : EReal)) :
    W3 m ρ (fun c => dat0 (fun c b => m ((c : Thread nD τ).loc b)) c) c (Proc.devRef .tc main_v13)
      = fun _ => ((kernelForm (gram xr) (gram yr) 8192 67108864 67092480 : ℝ) : EReal) := by
  have harr := arr_rows (fun c b => m ((c : Thread nD τ).loc b)) c xr yr
    (fun i r ht => outs_at_row_end (fun c b => m ((c : Thread nD τ).loc b)) c xr yr hx hy i r ht)
  refine KIValue_after_value _ xr yr (fun a => ?_) (fun a => ?_) (fun a => ?_)
  · rw [W2_out4]; exact (harr a).1
  · rw [W2_out5]; exact (harr a).2.1
  · rw [W2_out6]; exact (harr a).2.2

end Cert.KernelIdeal.HandValue

end
-- ==== Proof.RefValue.lean ====
import proofs.«141356_j76493367542784_1_alg».proof.Defs
import proofs.«141356_j76493367542784_1_alg».proof.Proof.Gen.ReferenceIdeal.Run
import proofs.«141356_j76493367542784_1_alg».proof.Proof.Gen.ReferenceIdeal.Read
import proofs.«141356_j76493367542784_1_alg».proof.Proof.Spec

/-
  The reference program's result as a real number.

  With finite inputs every array entry of the reference is the coercion of a real: the row squared norms,
  the inner products, the Gaussian Gram entries of both inputs, the column sums, row sums and total of the
  first Gram matrix, the doubly centred matrix, and at last the quotient, which is `refForm` of the two Gram
  matrices.
-/

noncomputable section

namespace Cert.ReferenceIdeal.RefValue

open Cert.ReferenceIdeal Cert.ReferenceIdeal.Read Cert.Hsic Idealize.ShloMosaic
open Idealize.ShloMosaic.ValueIdx

/-! ## Literals -/

theorem lit_one : Ideal.ofBits .f32 0x3F800000#32 = ((1 : ℝ) : EReal) := by
  simp [Ideal.ofBits, Ideal.ieee, -EReal.coe_mul]; norm_num

theorem lit_neg_two : Ideal.ofBits .f32 0xC0000000#32 = ((-2 : ℝ) : EReal) := by
  simp [Ideal.ofBits, Ideal.ieee, -EReal.coe_mul]; norm_num

theorem lit_8192 : Ideal.ofBits .f32 0x46000000#32 = ((8192 : ℝ) : EReal) := by
  simp [Ideal.ofBits, Ideal.ieee, -EReal.coe_mul]; norm_num

theorem lit_2p26 : Ideal.ofBits .f32 0x4C800000#32 = ((67108864 : ℝ) : EReal) := by
  simp [Ideal.ofBits, Ideal.ieee, -EReal.coe_mul]; norm_num

theorem lit_c : Ideal.ofBits .f32 0x4C7FF000#32 = ((67092480 : ℝ) : EReal) := by
  simp [Ideal.ofBits, Ideal.ieee, -EReal.coe_mul]; norm_num

/-! ## Coercion lemmas -/

/-- The coercion of a finite real sum is the sum of the coercions. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient by a nonzero real is the real quotient. -/
theorem div_coe_coe (x y : ℝ) (h : y ≠ 0) : Ideal.div (x : EReal) (y : EReal) = ((x / y : ℝ) : EReal) := by
  rw [Ideal.div_coe h, ← EReal.coe_mul, mul_one_div]

/-- The Gram entry from the inner product and the two squared norms, in the program's order. -/
theorem gram_chain (d s t : ℝ) :
    Ideal.exp (Ideal.div (-((((-2 : ℝ) : EReal) * (d : EReal) + (s : EReal)) + (t : EReal))) ((1 : ℝ) : EReal))
      = ((Real.exp (-(((-2) * d + s) + t) / 1) : ℝ) : EReal) := by
  rw [← EReal.coe_mul, ← EReal.coe_add, ← EReal.coe_add, ← EReal.coe_neg, div_coe_coe _ _ one_ne_zero, Ideal.exp_coe]

/-! ## The first input: squared norms, inner products, Gram entries -/

section X
variable (X : (⟨S8192x128, .f32⟩ : BufTy).Contents (Elt Ideal)) (xr : Fin 8192 → Fin 128 → ℝ)

/-- The row squared norm of the first input. -/
theorem sq_x (hx : ∀ a k, X (ix2 a k) = ((xr a k : ℝ) : EReal)) (a : Fin 8192) :
    val_main_v1 (F := Ideal) X (ix1 a) = ((sqn xr a : ℝ) : EReal) := by
  rw [val_main_v1_apply, val_main_cst_apply, Ideal.ofBits_def, Ideal.ofBits_zero_f32, zero_add]
  unfold sqn
  rw [← coe_sum]
  refine Finset.sum_congr rfl fun k _ => ?_
  have e : idx_main_v1 (ix1 a) k = ix2 a k := by
    funext d; match d with | ⟨0, _⟩ => rfl | ⟨1, _⟩ => rfl
  rw [val_main_v0_apply, Ideal.mulf_def, e, hx, ← EReal.coe_mul]

/-- The inner product of two rows of the first input. -/
theorem dot_x (hx : ∀ a k, X (ix2 a k) = ((xr a k : ℝ) : EReal)) (a b : Fin 8192) :
    val_main_v4 (F := Ideal) X (ix2 a b) = ((∑ k, xr a k * xr b k : ℝ) : EReal) := by
  rw [val_main_v4_apply, ← coe_sum]
  refine Finset.sum_congr rfl fun k _ => ?_
  have el : lidx_main_v4 (ix2 a b) k = ix2 a k := by
    funext d; match d with | ⟨0, _⟩ => rfl | ⟨1, _⟩ => rfl
  have er : idx_main_v3 (ridx_main_v4 (ix2 a b) k) = ix2 b k := by
    funext d; match d with | ⟨0, _⟩ => rfl | ⟨1, _⟩ => rfl
  rw [val_main_v3_apply, el, er, hx, hx, ← EReal.coe_mul]

/-- The Gram entry of the first input. -/
theorem gram_x (hx : ∀ a k, X (ix2 a k) = ((xr a k : ℝ) : EReal)) (a b : Fin 8192) :
    val_main_v15 (F := Ideal) X (ix2 a b) = ((gram xr a b : ℝ) : EReal) := by
  have e7 : idx_main_v2 (idx_main_v7 (ix2 a b)) = ix1 a := by
    funext d; match d with | ⟨0, _⟩ => rfl
  have e10 : idx_main_v2 (idx_main_v9 (idx_main_v10 (ix2 a b))) = ix1 b := by
    funext d; match d with | ⟨0, _⟩ => rfl
  rw [val_main_v15_apply, val_main_v14_apply, val_main_v12_apply, val_main_v11_apply, val_main_v8_apply,
    val_main_v6_apply, val_main_v5_apply, val_main_cst_0_apply, val_main_v7_apply, val_main_v2_apply, e7,
    val_main_v10_apply, val_main_v9_apply, val_main_v2_apply, e10, val_main_v13_apply, val_main_cst_1_apply,
    dot_x X xr hx, sq_x X xr hx, sq_x X xr hx,
    Ideal.hostUnary_exp_def, Ideal.hostDivf_def, Ideal.hostNegf_def, Ideal.negf_def, Ideal.addf_def, Ideal.addf_def,
    Ideal.mulf_def, Ideal.ofBits_def, Ideal.ofBits_def, lit_neg_two, lit_one, gram_chain]
  rfl

end X

/-! ## The second input: the same three steps -/

section Y
variable (Y : (⟨S8192x16, .f32⟩ : BufTy).Contents (Elt Ideal)) (yr : Fin 8192 → Fin 16 → ℝ)

/-- The row squared norm of the second input. -/
theorem sq_y (hy : ∀ a k, Y (ix2 a k) = ((yr a k : ℝ) : EReal)) (a : Fin 8192) :
    val_main_v17 (F := Ideal) Y (ix1 a) = ((sqn yr a : ℝ) : EReal) := by
  rw [val_main_v17_apply, val_main_cst_2_apply, Ideal.ofBits_def, Ideal.ofBits_zero_f32, zero_add]
  unfold sqn
  rw [← coe_sum]
  refine Finset.sum_congr rfl fun k _ => ?_
  have e : idx_main_v17 (ix1 a) k = ix2 a k := by
    funext d; match d with | ⟨0, _⟩ => rfl | ⟨1, _⟩ => rfl
  rw [val_main_v16_apply, Ideal.mulf_def, e, hy, ← EReal.coe_mul]

/-- The inner product of two rows of the second input. -/
theorem dot_y (hy : ∀ a k, Y (ix2 a k) = ((yr a k : ℝ) : EReal)) (a b : Fin 8192) :
    val_main_v20 (F := Ideal) Y (ix2 a b) = ((∑ k, yr a k * yr b k : ℝ) : EReal) := by
  rw [val_main_v20_apply, ← coe_sum]
  refine Finset.sum_congr rfl fun k _ => ?_
  have el : lidx_main_v20 (ix2 a b) k = ix2 a k := by
    funext d; match d with | ⟨0, _⟩ => rfl | ⟨1, _⟩ => rfl
  have er : idx_main_v19 (ridx_main_v20 (ix2 a b) k) = ix2 b k := by
    funext d; match d with | ⟨0, _⟩ => rfl | ⟨1, _⟩ => rfl
  rw [val_main_v19_apply, el, er, hy, hy, ← EReal.coe_mul]

/-- The Gram entry of the second input. -/
theorem gram_y (hy : ∀ a k, Y (ix2 a k) = ((yr a k : ℝ) : EReal)) (a b : Fin 8192) :
    val_main_v31 (F := Ideal) Y (ix2 a b) = ((gram yr a b : ℝ) : EReal) := by
  have e23 : idx_main_v18 (idx_main_v23 (ix2 a b)) = ix1 a := by
    funext d; match d with | ⟨0, _⟩ => rfl
  have e26 : idx_main_v18 (idx_main_v25 (idx_main_v26 (ix2 a b))) = ix1 b := by
    funext d; match d with | ⟨0, _⟩ => rfl
  rw [val_main_v31_apply, val_main_v30_apply, val_main_v28_apply, val_main_v27_apply, val_main_v24_apply,
    val_main_v22_apply, val_main_v21_apply, val_main_cst_3_apply, val_main_v23_apply, val_main_v18_apply, e23,
    val_main_v26_apply, val_main_v25_apply, val_main_v18_apply, e26, val_main_v29_apply, val_main_cst_4_apply,
    dot_y Y yr hy, sq_y Y yr hy, sq_y Y yr hy,
    Ideal.hostUnary_exp_def, Ideal.hostDivf_def, Ideal.hostNegf_def, Ideal.negf_def, Ideal.addf_def, Ideal.addf_def,
    Ideal.mulf_def, Ideal.ofBits_def, Ideal.ofBits_def, lit_neg_two, lit_one, gram_chain]
  rfl

end Y

/-! ## The sums of the first Gram matrix, its centring, and the result -/

section Sums
variable (X : (⟨S8192x128, .f32⟩ : BufTy).Contents (Elt Ideal)) (xr : Fin 8192 → Fin 128 → ℝ)

/-- The column sums of the first Gram matrix. -/
theorem colsum_x (hx : ∀ a k, X (ix2 a k) = ((xr a k : ℝ) : EReal)) (b : Fin 8192) :
    val_main_v32 (F := Ideal) X (ix1 b) = ((∑ a', gram xr a' b : ℝ) : EReal) := by
  rw [val_main_v32_apply, val_main_cst_5_apply, Ideal.ofBits_def, Ideal.ofBits_zero_f32, zero_add, ← coe_sum]
  refine Finset.sum_congr rfl fun k _ => ?_
  have e : idx_main_v32 (ix1 b) k = ix2 k b := by
    funext d; match d with | ⟨0, _⟩ => rfl | ⟨1, _⟩ => rfl
  rw [e, gram_x X xr hx]

/-- The row sums of the first Gram matrix. -/
theorem rowsum_x (hx : ∀ a k, X (ix2 a k) = ((xr a k : ℝ) : EReal)) (a : Fin 8192) :
    val_main_v38 (F := Ideal) X (ix1 a) = ((∑ b', gram xr a b' : ℝ) : EReal) := by
  rw [val_main_v38_apply, val_main_cst_7_apply, Ideal.ofBits_def, Ideal.ofBits_zero_f32, zero_add, ← coe_sum]
  refine Finset.sum_congr rfl fun k _ => ?_
  have e : idx_main_v38 (ix1 a) k = ix2 a k := by
    funext d; match d with | ⟨0, _⟩ => rfl | ⟨1, _⟩ => rfl
  rw [e, gram_x X xr hx]

/-- The total of the first Gram matrix. -/
theorem total_x (hx : ∀ a k, X (ix2 a k) = ((xr a k : ℝ) : EReal)) (i : S_.Idx) :
    val_main_v44 (F := Ideal) X i = ((∑ a', ∑ b', gram xr a' b' : ℝ) : EReal) := by
  rw [val_main_v44_apply, val_main_cst_9_apply, Ideal.ofBits_def, Ideal.ofBits_zero_f32, zero_add, sum_idx2, ← coe_sum]
  refine Finset.sum_congr rfl fun a _ => ?_
  rw [← coe_sum]
  refine Finset.sum_congr rfl fun b _ => ?_
  rw [gram_x X xr hx]

/-- The doubly centred entry of the first Gram matrix. -/
theorem centred_x (hx : ∀ a k, X (ix2 a k) = ((xr a k : ℝ) : EReal)) (a b : Fin 8192) :
    val_main_v47 (F := Ideal) X (ix2 a b)
      = ((((gram xr a b - (∑ a', gram xr a' b) / 8192) - (∑ b', gram xr a b') / 8192)
          + (∑ a', ∑ b', gram xr a' b') / 67108864 : ℝ) : EReal) := by
  have e36 : idx_main_v33 (idx_main_v36 (ix2 a b)) = ix1 b := by
    funext d; match d with | ⟨0, _⟩ => rfl
  have e42 : idx_main_v39 (idx_main_v42 (ix2 a b)) = ix1 a := by
    funext d; match d with | ⟨0, _⟩ => rfl
  rw [val_main_v47_apply, val_main_v43_apply, val_main_v37_apply,
    val_main_v36_apply, val_main_v35_apply, val_main_v33_apply, e36, val_main_v34_apply, val_main_cst_6_apply,
    val_main_v42_apply, val_main_v41_apply, val_main_v39_apply, e42, val_main_v40_apply, val_main_cst_8_apply,
    val_main_v46_apply, val_main_v45_apply, val_main_cst_10_apply,
    gram_x X xr hx, colsum_x X xr hx, rowsum_x X xr hx, total_x X xr hx,
    Ideal.addf_def, Ideal.subf_def, Ideal.subf_def, Ideal.hostDivf_def, Ideal.hostDivf_def, Ideal.hostDivf_def,
    Ideal.ofBits_def, Ideal.ofBits_def, lit_8192, lit_2p26,
    div_coe_coe _ _ (by norm_num), div_coe_coe _ _ (by norm_num), div_coe_coe _ _ (by norm_num),
    ← EReal.coe_sub, ← EReal.coe_sub, ← EReal.coe_add]

end Sums

/-- The reference's result is `refForm` of the two Gram matrices. -/
theorem ref_value (X : (⟨S8192x128, .f32⟩ : BufTy).Contents (Elt Ideal)) (Y : (⟨S8192x16, .f32⟩ : BufTy).Contents (Elt Ideal))
    (xr : Fin 8192 → Fin 128 → ℝ) (yr : Fin 8192 → Fin 16 → ℝ)
    (hx : ∀ a k, X (ValueIdx.ix2 a k) = ((xr a k : ℝ) : EReal)) (hy : ∀ a k, Y (ValueIdx.ix2 a k) = ((yr a k : ℝ) : EReal)) (i : S_.Idx) :
    val_main_v50 (F := Ideal) X Y i = ((refForm (gram xr) (gram yr) 8192 67108864 67092480 : ℝ) : EReal) := by
  rw [val_main_v50_apply, val_main_cst_12_apply, val_main_v49_apply, val_main_cst_11_apply,
    Ideal.ofBits_def, Ideal.ofBits_def, Ideal.ofBits_zero_f32, zero_add, lit_c, Ideal.hostDivf_def, sum_idx2]
  have h : (∑ a : Fin 8192, ∑ b : Fin 8192, val_main_v48 (F := Ideal) X Y (ix2 a b))
      = ((∑ a, ∑ b, gram yr a b * (((gram xr a b - (∑ a', gram xr a' b) / 8192) - (∑ b', gram xr a b') / 8192)
          + (∑ a', ∑ b', gram xr a' b') / 67108864) : ℝ) : EReal) := by
    rw [← coe_sum]
    refine Finset.sum_congr rfl fun a _ => ?_
    rw [← coe_sum]
    refine Finset.sum_congr rfl fun b _ => ?_
    rw [val_main_v48_apply, Ideal.mulf_def, gram_y Y yr hy, centred_x X xr hx, ← EReal.coe_mul]
  rw [h, div_coe_coe _ _ (by norm_num)]
  rfl

end Cert.ReferenceIdeal.RefValue

end
-- ==== Proof.Finite.lean ====
/-
  From the precondition to real matrices.

  The precondition is one bit: the conjunction, over both inputs, of the reduction by `and` over every entry of the
  comparison  |x| < +∞,  the absolute value being  max x (-x)  on the extended reals and the bound the pattern of +∞,
  which denotes ⊤.  An extended real with  max x (-x) < ⊤  is neither ⊤ (then the maximum is ⊤) nor ⊥ (then -x = ⊤),
  so it is the coercion of a real, namely of its real part.  Hence both inputs are matrices of reals.
-/
import proofs.«141356_j76493367542784_1_alg».proof.Defs
import proofs.«141356_j76493367542784_1_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.Hsic

open Idealize.ShloMosaic Idealize.ShloMosaic.ValueIdx

/-- The scalar shape has one index. -/
instance subsingleton_scalar_idx : Subsingleton Cert.Pre_finite_inputs.S_.Idx := ⟨fun a b => funext fun d => d.elim0⟩

/-- The pattern of +∞ denotes ⊤. -/
theorem ofBits_inf : Ideal.ofBits .f32 0x7F800000#32 = (⊤ : EReal) := by simp [Ideal.ofBits, Ideal.ieee]

/-- An extended real whose absolute value `max x (-x)` is strictly below +∞ is the coercion of its real part. -/
theorem coe_toReal_of_abs_lt (x : EReal)
    (h : Ideal.cmp .olt (max x (-x)) (Ideal.ofBits .f32 0x7F800000#32) = 1#1) : x = ((x.toReal : ℝ) : EReal) := by
  rw [ofBits_inf] at h
  have hlt : max x (-x) < ⊤ := by
    by_contra hn
    simp [Ideal.cmp, hn] at h
  have htop : x ≠ ⊤ := by
    rintro rfl
    simp at hlt
  have hbot : x ≠ ⊥ := by
    rintro rfl
    simp at hlt
  exact (EReal.coe_toReal htop hbot).symm

/-- Under the precondition every entry of both inputs is a real. -/
theorem reals_of_pre [hP : Cert.Pre_finite_inputs.Facts]
    (X : FVec Ideal Cert.Pre_finite_inputs.S8192x128 .f32) (Y : FVec Ideal Cert.Pre_finite_inputs.S8192x16 .f32)
    (h : Cert.Pre_finite_inputs.fn (F := Ideal) X Y = (fun _ => 1#1)) :
    ∃ (xr : Fin 8192 → Fin 128 → ℝ) (yr : Fin 8192 → Fin 16 → ℝ),
      (∀ a k, X (ix2 a k) = ((xr a k : ℝ) : EReal)) ∧ (∀ a k, Y (ix2 a k) = ((yr a k : ℝ) : EReal)) := by
  have e := congrFun h ix0
  dsimp only [Cert.Pre_finite_inputs.fn] at e
  obtain ⟨ex, ey⟩ := IntOp.andi_eq_one.1 e
  refine ⟨fun a k => (X (ix2 a k)).toReal, fun a k => (Y (ix2 a k)).toReal, fun a k => ?_, fun a k => ?_⟩
  · exact coe_toReal_of_abs_lt _ (Host.reduce_andi_all _ _ _ _ _ ex (ix2 a k))
  · exact coe_toReal_of_abs_lt _ (Host.reduce_andi_all _ _ _ _ _ ey (ix2 a k))

end Cert.Hsic

end
-- ==== Proof.lean ====
/-
  The certificate of an HSIC statistic computed tile by tile against its plain formulation.

  Both programs take x : [8192, 128] and y : [8192, 16]. With K a b = exp (-(((-2) * ⟨x a, x b⟩ + |x a|²) + |x b|²) / 1)
  and L the same of y, the reference forms the doubly centred matrix K - colmean K - rowmean K + mean K and returns
  sum (L * Kc) / 67092480. The kernel walks the 16 × 16 grid of 512 × 512 tiles, keeps for each row of tiles three
  running vectors — the row sums of K, of L and of K * L —, writes them back after the last tile of the row, and
  finishes on the host: ((sum (K * L) - 2 * sum ((R_K / 8192) * R_L)) + (T_K / 67108864) * T_L) / 67092480.

  Over the reals the two numbers are equal because K and L are symmetric, so the column means are the row means
  (Proof/Spec.lean). The inputs are finite (the precondition), so every intermediate value of either program at the
  ideal instance is a real number and the equation of reals is the equation of results.

  The three frames: the kernel's two programs run to the end from any memory, their two argument arrays unchanged
  (the region's windows read them through two half shares each and give them back; the host operations after the
  region write other buffers), and the reference is a sequence of host operations.
-/
import proofs.«141356_j76493367542784_1_alg».proof.Defs
import proofs.«141356_j76493367542784_1_alg».proof.Proof.Gen.Kernel
import proofs.«141356_j76493367542784_1_alg».proof.Proof.Gen.KernelIdeal
import proofs.«141356_j76493367542784_1_alg».proof.Proof.Gen.ReferenceIdeal
import proofs.«141356_j76493367542784_1_alg».proof.Proof.Gen.Pre_finite_inputs
import proofs.«141356_j76493367542784_1_alg».proof.Proof.Gen.ReferenceIdeal.Run
import proofs.«141356_j76493367542784_1_alg».proof.Proof.Gen.ReferenceIdeal.Read
import proofs.«141356_j76493367542784_1_alg».proof.Proof.KBody
import proofs.«141356_j76493367542784_1_alg».proof.Proof.KRun
import proofs.«141356_j76493367542784_1_alg».proof.Proof.KIBody
import proofs.«141356_j76493367542784_1_alg».proof.Proof.KIRun
import proofs.«141356_j76493367542784_1_alg».proof.Proof.KIValue
import proofs.«141356_j76493367542784_1_alg».proof.Proof.RefValue
import proofs.«141356_j76493367542784_1_alg».proof.Proof.Finite
import proofs.«141356_j76493367542784_1_alg».proof.Proof.Spec
import Idealize.ShloMosaic.Adequacy
import Idealize.ShloMosaic.Init

noncomputable section

namespace Cert.Proof

open Idealize.ShloMosaic Idealize.ShloMosaic.TcCoe Idealize.SL.Sem Cert.Hsic

/-! ## The two kernel programs' proof data and runs -/

/-- The word-level program's proof data, at the launch memory. -/
abbrev datK (m : (ℓ : Loc Cert.Kernel.nD Cert.Kernel.τ Cert.Kernel.sig) → Buf (Elt Bits) ℓ) (c : Dev Cert.Kernel.nD) :=
  Cert.Kernel.Hand.dat0 (fun c b => m ((c : Thread Cert.Kernel.nD Cert.Kernel.τ).loc b)) c

/-- The idealized program's proof data, at the launch memory. -/
abbrev datKI (m : (ℓ : Loc Cert.KernelIdeal.nD Cert.KernelIdeal.τ Cert.KernelIdeal.sig) → Buf (Elt Ideal) ℓ) (c : Dev Cert.KernelIdeal.nD) :=
  Cert.KernelIdeal.Hand.dat0 (fun c b => m ((c : Thread Cert.KernelIdeal.nD Cert.KernelIdeal.τ).loc b)) c

/-! ## The claims -/

theorem frame_k : Cert.frame_Kernel := fun m ρ _ =>
  (θ_run Cert.Kernel.defs _ _).mono (fun _ h c => ⟨(h c).1, (h c).2.1⟩)
    (Cert.Kernel.Hand.run_main_of (F := Bits) m ρ (datK m)
      (fun _ _ => rfl) (fun _ _ => rfl) (fun _ _ => rfl) (fun _ => rfl) (fun _ => rfl) (fun _ => rfl) (fun _ => rfl) (fun _ => rfl)
      (fun c => Cert.Kernel.Hand.body_obligation0 _ c))

theorem frame_ki : Cert.frame_KernelIdeal := fun m ρ _ =>
  (θ_run Cert.KernelIdeal.defs _ _).mono (fun _ h c => ⟨(h c).1, (h c).2.1⟩)
    (Cert.KernelIdeal.Hand.run_main_of (F := Ideal) m ρ (datKI m)
      (fun _ _ => rfl) (fun _ _ => rfl) (fun _ _ => rfl) (fun _ => rfl) (fun _ => rfl) (fun _ => rfl) (fun _ => rfl) (fun _ => rfl)
      (fun c => Cert.KernelIdeal.Hand.body_obligation0 _ c))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two arguments both programs end at the same extended real: the inputs are finite,
    so they are real matrices; the kernel's result is the coercion of `kernelForm` of their two Gram matrices, the
    reference's of `refForm`, and the two forms agree because a Gram matrix is symmetric. -/
theorem algebraic : Cert.algebraic_KernelIdeal_ReferenceIdeal := by
  intro m ρ m' ρ' hpre hagree
  have hr := fun c => reals_of_pre _ _ (hpre c)
  choose xr yr hx hy using hr
  refine ⟨fun c _ => ((kernelForm (gram (xr c)) (gram (yr c)) 8192 67108864 67092480 : ℝ) : EReal), ?_, ?_⟩
  · refine (θ_run Cert.KernelIdeal.defs _ _).mono (fun _ h c => ⟨(h c).2.2.trans ?_, (h c).1, (h c).2.1⟩)
      (Cert.KernelIdeal.Hand.run_main_of (F := Ideal) m ρ (datKI m)
        (fun _ _ => rfl) (fun _ _ => rfl) (fun _ _ => rfl) (fun _ => rfl) (fun _ => rfl) (fun _ => rfl) (fun _ => rfl) (fun _ => rfl)
        (fun c => Cert.KernelIdeal.Hand.body_obligation0 _ c))
    exact Cert.KernelIdeal.HandValue.kernel_value m ρ c (xr c) (yr c) (hx c) (hy c)
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v50_eq, (hagree c).1, (hagree c).2]
    funext i
    rw [Cert.ReferenceIdeal.RefValue.ref_value _ _ (xr c) (yr c) (hx c) (hy c) i]
    exact congrArg (fun r : ℝ => (r : EReal)) (kernelForm_eq_refForm _ _ (gram_symm (xr c)) (gram_symm (yr c)) _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
